-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_v28 : IVec S_ 1) (main_v33 : IVec S_ 1) : IVec S_ 1 :=
  let main_v34 : IVec S_ 1 := andi main_v28 main_v33
  let main_v35 : IVec S1x800000 32 := (extractStridedSlice S1x800000 ![0, 0] · slices_S2x800000_S1x800000_0_0) main_arg1
  let main_v36 : IVec S800000 32 := shapeCast S800000 main_v35 shapeCasts_S1x800000_S800000
  let main_c_12 : IVec S_ 32 := constantI S_ 32 50000#32
  let main_v37 : IVec S800000 32 := broadcastInDim S800000 ![] bcast_S_S800000 main_c_12
  let main_v38 : IVec S800000 1 := cmpi .slt main_v36 main_v37
  let main_c_13 : IVec S_ 1 := constantI S_ 1 1#1
  let main_v39 : IVec S_ 1 := (fun x v => Host.reduce IntOp.andi x v reducesTo_S800000_S_d0 h_S_) main_v38 main_c_13
  let main_v40 : IVec S_ 1 := andi main_v34 main_v39
  main_v40

def fn_part1 {F : FTy → Type} [FloatOps F] (main_arg1 : IVec S2x800000 32) (main_arg5 : FVec F S3x128 .f32) (main_arg6 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : IVec S1x800000 32 := (extractStridedSlice S1x800000 ![0, 0] · slices_S2x800000_S1x800000_0_0) main_arg1
  let main_v30 : IVec S800000 32 := shapeCast S800000 main_v29 shapeCasts_S1x800000_S800000
  let main_c_10 : IVec S_ 32 := constantI S_ 32 0#32
  let main_v31 : IVec S800000 32 := broadcastInDim S800000 ![] bcast_S_S800000 main_c_10
  let main_v32 : IVec S800000 1 := cmpi .sge main_v30 main_v31
  let main_c_11 : IVec S_ 1 := constantI S_ 1 1#1
  let main_v33 : IVec S_ 1 := (fun x v => Host.reduce IntOp.andi x v reducesTo_S800000_S_d0 h_S_) main_v32 main_c_11
  fn_part2 (F := F) main_arg1 main_v28 main_v33

def fn {F : FTy → Type} [FloatOps F] (main_arg0 : FVec F S50000x128 .f32) (main_arg1 : IVec S2x800000 32) (main_arg2 : FVec F S3x128x128 .f32) (main_arg3 : FVec F S3x128 .f32) (main_arg4 : FVec F S3x128x128 .f32) (main_arg5 : FVec F S3x128 .f32) (main_arg6 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg1 main_arg5 main_arg6 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1 : Shape := ⟨1, ![1]⟩
abbrev S1x1 : Shape := ⟨2, ![1, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S5000x1 : Shape := ⟨2, ![5000, 1]⟩
abbrev S5000 : Shape := ⟨1, ![5000]⟩

abbrev nBuf : Space → Nat
  | .hbm => 149
  | .vmem => 39
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S1x800000, .i32⟩
  | 8 => ⟨S800000, .i32⟩
  | 9 => ⟨S1x800000, .i32⟩
  | 10 => ⟨S800000, .i32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S_, .f32⟩
  | 21 => ⟨S50000, .f32⟩
  | 22 => ⟨S50000, .f32⟩
  | 23 => ⟨S50000x1, .f32⟩
  | 24 => ⟨S3x128x128, .f32⟩
  | 25 => ⟨S3x128x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S1, .i32⟩
  | 35 => ⟨S_, .i32⟩
  | 36 => ⟨S800000x1, .i32⟩
  | 37 => ⟨S800000x1, .i1⟩
  | 38 => ⟨S1x1, .i32⟩
  | 39 => ⟨S800000x1, .i32⟩
  | 40 => ⟨S800000x1, .i1⟩
  | 41 => ⟨S800000x1, .i1⟩
  | 42 => ⟨S_, .i1⟩
  | 43 => ⟨S800000, .i1⟩
  | 44 => ⟨S800000x128, .f32⟩
  | 45 => ⟨S800000x128, .i1⟩
  | 46 => ⟨S_, .f32⟩
  | 47 => ⟨S800000x128, .f32⟩
  | 48 => ⟨S800000x128, .f32⟩
  | 49 => ⟨S_, .f32⟩
  | 50 => ⟨S50000x128, .f32⟩
  | 51 => ⟨S800000x1, .i32⟩
  | 52 => ⟨S50000x128, .f32⟩
  | 53 => ⟨S1x128x128, .f32⟩
  | 54 => ⟨S128x128, .f32⟩
  | 55 => ⟨S1x128, .f32⟩
  | 56 => ⟨S128, .f32⟩
  | 57 => ⟨S1x128x128, .f32⟩
  | 58 => ⟨S128x128, .f32⟩
  | 59 => ⟨S1x128, .f32⟩
  | 60 => ⟨S128, .f32⟩
  | 61 => ⟨S1x128, .f32⟩
  | 62 => ⟨S128, .f32⟩
  | 63 => ⟨S1x128, .f32⟩
  | 64 => ⟨S1x128, .f32⟩
  | 65 => ⟨S1x128, .f32⟩
  | 66 => ⟨S50000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S1, .i32⟩
  | 76 => ⟨S_, .i32⟩
  | 77 => ⟨S800000x1, .i32⟩
  | 78 => ⟨S800000x1, .i1⟩
  | 79 => ⟨S1x1, .i32⟩
  | 80 => ⟨S800000x1, .i32⟩
  | 81 => ⟨S800000x1, .i1⟩
  | 82 => ⟨S800000x1, .i1⟩
  | 83 => ⟨S_, .i1⟩
  | 84 => ⟨S800000, .i1⟩
  | 85 => ⟨S800000x128, .f32⟩
  | 86 => ⟨S800000x128, .i1⟩
  | 87 => ⟨S_, .f32⟩
  | 88 => ⟨S800000x128, .f32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S1x128x128, .f32⟩
  | 95 => ⟨S128x128, .f32⟩
  | 96 => ⟨S1x128, .f32⟩
  | 97 => ⟨S128, .f32⟩
  | 98 => ⟨S1x128x128, .f32⟩
  | 99 => ⟨S128x128, .f32⟩
  | 100 => ⟨S1x128, .f32⟩
  | 101 => ⟨S128, .f32⟩
  | 102 => ⟨S1x128, .f32⟩
  | 103 => ⟨S128, .f32⟩
  | 104 => ⟨S1x128, .f32⟩
  | 105 => ⟨S1x128, .f32⟩
  | 106 => ⟨S1x128, .f32⟩
  | 107 => ⟨S50000x128, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S1, .i32⟩
  | 117 => ⟨S_, .i32⟩
  | 118 => ⟨S800000x1, .i32⟩
  | 119 => ⟨S800000x1, .i1⟩
  | 120 => ⟨S1x1, .i32⟩
  | 121 => ⟨S800000x1, .i32⟩
  | 122 => ⟨S800000x1, .i1⟩
  | 123 => ⟨S800000x1, .i1⟩
  | 124 => ⟨S_, .i1⟩
  | 125 => ⟨S800000, .i1⟩
  | 126 => ⟨S800000x128, .f32⟩
  | 127 => ⟨S800000x128, .i1⟩
  | _ => ⟨S50000x128, .f32⟩

abbrev hbmTy0_1 (i : Nat) : BufTy := match i % 128 with
  | 0 => ⟨S_, .f32⟩
  | 1 => ⟨S800000x128, .f32⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S1x128x128, .f32⟩
  | 8 => ⟨S128x128, .f32⟩
  | 9 => ⟨S1x128, .f32⟩
  | 10 => ⟨S128, .f32⟩
  | 11 => ⟨S1x128x128, .f32⟩
  | 12 => ⟨S128x128, .f32⟩
  | 13 => ⟨S1x128, .f32⟩
  | 14 => ⟨S128, .f32⟩
  | 15 => ⟨S1x128, .f32⟩
  | 16 => ⟨S128, .f32⟩
  | 17 => ⟨S1x128, .f32⟩
  | 18 => ⟨S1x128, .f32⟩
  | 19 => ⟨S1x128, .f32⟩
  | 20 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x1, .f32⟩
  | .local _ .vmem, ⟨29, _⟩ => ⟨S5000x1, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v15 : Ref sig .tc := ⟨.hbm, 48, rfl⟩
abbrev main_cst_3 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_call1_c : Ref sig .tc := ⟨.hbm, 67, rfl⟩
abbrev main_call1_v0 : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_c_1 : Ref sig .tc := ⟨.hbm, 75, rfl⟩
abbrev main_call1_c_2 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_3 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_call1_cst : Ref sig .tc := ⟨.hbm, 87, rfl⟩
abbrev main_call1_v15 : Ref sig .tc := ⟨.hbm, 88, rfl⟩
abbrev main_v33 : Ref sig .tc := ⟨.hbm, 89, rfl⟩
abbrev main_cst_4 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_call2_c : Ref sig .tc := ⟨.hbm, 108, rfl⟩
abbrev main_call2_v0 : Ref sig .tc := ⟨.hbm, 109, rfl⟩
abbrev main_call2_v1 : Ref sig .tc := ⟨.hbm, 110, rfl⟩
abbrev main_call2_c_0 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_c_1 : Ref sig .tc := ⟨.hbm, 116, rfl⟩
abbrev main_call2_c_2 : Ref sig .tc := ⟨.hbm, 117, rfl⟩
abbrev main_call2_v6 : Ref sig .tc := ⟨.hbm, 118, rfl⟩
abbrev main_call2_v7 : Ref sig .tc := ⟨.hbm, 119, rfl⟩
abbrev main_call2_v8 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_c_3 : Ref sig .tc := ⟨.hbm, 124, rfl⟩
abbrev main_call2_v12 : Ref sig .tc := ⟨.hbm, 125, rfl⟩
abbrev main_call2_v13 : Ref sig .tc := ⟨.hbm, 126, rfl⟩
abbrev main_call2_v14 : Ref sig .tc := ⟨.hbm, 127, rfl⟩
abbrev main_call2_cst : Ref sig .tc := ⟨.hbm, 128, rfl⟩
abbrev main_call2_v15 : Ref sig .tc := ⟨.hbm, 129, rfl⟩
abbrev main_v51 : Ref sig .tc := ⟨.hbm, 130, rfl⟩
abbrev main_cst_5 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg8_0 : Ref sig .tc := ⟨.vmem, 37, rfl⟩
abbrev cc2_stg8_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev cc2_sem8_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  transposes_S3x128x128_S3x128x128_0_2_1 : S3x128x128.Transposes [0, 2, 1] S3x128x128
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S50000x128.size a
  hwx2_8 : ∀ i : grid2.Coords, EltTy.bits .f32 = 32 ∨ (Rect.block (s := S50000x128) S5000x128.size (cc2_transform_8 i) (hinb2_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v32) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v50) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v56) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v67) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v68) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 219
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S1x800000, .i32⟩
  | 8 => ⟨S800000, .i32⟩
  | 9 => ⟨S1x800000, .i32⟩
  | 10 => ⟨S800000, .i32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S_, .f32⟩
  | 21 => ⟨S50000, .f32⟩
  | 22 => ⟨S50000, .f32⟩
  | 23 => ⟨S50000x1, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S50000x128, .f32⟩
  | 38 => ⟨S50000x128, .f32⟩
  | 39 => ⟨S1x128x128, .f32⟩
  | 40 => ⟨S128x128, .f32⟩
  | 41 => ⟨S128x128, .f32⟩
  | 42 => ⟨S50000x128, .f32⟩
  | 43 => ⟨S1x128, .f32⟩
  | 44 => ⟨S128, .f32⟩
  | 45 => ⟨S1x128, .f32⟩
  | 46 => ⟨S50000x128, .f32⟩
  | 47 => ⟨S50000x128, .f32⟩
  | 48 => ⟨S1x128x128, .f32⟩
  | 49 => ⟨S128x128, .f32⟩
  | 50 => ⟨S128x128, .f32⟩
  | 51 => ⟨S50000x128, .f32⟩
  | 52 => ⟨S50000x128, .f32⟩
  | 53 => ⟨S1x128, .f32⟩
  | 54 => ⟨S128, .f32⟩
  | 55 => ⟨S1x128, .f32⟩
  | 56 => ⟨S128, .f32⟩
  | 57 => ⟨S_, .f32⟩
  | 58 => ⟨S50000, .f32⟩
  | 59 => ⟨S50000x1, .f32⟩
  | 60 => ⟨S_, .f32⟩
  | 61 => ⟨S50000x1, .f32⟩
  | 62 => ⟨S50000x1, .f32⟩
  | 63 => ⟨S50000x128, .f32⟩
  | 64 => ⟨S50000x128, .f32⟩
  | 65 => ⟨S50000x128, .f32⟩
  | 66 => ⟨S_, .f32⟩
  | 67 => ⟨S50000, .f32⟩
  | 68 => ⟨S50000x1, .f32⟩
  | 69 => ⟨S_, .f32⟩
  | 70 => ⟨S50000x1, .f32⟩
  | 71 => ⟨S50000x1, .f32⟩
  | 72 => ⟨S50000x128, .f32⟩
  | 73 => ⟨S50000x128, .f32⟩
  | 74 => ⟨S_, .f32⟩
  | 75 => ⟨S50000x1, .f32⟩
  | 76 => ⟨S50000x1, .f32⟩
  | 77 => ⟨S50000x1, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x128, .f32⟩
  | 98 => ⟨S_, .f32⟩
  | 99 => ⟨S50000x128, .f32⟩
  | 100 => ⟨S800000x1, .i32⟩
  | 101 => ⟨S50000x128, .f32⟩
  | 102 => ⟨S50000x128, .f32⟩
  | 103 => ⟨S50000x128, .f32⟩
  | 104 => ⟨S1x128x128, .f32⟩
  | 105 => ⟨S128x128, .f32⟩
  | 106 => ⟨S128x128, .f32⟩
  | 107 => ⟨S50000x128, .f32⟩
  | 108 => ⟨S1x128, .f32⟩
  | 109 => ⟨S128, .f32⟩
  | 110 => ⟨S1x128, .f32⟩
  | 111 => ⟨S50000x128, .f32⟩
  | 112 => ⟨S50000x128, .f32⟩
  | 113 => ⟨S1x128x128, .f32⟩
  | 114 => ⟨S128x128, .f32⟩
  | 115 => ⟨S128x128, .f32⟩
  | 116 => ⟨S50000x128, .f32⟩
  | 117 => ⟨S50000x128, .f32⟩
  | 118 => ⟨S1x128, .f32⟩
  | 119 => ⟨S128, .f32⟩
  | 120 => ⟨S1x128, .f32⟩
  | 121 => ⟨S128, .f32⟩
  | 122 => ⟨S_, .f32⟩
  | 123 => ⟨S50000, .f32⟩
  | 124 => ⟨S50000x1, .f32⟩
  | 125 => ⟨S_, .f32⟩
  | 126 => ⟨S50000x1, .f32⟩
  | 127 => ⟨S50000x1, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S_, .f32⟩
  | 4 => ⟨S50000, .f32⟩
  | 5 => ⟨S50000x1, .f32⟩
  | 6 => ⟨S_, .f32⟩
  | 7 => ⟨S50000x1, .f32⟩
  | 8 => ⟨S50000x1, .f32⟩
  | 9 => ⟨S50000x128, .f32⟩
  | 10 => ⟨S50000x128, .f32⟩
  | 11 => ⟨S_, .f32⟩
  | 12 => ⟨S50000x1, .f32⟩
  | 13 => ⟨S50000x1, .f32⟩
  | 14 => ⟨S50000x1, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S50000x128, .f32⟩
  | 40 => ⟨S50000x128, .f32⟩
  | 41 => ⟨S1x128x128, .f32⟩
  | 42 => ⟨S128x128, .f32⟩
  | 43 => ⟨S128x128, .f32⟩
  | 44 => ⟨S50000x128, .f32⟩
  | 45 => ⟨S1x128, .f32⟩
  | 46 => ⟨S128, .f32⟩
  | 47 => ⟨S1x128, .f32⟩
  | 48 => ⟨S50000x128, .f32⟩
  | 49 => ⟨S50000x128, .f32⟩
  | 50 => ⟨S1x128x128, .f32⟩
  | 51 => ⟨S128x128, .f32⟩
  | 52 => ⟨S128x128, .f32⟩
  | 53 => ⟨S50000x128, .f32⟩
  | 54 => ⟨S50000x128, .f32⟩
  | 55 => ⟨S1x128, .f32⟩
  | 56 => ⟨S128, .f32⟩
  | 57 => ⟨S1x128, .f32⟩
  | 58 => ⟨S128, .f32⟩
  | 59 => ⟨S_, .f32⟩
  | 60 => ⟨S50000, .f32⟩
  | 61 => ⟨S50000x1, .f32⟩
  | 62 => ⟨S_, .f32⟩
  | 63 => ⟨S50000x1, .f32⟩
  | 64 => ⟨S50000x1, .f32⟩
  | 65 => ⟨S50000x128, .f32⟩
  | 66 => ⟨S50000x128, .f32⟩
  | 67 => ⟨S50000x128, .f32⟩
  | 68 => ⟨S_, .f32⟩
  | 69 => ⟨S50000, .f32⟩
  | 70 => ⟨S50000x1, .f32⟩
  | 71 => ⟨S_, .f32⟩
  | 72 => ⟨S50000x1, .f32⟩
  | 73 => ⟨S50000x1, .f32⟩
  | 74 => ⟨S50000x128, .f32⟩
  | 75 => ⟨S50000x128, .f32⟩
  | 76 => ⟨S_, .f32⟩
  | 77 => ⟨S50000x1, .f32⟩
  | 78 => ⟨S50000x1, .f32⟩
  | 79 => ⟨S50000x1, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S_, .f32⟩
  | 89 => ⟨S50000x128, .f32⟩
  | 90 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_call0_cst : Ref sig .tc := ⟨.hbm, 86, rfl⟩
abbrev main_call0_v0 : Ref sig .tc := ⟨.hbm, 87, rfl⟩
abbrev main_v67 : Ref sig .tc := ⟨.hbm, 88, rfl⟩
abbrev main_c_10 : Ref sig .tc := ⟨.hbm, 89, rfl⟩
abbrev main_v68 : Ref sig .tc := ⟨.hbm, 90, rfl⟩
abbrev main_v69 : Ref sig .tc := ⟨.hbm, 91, rfl⟩
abbrev main_c_11 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_12 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_13 : Ref sig .tc := ⟨.hbm, 122, rfl⟩
abbrev main_v98 : Ref sig .tc := ⟨.hbm, 123, rfl⟩
abbrev main_v99 : Ref sig .tc := ⟨.hbm, 124, rfl⟩
abbrev main_cst_14 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_15 : Ref sig .tc := ⟨.hbm, 131, rfl⟩
abbrev main_v105 : Ref sig .tc := ⟨.hbm, 132, rfl⟩
abbrev main_v106 : Ref sig .tc := ⟨.hbm, 133, rfl⟩
abbrev main_cst_16 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_17 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_call1_cst : Ref sig .tc := ⟨.hbm, 151, rfl⟩
abbrev main_call1_v0 : Ref sig .tc := ⟨.hbm, 152, rfl⟩
abbrev main_v122 : Ref sig .tc := ⟨.hbm, 153, rfl⟩
abbrev main_c_18 : Ref sig .tc := ⟨.hbm, 154, rfl⟩
abbrev main_v123 : Ref sig .tc := ⟨.hbm, 155, rfl⟩
abbrev main_v124 : Ref sig .tc := ⟨.hbm, 156, rfl⟩
abbrev main_c_19 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_20 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_21 : Ref sig .tc := ⟨.hbm, 187, rfl⟩
abbrev main_v153 : Ref sig .tc := ⟨.hbm, 188, rfl⟩
abbrev main_v154 : Ref sig .tc := ⟨.hbm, 189, rfl⟩
abbrev main_cst_22 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_cst_23 : Ref sig .tc := ⟨.hbm, 196, rfl⟩
abbrev main_v160 : Ref sig .tc := ⟨.hbm, 197, rfl⟩
abbrev main_v161 : Ref sig .tc := ⟨.hbm, 198, rfl⟩
abbrev main_cst_24 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_cst_25 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_call2_cst : Ref sig .tc := ⟨.hbm, 216, rfl⟩
abbrev main_call2_v0 : Ref sig .tc := ⟨.hbm, 217, rfl⟩
abbrev main_v177 : Ref sig .tc := ⟨.hbm, 218, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RefStages.lean ====
/-
  The reference's program read back stage by stage. Its 212 operations are cut where a layer ends: the edge list and
  the reciprocal degrees first, then each layer's 65 operations. From any buffer contents in which a layer's inputs
  hold their stages, the layer's operations leave its last stage in its result buffer and do not touch the buffers
  later layers read; threading the four pieces gives the whole program's result buffer as the last stage of the
  argument arrays.
-/
import proofs.«421054_j73529840107534_3_alg».proof.Proof.RefRun
import proofs.«421054_j73529840107534_3_alg».proof.Proof.RefRead
import Idealize.ShloMosaic.Lib.StableHlo.Run

set_option maxRecDepth 16384

noncomputable section

namespace Cert.Sage.RS

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The edge list's two rows and the reciprocal clipped in-degrees. -/
abbrev opsPre : List (HloOp τ sig (Elt F)) :=
  [
    unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (maximumf : (⟨S50000, .f32⟩ : BufTy).Contents (Elt F) → (⟨S50000, .f32⟩ : BufTy).Contents (Elt F) → (⟨S50000, .f32⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v10 main_v9 main_v11 (Host.divf : (⟨S50000, .f32⟩ : BufTy).Contents (Elt F) → (⟨S50000, .f32⟩ : BufTy).Contents (Elt F) → (⟨S50000, .f32⟩ : BufTy).Contents (Elt F)),
    unary main_v11 main_v12 (broadcastInDim S50000x1 ![0] bcast_S50000_S50000x1_0 : (⟨S50000, .f32⟩ : BufTy).Contents (Elt F) → (⟨S50000x1, .f32⟩ : BufTy).Contents (Elt F)) ]

/-- Layer 0. -/
abbrev opsL0 : List (HloOp τ sig (Elt F)) :=
  [
    nullary main_c (constantI S_ 32 0#32),
    unary main_c main_v13 (broadcastInDim S800000 ![] bcast_S_S800000 : (⟨S_, .i32⟩ : BufTy).Contents (Elt F) → (⟨S800000, .i32⟩ : BufTy).Contents (Elt F)),
    binary main_v1 main_v13 main_v14 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v15 (broadcastInDim S800000 ![] bcast_S_S800000 : (⟨S_, .i32⟩ : BufTy).Contents (Elt F) → (⟨S800000, .i32⟩ : BufTy).Contents (Elt F)),
    binary main_v1 main_v15 main_v16 (addi : (⟨S800000, .i32⟩ : BufTy).Contents (Elt F) → (⟨S800000, .i32⟩ : BufTy).Contents (Elt F) → (⟨S800000, .i32⟩ : BufTy).Contents (Elt F)),
    ternary main_v14 main_v16 main_v1 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v17 main_v18 (broadcastInDim S800000x1 ![0] bcast_S800000_S800000x1_0 : (⟨S800000, .i32⟩ : BufTy).Contents (Elt F) → (⟨S800000x1, .i32⟩ : BufTy).Contents (Elt F)),
    binary main_arg0 main_v18 main_v19 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_4 (constant S_ .f32 0x00000000#32),
    unary main_cst_4 main_v20 (broadcastInDim S50000x128 ![] bcast_S_S50000x128 : (⟨S_, .f32⟩ : BufTy).Contents (Elt F) → (⟨S50000x128, .f32⟩ : BufTy).Contents (Elt F)),
    unary main_v3 main_v21 (broadcastInDim S800000x1 ![0] bcast_S800000_S800000x1_0 : (⟨S800000, .i32⟩ : BufTy).Contents (Elt F) → (⟨S800000x1, .i32⟩ : BufTy).Contents (Elt F)),
    ternary main_v20 main_v21 main_v19 main_v22 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v23 (broadcastInDim S50000x128 ![0, 1] bcast_S50000x1_S50000x128_0_1 : (⟨S50000x1, .f32⟩ : BufTy).Contents (Elt F) → (⟨S50000x128, .f32⟩ : BufTy).Contents (Elt F)),
    binary main_v22 main_v23 main_v24 (mulf : (⟨S50000x128, .f32⟩ : BufTy).Contents (Elt F) → (⟨S50000x128, .f32⟩ : BufTy).Contents (Elt F) → (⟨S50000x128, .f32⟩ : BufTy).Contents (Elt F)),
    unary main_arg2 main_v25 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v25 main_v26 rfl shapeCasts_S1x128x128_S128x128,
    unary main_v26 main_v27 ((transpose S128x128 [1, 0] · transposes_S128x128_S128x128_1_0) : (⟨S128x128, .f32⟩ : BufTy).Contents (Elt F) → (⟨S128x128, .f32⟩ : BufTy).Contents (Elt F)),
    binary main_v24 main_v27 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v29 ((extractStridedSlice S1x128 ![0, 0] · slices_S3x128_S1x128_0_0) : (⟨S3x128, .f32⟩ : BufTy).Contents (Elt F) → (⟨S1x128, .f32⟩ : BufTy).Contents (Elt F)),
    reshape main_v29 main_v30 rfl shapeCasts_S1x128_S128,
    unary main_v30 main_v31 (broadcastInDim S1x128 ![1] bcast_S128_S1x128_1 : (⟨S128, .f32⟩ : BufTy).Contents (Elt F) → (⟨S1x128, .f32⟩ : BufTy).Contents (Elt F)),
    unary main_v31 main_v32 (broadcastInDim S50000x128 ![0, 1] bcast_S1x128_S50000x128_0_1 : (⟨S1x128, .f32⟩ : BufTy).Contents (Elt F) → (⟨S50000x128, .f32⟩ : BufTy).Contents (Elt F)),
    binary main_v28 main_v32 main_v33 (addf : (⟨S50000x128, .f32⟩ : BufTy).Contents (Elt F) → (⟨S50000x128, .f32⟩ : BufTy).Contents (Elt F) → (⟨S50000x128, .f32⟩ : BufTy).Contents (Elt F)),
    unary main_arg4 main_v34 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v34 main_v35 rfl shapeCasts_S1x128x128_S128x128,
    unary main_v35 main_v36 ((transpose S128x128 [1, 0] · transposes_S128x128_S128x128_1_0) : (⟨S128x128, .f32⟩ : BufTy).Contents (Elt F) → (⟨S128x128, .f32⟩ : BufTy).Contents (Elt F)),
    binary main_arg0 main_v36 main_v37 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v33 main_v37 main_v38 (addf : (⟨S50000x128, .f32⟩ : BufTy).Contents (Elt F) → (⟨S50000x128, .f32⟩ : BufTy).Contents (Elt F) → (⟨S50000x128, .f32⟩ : BufTy).Contents (Elt F)),
    unary main_arg5 main_v39 ((extractStridedSlice S1x128 ![0, 0] · slices_S3x128_S1x128_0_0) : (⟨S3x128, .f32⟩ : BufTy).Contents (Elt F) → (⟨S1x128, .f32⟩ : BufTy).Contents (Elt F)),
    reshape main_v39 main_v40 rfl shapeCasts_S1x128_S128,
    unary main_arg6 main_v41 ((extractStridedSlice S1x128 ![0, 0] · slices_S3x128_S1x128_0_0) : (⟨S3x128, .f32⟩ : BufTy).Contents (Elt F) → (⟨S1x128, .f32⟩ : BufTy).Contents (Elt F)),
    reshape main_v41 main_v42 rfl shapeCasts_S1x128_S128,
    nullary main_cst_5 (constant S_ .f32 0x00000000#32),
    binary main_v38 main_cst_5 main_v43 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v43 main_v44 (broadcastInDim S50000x1 ![0] bcast_S50000_S50000x1_0 : (⟨S50000, .f32⟩ : BufTy).Contents (Elt F) → (⟨S50000x1, .f32⟩ : BufTy).Contents (Elt F)),
    nullary main_cst_6 (constant S_ .f32 0x43000000#32),
    unary main_cst_6 main_v45 (broadcastInDim S50000x1 ![] bcast_S_S50000x1 : (⟨S_, .f32⟩ : BufTy).Contents (Elt F) → (⟨S50000x1, .f32⟩ : BufTy).Contents (Elt F)),
    binary main_v44 main_v45 main_v46 (Host.divf : (⟨S50000x1, .f32⟩ : BufTy).Contents (Elt F) → (⟨S50000x1, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v38 main_v47 main_v48 (subf : (⟨S50000x128, .f32⟩ : BufTy).Contents (Elt F) → (⟨S50000x128, .f32⟩ : BufTy).Contents (Elt F) → (⟨S50000x128, .f32⟩ : BufTy).Contents (Elt F)),
    binary main_v48 main_v48 main_v49 (mulf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x00000000#32),
    binary main_v49 main_cst_7 main_v50 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v50 main_v51 (broadcastInDim S50000x1 ![0] bcast_S50000_S50000x1_0 : (⟨S50000, .f32⟩ : BufTy).Contents (Elt F) → (⟨S50000x1, .f32⟩ : BufTy).Contents (Elt F)),
    nullary main_cst_8 (constant S_ .f32 0x43000000#32),
    unary main_cst_8 main_v52 (broadcastInDim S50000x1 ![] bcast_S_S50000x1 : (⟨S_, .f32⟩ : BufTy).Contents (Elt F) → (⟨S50000x1, .f32⟩ : BufTy).Contents (Elt F)),
    binary main_v51 main_v52 main_v53 (Host.divf : (⟨S50000x1, .f32⟩ : BufTy).Contents (Elt F) → (⟨S50000x1, .f32⟩ : BufTy).Contents (Elt F) → (⟨S50000x1, .f32⟩ : BufTy).Contents (Elt F)),
    unary main_v46 main_v54 (broadcastInDim S50000x128 ![0, 1] bcast_S50000x1_S50000x128_0_1 : (⟨S50000x1, .f32⟩ : BufTy).Contents (Elt F) → (⟨S50000x128, .f32⟩ : BufTy).Contents (Elt F)),
    binary main_v38 main_v54 main_v55 (subf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x3727C5AC#32),
    unary main_cst_9 main_v56 (broadcastInDim S50000x1 ![] bcast_S_S50000x1 : (⟨S_, .f32⟩ : BufTy).Contents (Elt F) → (⟨S50000x1, .f32⟩ : BufTy).Contents (Elt F)),
    binary main_v53 main_v56 main_v57 (addf : (⟨S50000x1, .f32⟩ : BufTy).Contents (Elt F) → (⟨S50000x1, .f32⟩ : BufTy).Contents (Elt F) → (⟨S50000x1, .f32⟩ : BufTy).Contents (Elt F)),
    unary main_v57 main_v58 (Host.rsqrt : (⟨S50000x1, .f32⟩ : BufTy).Contents (Elt F) → (⟨S50000x1, .f32⟩ : BufTy).Contents (Elt F)),
    unary main_v58 main_v59 (broadcastInDim S50000x128 ![0, 1] bcast_S50000x1_S50000x128_0_1 : (⟨S50000x1, .f32⟩ : BufTy).Contents (Elt F) → (⟨S50000x128, .f32⟩ : BufTy).Contents (Elt F)),
    binary main_v55 main_v59 main_v60 (mulf : (⟨S50000x128, .f32⟩ : BufTy).Contents (Elt F) → (⟨S50000x128, .f32⟩ : BufTy).Contents (Elt F) → (⟨S50000x128, .f32⟩ : BufTy).Contents (Elt F)),
    unary main_v40 main_v61 (broadcastInDim S1x128 ![1] bcast_S128_S1x128_1 : (⟨S128, .f32⟩ : BufTy).Contents (Elt F) → (⟨S1x128, .f32⟩ : BufTy).Contents (Elt F)),
    unary main_v61 main_v62 (broadcastInDim S50000x128 ![0, 1] bcast_S1x128_S50000x128_0_1 : (⟨S1x128, .f32⟩ : BufTy).Contents (Elt F) → (⟨S50000x128, .f32⟩ : BufTy).Contents (Elt F)),
    binary main_v60 main_v62 main_v63 (mulf : (⟨S50000x128, .f32⟩ : BufTy).Contents (Elt F) → (⟨S50000x128, .f32⟩ : BufTy).Contents (Elt F) → (⟨S50000x128, .f32⟩ : BufTy).Contents (Elt F)),
    unary main_v42 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v63 main_v65 main_v66 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v66) (TRef.of (T := ⟨S50000x128, .f32⟩) main_call0_v0) (TRef.of (T := ⟨S50000x128, .f32⟩) main_v67) maximumf ]

/-- Layer 1. -/
abbrev opsL1 : List (HloOp τ sig (Elt F)) :=
  [
    nullary main_c_10 (constantI S_ 32 0#32),
    unary main_c_10 main_v68 (broadcastInDim S800000 ![] bcast_S_S800000 : (⟨S_, .i32⟩ : BufTy).Contents (Elt F) → (⟨S800000, .i32⟩ : BufTy).Contents (Elt F)),
    binary main_v1 main_v68 main_v69 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v70 (broadcastInDim S800000 ![] bcast_S_S800000 : (⟨S_, .i32⟩ : BufTy).Contents (Elt F) → (⟨S800000, .i32⟩ : BufTy).Contents (Elt F)),
    binary main_v1 main_v70 main_v71 (addi : (⟨S800000, .i32⟩ : BufTy).Contents (Elt F) → (⟨S800000, .i32⟩ : BufTy).Contents (Elt F) → (⟨S800000, .i32⟩ : BufTy).Contents (Elt F)),
    ternary main_v69 main_v71 main_v1 main_v72 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v72 main_v73 (broadcastInDim S800000x1 ![0] bcast_S800000_S800000x1_0 : (⟨S800000, .i32⟩ : BufTy).Contents (Elt F) → (⟨S800000x1, .i32⟩ : BufTy).Contents (Elt F)),
    binary main_v67 main_v73 main_v74 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_12 (constant S_ .f32 0x00000000#32),
    unary main_cst_12 main_v75 (broadcastInDim S50000x128 ![] bcast_S_S50000x128 : (⟨S_, .f32⟩ : BufTy).Contents (Elt F) → (⟨S50000x128, .f32⟩ : BufTy).Contents (Elt F)),
    unary main_v3 main_v76 (broadcastInDim S800000x1 ![0] bcast_S800000_S800000x1_0 : (⟨S800000, .i32⟩ : BufTy).Contents (Elt F) → (⟨S800000x1, .i32⟩ : BufTy).Contents (Elt F)),
    ternary main_v75 main_v76 main_v74 main_v77 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v78 (broadcastInDim S50000x128 ![0, 1] bcast_S50000x1_S50000x128_0_1 : (⟨S50000x1, .f32⟩ : BufTy).Contents (Elt F) → (⟨S50000x128, .f32⟩ : BufTy).Contents (Elt F)),
    binary main_v77 main_v78 main_v79 (mulf : (⟨S50000x128, .f32⟩ : BufTy).Contents (Elt F) → (⟨S50000x128, .f32⟩ : BufTy).Contents (Elt F) → (⟨S50000x128, .f32⟩ : BufTy).Contents (Elt F)),
    unary main_arg2 main_v80 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v80 main_v81 rfl shapeCasts_S1x128x128_S128x128,
    unary main_v81 main_v82 ((transpose S128x128 [1, 0] · transposes_S128x128_S128x128_1_0) : (⟨S128x128, .f32⟩ : BufTy).Contents (Elt F) → (⟨S128x128, .f32⟩ : BufTy).Contents (Elt F)),
    binary main_v79 main_v82 main_v83 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v84 ((extractStridedSlice S1x128 ![1, 0] · slices_S3x128_S1x128_1_0) : (⟨S3x128, .f32⟩ : BufTy).Contents (Elt F) → (⟨S1x128, .f32⟩ : BufTy).Contents (Elt F)),
    reshape main_v84 main_v85 rfl shapeCasts_S1x128_S128,
    unary main_v85 main_v86 (broadcastInDim S1x128 ![1] bcast_S128_S1x128_1 : (⟨S128, .f32⟩ : BufTy).Contents (Elt F) → (⟨S1x128, .f32⟩ : BufTy).Contents (Elt F)),
    unary main_v86 main_v87 (broadcastInDim S50000x128 ![0, 1] bcast_S1x128_S50000x128_0_1 : (⟨S1x128, .f32⟩ : BufTy).Contents (Elt F) → (⟨S50000x128, .f32⟩ : BufTy).Contents (Elt F)),
    binary main_v83 main_v87 main_v88 (addf : (⟨S50000x128, .f32⟩ : BufTy).Contents (Elt F) → (⟨S50000x128, .f32⟩ : BufTy).Contents (Elt F) → (⟨S50000x128, .f32⟩ : BufTy).Contents (Elt F)),
    unary main_arg4 main_v89 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v89 main_v90 rfl shapeCasts_S1x128x128_S128x128,
    unary main_v90 main_v91 ((transpose S128x128 [1, 0] · transposes_S128x128_S128x128_1_0) : (⟨S128x128, .f32⟩ : BufTy).Contents (Elt F) → (⟨S128x128, .f32⟩ : BufTy).Contents (Elt F)),
    binary main_v67 main_v91 main_v92 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v88 main_v92 main_v93 (addf : (⟨S50000x128, .f32⟩ : BufTy).Contents (Elt F) → (⟨S50000x128, .f32⟩ : BufTy).Contents (Elt F) → (⟨S50000x128, .f32⟩ : BufTy).Contents (Elt F)),
    unary main_arg5 main_v94 ((extractStridedSlice S1x128 ![1, 0] · slices_S3x128_S1x128_1_0) : (⟨S3x128, .f32⟩ : BufTy).Contents (Elt F) → (⟨S1x128, .f32⟩ : BufTy).Contents (Elt F)),
    reshape main_v94 main_v95 rfl shapeCasts_S1x128_S128,
    unary main_arg6 main_v96 ((extractStridedSlice S1x128 ![1, 0] · slices_S3x128_S1x128_1_0) : (⟨S3x128, .f32⟩ : BufTy).Contents (Elt F) → (⟨S1x128, .f32⟩ : BufTy).Contents (Elt F)),
    reshape main_v96 main_v97 rfl shapeCasts_S1x128_S128,
    nullary main_cst_13 (constant S_ .f32 0x00000000#32),
    binary main_v93 main_cst_13 main_v98 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v98 main_v99 (broadcastInDim S50000x1 ![0] bcast_S50000_S50000x1_0 : (⟨S50000, .f32⟩ : BufTy).Contents (Elt F) → (⟨S50000x1, .f32⟩ : BufTy).Contents (Elt F)),
    nullary main_cst_14 (constant S_ .f32 0x43000000#32),
    unary main_cst_14 main_v100 (broadcastInDim S50000x1 ![] bcast_S_S50000x1 : (⟨S_, .f32⟩ : BufTy).Contents (Elt F) → (⟨S50000x1, .f32⟩ : BufTy).Contents (Elt F)),
    binary main_v99 main_v100 main_v101 (Host.divf : (⟨S50000x1, .f32⟩ : BufTy).Contents (Elt F) → (⟨S50000x1, .f32⟩ : BufTy).Contents (Elt F) → (⟨S50000x1, .f32⟩ : BufTy).Contents (Elt F)),
    unary main_v101 main_v102 (broadcastInDim S50000x128 ![0, 1] bcast_S50000x1_S50000x128_0_1 : (⟨S50000x1, .f32⟩ : BufTy).Contents (Elt F) → (⟨S50000x128, .f32⟩ : BufTy).Contents (Elt F)),
    binary main_v93 main_v102 main_v103 (subf : (⟨S50000x128, .f32⟩ : BufTy).Contents (Elt F) → (⟨S50000x128, .f32⟩ : BufTy).Contents (Elt F) → (⟨S50000x128, .f32⟩ : BufTy).Contents (Elt F)),
    binary main_v103 main_v103 main_v104 (mulf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x00000000#32),
    binary main_v104 main_cst_15 main_v105 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v105 main_v106 (broadcastInDim S50000x1 ![0] bcast_S50000_S50000x1_0 : (⟨S50000, .f32⟩ : BufTy).Contents (Elt F) → (⟨S50000x1, .f32⟩ : BufTy).Contents (Elt F)),
    nullary main_cst_16 (constant S_ .f32 0x43000000#32),
    unary main_cst_16 main_v107 (broadcastInDim S50000x1 ![] bcast_S_S50000x1 : (⟨S_, .f32⟩ : BufTy).Contents (Elt F) → (⟨S50000x1, .f32⟩ : BufTy).Contents (Elt F)),
    binary main_v106 main_v107 main_v108 (Host.divf : (⟨S50000x1, .f32⟩ : BufTy).Contents (Elt F) → (⟨S50000x1, .f32⟩ : BufTy).Contents (Elt F) → (⟨S50000x1, .f32⟩ : BufTy).Contents (Elt F)),
    unary main_v101 main_v109 (broadcastInDim S50000x128 ![0, 1] bcast_S50000x1_S50000x128_0_1 : (⟨S50000x1, .f32⟩ : BufTy).Contents (Elt F) → (⟨S50000x128, .f32⟩ : BufTy).Contents (Elt F)),
    binary main_v93 main_v109 main_v110 (subf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x3727C5AC#32),
    unary main_cst_17 main_v111 (broadcastInDim S50000x1 ![] bcast_S_S50000x1 : (⟨S_, .f32⟩ : BufTy).Contents (Elt F) → (⟨S50000x1, .f32⟩ : BufTy).Contents (Elt F)),
    binary main_v108 main_v111 main_v112 (addf : (⟨S50000x1, .f32⟩ : BufTy).Contents (Elt F) → (⟨S50000x1, .f32⟩ : BufTy).Contents (Elt F) → (⟨S50000x1, .f32⟩ : BufTy).Contents (Elt F)),
    unary main_v112 main_v113 (Host.rsqrt : (⟨S50000x1, .f32⟩ : BufTy).Contents (Elt F) → (⟨S50000x1, .f32⟩ : BufTy).Contents (Elt F)),
    unary main_v113 main_v114 (broadcastInDim S50000x128 ![0, 1] bcast_S50000x1_S50000x128_0_1 : (⟨S50000x1, .f32⟩ : BufTy).Contents (Elt F) → (⟨S50000x128, .f32⟩ : BufTy).Contents (Elt F)),
    binary main_v110 main_v114 main_v115 (mulf : (⟨S50000x128, .f32⟩ : BufTy).Contents (Elt F) → (⟨S50000x128, .f32⟩ : BufTy).Contents (Elt F) → (⟨S50000x128, .f32⟩ : BufTy).Contents (Elt F)),
    unary main_v95 main_v116 (broadcastInDim S1x128 ![1] bcast_S128_S1x128_1 : (⟨S128, .f32⟩ : BufTy).Contents (Elt F) → (⟨S1x128, .f32⟩ : BufTy).Contents (Elt F)),
    unary main_v116 main_v117 (broadcastInDim S50000x128 ![0, 1] bcast_S1x128_S50000x128_0_1 : (⟨S1x128, .f32⟩ : BufTy).Contents (Elt F) → (⟨S50000x128, .f32⟩ : BufTy).Contents (Elt F)),
    binary main_v115 main_v117 main_v118 (mulf : (⟨S50000x128, .f32⟩ : BufTy).Contents (Elt F) → (⟨S50000x128, .f32⟩ : BufTy).Contents (Elt F) → (⟨S50000x128, .f32⟩ : BufTy).Contents (Elt F)),
    unary main_v97 main_v119 (broadcastInDim S1x128 ![1] bcast_S128_S1x128_1 : (⟨S128, .f32⟩ : BufTy).Contents (Elt F) → (⟨S1x128, .f32⟩ : BufTy).Contents (Elt F)),
    unary main_v119 main_v120 (broadcastInDim S50000x128 ![0, 1] bcast_S1x128_S50000x128_0_1 : (⟨S1x128, .f32⟩ : BufTy).Contents (Elt F) → (⟨S50000x128, .f32⟩ : BufTy).Contents (Elt F)),
    binary main_v118 main_v120 main_v121 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v121) (TRef.of (T := ⟨S50000x128, .f32⟩) main_call1_v0) (TRef.of (T := ⟨S50000x128, .f32⟩) main_v122) maximumf ]

/-- Layer 2. -/
abbrev opsL2 : List (HloOp τ sig (Elt F)) :=
  [
    nullary main_c_18 (constantI S_ 32 0#32),
    unary main_c_18 main_v123 (broadcastInDim S800000 ![] bcast_S_S800000 : (⟨S_, .i32⟩ : BufTy).Contents (Elt F) → (⟨S800000, .i32⟩ : BufTy).Contents (Elt F)),
    binary main_v1 main_v123 main_v124 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v125 (broadcastInDim S800000 ![] bcast_S_S800000 : (⟨S_, .i32⟩ : BufTy).Contents (Elt F) → (⟨S800000, .i32⟩ : BufTy).Contents (Elt F)),
    binary main_v1 main_v125 main_v126 (addi : (⟨S800000, .i32⟩ : BufTy).Contents (Elt F) → (⟨S800000, .i32⟩ : BufTy).Contents (Elt F) → (⟨S800000, .i32⟩ : BufTy).Contents (Elt F)),
    ternary main_v124 main_v126 main_v1 main_v127 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v127 main_v128 (broadcastInDim S800000x1 ![0] bcast_S800000_S800000x1_0 : (⟨S800000, .i32⟩ : BufTy).Contents (Elt F) → (⟨S800000x1, .i32⟩ : BufTy).Contents (Elt F)),
    binary main_v122 main_v128 main_v129 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_20 (constant S_ .f32 0x00000000#32),
    unary main_cst_20 main_v130 (broadcastInDim S50000x128 ![] bcast_S_S50000x128 : (⟨S_, .f32⟩ : BufTy).Contents (Elt F) → (⟨S50000x128, .f32⟩ : BufTy).Contents (Elt F)),
    unary main_v3 main_v131 (broadcastInDim S800000x1 ![0] bcast_S800000_S800000x1_0 : (⟨S800000, .i32⟩ : BufTy).Contents (Elt F) → (⟨S800000x1, .i32⟩ : BufTy).Contents (Elt F)),
    ternary main_v130 main_v131 main_v129 main_v132 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v133 (broadcastInDim S50000x128 ![0, 1] bcast_S50000x1_S50000x128_0_1 : (⟨S50000x1, .f32⟩ : BufTy).Contents (Elt F) → (⟨S50000x128, .f32⟩ : BufTy).Contents (Elt F)),
    binary main_v132 main_v133 main_v134 (mulf : (⟨S50000x128, .f32⟩ : BufTy).Contents (Elt F) → (⟨S50000x128, .f32⟩ : BufTy).Contents (Elt F) → (⟨S50000x128, .f32⟩ : BufTy).Contents (Elt F)),
    unary main_arg2 main_v135 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v135 main_v136 rfl shapeCasts_S1x128x128_S128x128,
    unary main_v136 main_v137 ((transpose S128x128 [1, 0] · transposes_S128x128_S128x128_1_0) : (⟨S128x128, .f32⟩ : BufTy).Contents (Elt F) → (⟨S128x128, .f32⟩ : BufTy).Contents (Elt F)),
    binary main_v134 main_v137 main_v138 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v139 ((extractStridedSlice S1x128 ![2, 0] · slices_S3x128_S1x128_2_0) : (⟨S3x128, .f32⟩ : BufTy).Contents (Elt F) → (⟨S1x128, .f32⟩ : BufTy).Contents (Elt F)),
    reshape main_v139 main_v140 rfl shapeCasts_S1x128_S128,
    unary main_v140 main_v141 (broadcastInDim S1x128 ![1] bcast_S128_S1x128_1 : (⟨S128, .f32⟩ : BufTy).Contents (Elt F) → (⟨S1x128, .f32⟩ : BufTy).Contents (Elt F)),
    unary main_v141 main_v142 (broadcastInDim S50000x128 ![0, 1] bcast_S1x128_S50000x128_0_1 : (⟨S1x128, .f32⟩ : BufTy).Contents (Elt F) → (⟨S50000x128, .f32⟩ : BufTy).Contents (Elt F)),
    binary main_v138 main_v142 main_v143 (addf : (⟨S50000x128, .f32⟩ : BufTy).Contents (Elt F) → (⟨S50000x128, .f32⟩ : BufTy).Contents (Elt F) → (⟨S50000x128, .f32⟩ : BufTy).Contents (Elt F)),
    unary main_arg4 main_v144 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v144 main_v145 rfl shapeCasts_S1x128x128_S128x128,
    unary main_v145 main_v146 ((transpose S128x128 [1, 0] · transposes_S128x128_S128x128_1_0) : (⟨S128x128, .f32⟩ : BufTy).Contents (Elt F) → (⟨S128x128, .f32⟩ : BufTy).Contents (Elt F)),
    binary main_v122 main_v146 main_v147 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v143 main_v147 main_v148 (addf : (⟨S50000x128, .f32⟩ : BufTy).Contents (Elt F) → (⟨S50000x128, .f32⟩ : BufTy).Contents (Elt F) → (⟨S50000x128, .f32⟩ : BufTy).Contents (Elt F)),
    unary main_arg5 main_v149 ((extractStridedSlice S1x128 ![2, 0] · slices_S3x128_S1x128_2_0) : (⟨S3x128, .f32⟩ : BufTy).Contents (Elt F) → (⟨S1x128, .f32⟩ : BufTy).Contents (Elt F)),
    reshape main_v149 main_v150 rfl shapeCasts_S1x128_S128,
    unary main_arg6 main_v151 ((extractStridedSlice S1x128 ![2, 0] · slices_S3x128_S1x128_2_0) : (⟨S3x128, .f32⟩ : BufTy).Contents (Elt F) → (⟨S1x128, .f32⟩ : BufTy).Contents (Elt F)),
    reshape main_v151 main_v152 rfl shapeCasts_S1x128_S128,
    nullary main_cst_21 (constant S_ .f32 0x00000000#32),
    binary main_v148 main_cst_21 main_v153 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v153 main_v154 (broadcastInDim S50000x1 ![0] bcast_S50000_S50000x1_0 : (⟨S50000, .f32⟩ : BufTy).Contents (Elt F) → (⟨S50000x1, .f32⟩ : BufTy).Contents (Elt F)),
    nullary main_cst_22 (constant S_ .f32 0x43000000#32),
    unary main_cst_22 main_v155 (broadcastInDim S50000x1 ![] bcast_S_S50000x1 : (⟨S_, .f32⟩ : BufTy).Contents (Elt F) → (⟨S50000x1, .f32⟩ : BufTy).Contents (Elt F)),
    binary main_v154 main_v155 main_v156 (Host.divf : (⟨S50000x1, .f32⟩ : BufTy).Contents (Elt F) → (⟨S50000x1, .f32⟩ : BufTy).Contents (Elt F) → (⟨S50000x1, .f32⟩ : BufTy).Contents (Elt F)),
    unary main_v156 main_v157 (broadcastInDim S50000x128 ![0, 1] bcast_S50000x1_S50000x128_0_1 : (⟨S50000x1, .f32⟩ : BufTy).Contents (Elt F) → (⟨S50000x128, .f32⟩ : BufTy).Contents (Elt F)),
    binary main_v148 main_v157 main_v158 (subf : (⟨S50000x128, .f32⟩ : BufTy).Contents (Elt F) → (⟨S50000x128, .f32⟩ : BufTy).Contents (Elt F) → (⟨S50000x128, .f32⟩ : BufTy).Contents (Elt F)),
    binary main_v158 main_v158 main_v159 (mulf : (⟨S50000x128, .f32⟩ : BufTy).Contents (Elt F) → (⟨S50000x128, .f32⟩ : BufTy).Contents (Elt F) → (⟨S50000x128, .f32⟩ : BufTy).Contents (Elt F)),
    nullary main_cst_23 (constant S_ .f32 0x00000000#32),
    binary main_v159 main_cst_23 main_v160 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v160 main_v161 (broadcastInDim S50000x1 ![0] bcast_S50000_S50000x1_0 : (⟨S50000, .f32⟩ : BufTy).Contents (Elt F) → (⟨S50000x1, .f32⟩ : BufTy).Contents (Elt F)),
    nullary main_cst_24 (constant S_ .f32 0x43000000#32),
    unary main_cst_24 main_v162 (broadcastInDim S50000x1 ![] bcast_S_S50000x1 : (⟨S_, .f32⟩ : BufTy).Contents (Elt F) → (⟨S50000x1, .f32⟩ : BufTy).Contents (Elt F)),
    binary main_v161 main_v162 main_v163 (Host.divf : (⟨S50000x1, .f32⟩ : BufTy).Contents (Elt F) → (⟨S50000x1, .f32⟩ : BufTy).Contents (Elt F) → (⟨S50000x1, .f32⟩ : BufTy).Contents (Elt F)),
    unary main_v156 main_v164 (broadcastInDim S50000x128 ![0, 1] bcast_S50000x1_S50000x128_0_1 : (⟨S50000x1, .f32⟩ : BufTy).Contents (Elt F) → (⟨S50000x128, .f32⟩ : BufTy).Contents (Elt F)),
    binary main_v148 main_v164 main_v165 (subf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x3727C5AC#32),
    unary main_cst_25 main_v166 (broadcastInDim S50000x1 ![] bcast_S_S50000x1 : (⟨S_, .f32⟩ : BufTy).Contents (Elt F) → (⟨S50000x1, .f32⟩ : BufTy).Contents (Elt F)),
    binary main_v163 main_v166 main_v167 (addf : (⟨S50000x1, .f32⟩ : BufTy).Contents (Elt F) → (⟨S50000x1, .f32⟩ : BufTy).Contents (Elt F) → (⟨S50000x1, .f32⟩ : BufTy).Contents (Elt F)),
    unary main_v167 main_v168 (Host.rsqrt : (⟨S50000x1, .f32⟩ : BufTy).Contents (Elt F) → (⟨S50000x1, .f32⟩ : BufTy).Contents (Elt F)),
    unary main_v168 main_v169 (broadcastInDim S50000x128 ![0, 1] bcast_S50000x1_S50000x128_0_1 : (⟨S50000x1, .f32⟩ : BufTy).Contents (Elt F) → (⟨S50000x128, .f32⟩ : BufTy).Contents (Elt F)),
    binary main_v165 main_v169 main_v170 (mulf : (⟨S50000x128, .f32⟩ : BufTy).Contents (Elt F) → (⟨S50000x128, .f32⟩ : BufTy).Contents (Elt F) → (⟨S50000x128, .f32⟩ : BufTy).Contents (Elt F)),
    unary main_v150 main_v171 (broadcastInDim S1x128 ![1] bcast_S128_S1x128_1 : (⟨S128, .f32⟩ : BufTy).Contents (Elt F) → (⟨S1x128, .f32⟩ : BufTy).Contents (Elt F)),
    unary main_v171 main_v172 (broadcastInDim S50000x128 ![0, 1] bcast_S1x128_S50000x128_0_1 : (⟨S1x128, .f32⟩ : BufTy).Contents (Elt F) → (⟨S50000x128, .f32⟩ : BufTy).Contents (Elt F)),
    binary main_v170 main_v172 main_v173 (mulf : (⟨S50000x128, .f32⟩ : BufTy).Contents (Elt F) → (⟨S50000x128, .f32⟩ : BufTy).Contents (Elt F) → (⟨S50000x128, .f32⟩ : BufTy).Contents (Elt F)),
    unary main_v152 main_v174 (broadcastInDim S1x128 ![1] bcast_S128_S1x128_1 : (⟨S128, .f32⟩ : BufTy).Contents (Elt F) → (⟨S1x128, .f32⟩ : BufTy).Contents (Elt F)),
    unary main_v174 main_v175 (broadcastInDim S50000x128 ![0, 1] bcast_S1x128_S50000x128_0_1 : (⟨S1x128, .f32⟩ : BufTy).Contents (Elt F) → (⟨S50000x128, .f32⟩ : BufTy).Contents (Elt F)),
    binary main_v173 main_v175 main_v176 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v176) (TRef.of (T := ⟨S50000x128, .f32⟩) main_call2_v0) (TRef.of (T := ⟨S50000x128, .f32⟩) main_v177) maximumf ]

/-- The program's operation list is the four pieces in order. -/
theorem ops_eq : (ops : List (HloOp τ sig (Elt F))) = opsPre ++ (opsL0 ++ (opsL1 ++ opsL2)) := rfl

/-- Running a concatenation is running its parts in turn. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The first piece -/

theorem pre_v1 (V : Valuation τ sig (Elt F)) :
    after opsPre V (Proc.devRef .tc main_v1) = val_main_v1 (F := F) (V (Proc.devRef .tc main_arg1)) := by
  after_results_simp <;> rfl
theorem pre_v3 (V : Valuation τ sig (Elt F)) :
    after opsPre V (Proc.devRef .tc main_v3) = val_main_v3 (F := F) (V (Proc.devRef .tc main_arg1)) := by
  after_results_simp <;> rfl
theorem pre_v12 (V : Valuation τ sig (Elt F)) :
    after opsPre V (Proc.devRef .tc main_v12) = val_main_v12 (F := F) (V (Proc.devRef .tc main_arg1)) := by
  after_results_simp <;> rfl
theorem pre_keep_arg0 (V : Valuation τ sig (Elt F)) : after opsPre V (Proc.devRef .tc main_arg0) = V (Proc.devRef .tc main_arg0) := by
  after_results_simp <;> rfl
theorem pre_keep_arg2 (V : Valuation τ sig (Elt F)) : after opsPre V (Proc.devRef .tc main_arg2) = V (Proc.devRef .tc main_arg2) := by
  after_results_simp <;> rfl
theorem pre_keep_arg3 (V : Valuation τ sig (Elt F)) : after opsPre V (Proc.devRef .tc main_arg3) = V (Proc.devRef .tc main_arg3) := by
  after_results_simp <;> rfl
theorem pre_keep_arg4 (V : Valuation τ sig (Elt F)) : after opsPre V (Proc.devRef .tc main_arg4) = V (Proc.devRef .tc main_arg4) := by
  after_results_simp <;> rfl
theorem pre_keep_arg5 (V : Valuation τ sig (Elt F)) : after opsPre V (Proc.devRef .tc main_arg5) = V (Proc.devRef .tc main_arg5) := by
  after_results_simp <;> rfl
theorem pre_keep_arg6 (V : Valuation τ sig (Elt F)) : after opsPre V (Proc.devRef .tc main_arg6) = V (Proc.devRef .tc main_arg6) := by
  after_results_simp <;> rfl

/-! ## Layer 0 -/

/-- From contents holding the layer's input, the edge rows, the reciprocal degrees and the parameters, the layer's
    operations leave its last stage in its result buffer. -/
theorem l0_out (V : Valuation τ sig (Elt F)) (x0 : (⟨S50000x128, .f32⟩ : BufTy).Contents (Elt F)) (x1 : (⟨S2x800000, .i32⟩ : BufTy).Contents (Elt F))
    (x2 : (⟨S3x128x128, .f32⟩ : BufTy).Contents (Elt F)) (x3 : (⟨S3x128, .f32⟩ : BufTy).Contents (Elt F)) (x4 : (⟨S3x128x128, .f32⟩ : BufTy).Contents (Elt F))
    (x5 x6 : (⟨S3x128, .f32⟩ : BufTy).Contents (Elt F))
    (a0 : V (Proc.devRef .tc main_arg0) = x0)
    (h1 : V (Proc.devRef .tc main_v1) = val_main_v1 (F := F) x1) (h3 : V (Proc.devRef .tc main_v3) = val_main_v3 (F := F) x1)
    (h12 : V (Proc.devRef .tc main_v12) = val_main_v12 (F := F) x1)
    (a2 : V (Proc.devRef .tc main_arg2) = x2) (a3 : V (Proc.devRef .tc main_arg3) = x3) (a4 : V (Proc.devRef .tc main_arg4) = x4)
    (a5 : V (Proc.devRef .tc main_arg5) = x5) (a6 : V (Proc.devRef .tc main_arg6) = x6) :
    after opsL0 V (Proc.devRef .tc main_v67) = val_main_v67 (F := F) x0 x1 x2 x3 x4 x5 x6 := by
  after_results_simp
  simp only [a0, h1, h3, h12, a2, a3, a4, a5, a6]
  rfl
theorem l0_keep_v1 (V : Valuation τ sig (Elt F)) : after opsL0 V (Proc.devRef .tc main_v1) = V (Proc.devRef .tc main_v1) := by
  after_results_simp <;> rfl
theorem l0_keep_v3 (V : Valuation τ sig (Elt F)) : after opsL0 V (Proc.devRef .tc main_v3) = V (Proc.devRef .tc main_v3) := by
  after_results_simp <;> rfl
theorem l0_keep_v12 (V : Valuation τ sig (Elt F)) : after opsL0 V (Proc.devRef .tc main_v12) = V (Proc.devRef .tc main_v12) := by
  after_results_simp <;> rfl
theorem l0_keep_arg2 (V : Valuation τ sig (Elt F)) : after opsL0 V (Proc.devRef .tc main_arg2) = V (Proc.devRef .tc main_arg2) := by
  after_results_simp <;> rfl
theorem l0_keep_arg3 (V : Valuation τ sig (Elt F)) : after opsL0 V (Proc.devRef .tc main_arg3) = V (Proc.devRef .tc main_arg3) := by
  after_results_simp <;> rfl
theorem l0_keep_arg4 (V : Valuation τ sig (Elt F)) : after opsL0 V (Proc.devRef .tc main_arg4) = V (Proc.devRef .tc main_arg4) := by
  after_results_simp <;> rfl
theorem l0_keep_arg5 (V : Valuation τ sig (Elt F)) : after opsL0 V (Proc.devRef .tc main_arg5) = V (Proc.devRef .tc main_arg5) := by
  after_results_simp <;> rfl
theorem l0_keep_arg6 (V : Valuation τ sig (Elt F)) : after opsL0 V (Proc.devRef .tc main_arg6) = V (Proc.devRef .tc main_arg6) := by
  after_results_simp <;> rfl

/-! ## Layer 1 -/

/-- From contents holding the layer's input, the edge rows, the reciprocal degrees and the parameters, the layer's
    operations leave its last stage in its result buffer. -/
theorem l1_out (V : Valuation τ sig (Elt F)) (x0 : (⟨S50000x128, .f32⟩ : BufTy).Contents (Elt F)) (x1 : (⟨S2x800000, .i32⟩ : BufTy).Contents (Elt F))
    (x2 : (⟨S3x128x128, .f32⟩ : BufTy).Contents (Elt F)) (x3 : (⟨S3x128, .f32⟩ : BufTy).Contents (Elt F)) (x4 : (⟨S3x128x128, .f32⟩ : BufTy).Contents (Elt F))
    (x5 x6 : (⟨S3x128, .f32⟩ : BufTy).Contents (Elt F))
    (hin : V (Proc.devRef .tc main_v67) = val_main_v67 (F := F) x0 x1 x2 x3 x4 x5 x6)
    (h1 : V (Proc.devRef .tc main_v1) = val_main_v1 (F := F) x1) (h3 : V (Proc.devRef .tc main_v3) = val_main_v3 (F := F) x1)
    (h12 : V (Proc.devRef .tc main_v12) = val_main_v12 (F := F) x1)
    (a2 : V (Proc.devRef .tc main_arg2) = x2) (a3 : V (Proc.devRef .tc main_arg3) = x3) (a4 : V (Proc.devRef .tc main_arg4) = x4)
    (a5 : V (Proc.devRef .tc main_arg5) = x5) (a6 : V (Proc.devRef .tc main_arg6) = x6) :
    after opsL1 V (Proc.devRef .tc main_v122) = val_main_v122 (F := F) x0 x1 x2 x3 x4 x5 x6 := by
  after_results_simp
  simp only [hin, h1, h3, h12, a2, a3, a4, a5, a6]
  rfl
theorem l1_keep_v1 (V : Valuation τ sig (Elt F)) : after opsL1 V (Proc.devRef .tc main_v1) = V (Proc.devRef .tc main_v1) := by
  after_results_simp <;> rfl
theorem l1_keep_v3 (V : Valuation τ sig (Elt F)) : after opsL1 V (Proc.devRef .tc main_v3) = V (Proc.devRef .tc main_v3) := by
  after_results_simp <;> rfl
theorem l1_keep_v12 (V : Valuation τ sig (Elt F)) : after opsL1 V (Proc.devRef .tc main_v12) = V (Proc.devRef .tc main_v12) := by
  after_results_simp <;> rfl
theorem l1_keep_arg2 (V : Valuation τ sig (Elt F)) : after opsL1 V (Proc.devRef .tc main_arg2) = V (Proc.devRef .tc main_arg2) := by
  after_results_simp <;> rfl
theorem l1_keep_arg3 (V : Valuation τ sig (Elt F)) : after opsL1 V (Proc.devRef .tc main_arg3) = V (Proc.devRef .tc main_arg3) := by
  after_results_simp <;> rfl
theorem l1_keep_arg4 (V : Valuation τ sig (Elt F)) : after opsL1 V (Proc.devRef .tc main_arg4) = V (Proc.devRef .tc main_arg4) := by
  after_results_simp <;> rfl
theorem l1_keep_arg5 (V : Valuation τ sig (Elt F)) : after opsL1 V (Proc.devRef .tc main_arg5) = V (Proc.devRef .tc main_arg5) := by
  after_results_simp <;> rfl
theorem l1_keep_arg6 (V : Valuation τ sig (Elt F)) : after opsL1 V (Proc.devRef .tc main_arg6) = V (Proc.devRef .tc main_arg6) := by
  after_results_simp <;> rfl

/-! ## Layer 2 -/

/-- From contents holding the layer's input, the edge rows, the reciprocal degrees and the parameters, the layer's
    operations leave its last stage in its result buffer. -/
theorem l2_out (V : Valuation τ sig (Elt F)) (x0 : (⟨S50000x128, .f32⟩ : BufTy).Contents (Elt F)) (x1 : (⟨S2x800000, .i32⟩ : BufTy).Contents (Elt F))
    (x2 : (⟨S3x128x128, .f32⟩ : BufTy).Contents (Elt F)) (x3 : (⟨S3x128, .f32⟩ : BufTy).Contents (Elt F)) (x4 : (⟨S3x128x128, .f32⟩ : BufTy).Contents (Elt F))
    (x5 x6 : (⟨S3x128, .f32⟩ : BufTy).Contents (Elt F))
    (hin : V (Proc.devRef .tc main_v122) = val_main_v122 (F := F) x0 x1 x2 x3 x4 x5 x6)
    (h1 : V (Proc.devRef .tc main_v1) = val_main_v1 (F := F) x1) (h3 : V (Proc.devRef .tc main_v3) = val_main_v3 (F := F) x1)
    (h12 : V (Proc.devRef .tc main_v12) = val_main_v12 (F := F) x1)
    (a2 : V (Proc.devRef .tc main_arg2) = x2) (a3 : V (Proc.devRef .tc main_arg3) = x3) (a4 : V (Proc.devRef .tc main_arg4) = x4)
    (a5 : V (Proc.devRef .tc main_arg5) = x5) (a6 : V (Proc.devRef .tc main_arg6) = x6) :
    after opsL2 V (Proc.devRef .tc main_v177) = val_main_v177 (F := F) x0 x1 x2 x3 x4 x5 x6 := by
  after_results_simp
  simp only [hin, h1, h3, h12, a2, a3, a4, a5, a6]
  rfl
theorem l2_keep_v1 (V : Valuation τ sig (Elt F)) : after opsL2 V (Proc.devRef .tc main_v1) = V (Proc.devRef .tc main_v1) := by
  after_results_simp <;> rfl
theorem l2_keep_v3 (V : Valuation τ sig (Elt F)) : after opsL2 V (Proc.devRef .tc main_v3) = V (Proc.devRef .tc main_v3) := by
  after_results_simp <;> rfl
theorem l2_keep_v12 (V : Valuation τ sig (Elt F)) : after opsL2 V (Proc.devRef .tc main_v12) = V (Proc.devRef .tc main_v12) := by
  after_results_simp <;> rfl
theorem l2_keep_arg2 (V : Valuation τ sig (Elt F)) : after opsL2 V (Proc.devRef .tc main_arg2) = V (Proc.devRef .tc main_arg2) := by
  after_results_simp <;> rfl
theorem l2_keep_arg3 (V : Valuation τ sig (Elt F)) : after opsL2 V (Proc.devRef .tc main_arg3) = V (Proc.devRef .tc main_arg3) := by
  after_results_simp <;> rfl
theorem l2_keep_arg4 (V : Valuation τ sig (Elt F)) : after opsL2 V (Proc.devRef .tc main_arg4) = V (Proc.devRef .tc main_arg4) := by
  after_results_simp <;> rfl
theorem l2_keep_arg5 (V : Valuation τ sig (Elt F)) : after opsL2 V (Proc.devRef .tc main_arg5) = V (Proc.devRef .tc main_arg5) := by
  after_results_simp <;> rfl
theorem l2_keep_arg6 (V : Valuation τ sig (Elt F)) : after opsL2 V (Proc.devRef .tc main_arg6) = V (Proc.devRef .tc main_arg6) := by
  after_results_simp <;> rfl

/-! ## The whole program -/

/-- After all its operations, from any contents `W`, the result buffer holds the last stage of the argument arrays. -/
theorem after_ops (W : Valuation τ sig (Elt F)) :
    after ops W (Proc.devRef .tc main_v177) = val_main_v177 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  rw [ops_eq, after_app, after_app, after_app]
  -- the contents after the first piece and after each layer
  have p1 := pre_v1 W
  have p3 := pre_v3 W
  have p12 := pre_v12 W
  have q67 := l0_out (after opsPre W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (pre_keep_arg0 W) p1 p3 p12
    (pre_keep_arg2 W) (pre_keep_arg3 W) (pre_keep_arg4 W) (pre_keep_arg5 W) (pre_keep_arg6 W)
  have q1 := (l0_keep_v1 (after opsPre W)).trans p1
  have q3 := (l0_keep_v3 (after opsPre W)).trans p3
  have q12 := (l0_keep_v12 (after opsPre W)).trans p12
  have qa2 := (l0_keep_arg2 (after opsPre W)).trans (pre_keep_arg2 W)
  have qa3 := (l0_keep_arg3 (after opsPre W)).trans (pre_keep_arg3 W)
  have qa4 := (l0_keep_arg4 (after opsPre W)).trans (pre_keep_arg4 W)
  have qa5 := (l0_keep_arg5 (after opsPre W)).trans (pre_keep_arg5 W)
  have qa6 := (l0_keep_arg6 (after opsPre W)).trans (pre_keep_arg6 W)
  have r122 := l1_out (after opsL0 (after opsPre W)) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) q67 q1 q3 q12 qa2 qa3 qa4 qa5 qa6
  have r1 := (l1_keep_v1 (after opsL0 (after opsPre W))).trans q1
  have r3 := (l1_keep_v3 (after opsL0 (after opsPre W))).trans q3
  have r12 := (l1_keep_v12 (after opsL0 (after opsPre W))).trans q12
  have ra2 := (l1_keep_arg2 (after opsL0 (after opsPre W))).trans qa2
  have ra3 := (l1_keep_arg3 (after opsL0 (after opsPre W))).trans qa3
  have ra4 := (l1_keep_arg4 (after opsL0 (after opsPre W))).trans qa4
  have ra5 := (l1_keep_arg5 (after opsL0 (after opsPre W))).trans qa5
  have ra6 := (l1_keep_arg6 (after opsL0 (after opsPre W))).trans qa6
  exact l2_out (after opsL1 (after opsL0 (after opsPre W))) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) r122 r1 r3 r12 ra2 ra3 ra4 ra5 ra6

end Cert.Sage.RS

end
-- ==== Proof.Spec.lean ====
/-
  One layer of the network, written once on the extended reals, row by row.

  A node's new feature row is computed from three things that belong to that node — the row `a` of summed
  neighbour features, the reciprocal `ic` of its clipped in-degree, its own row `hr` — and from the layer's
  parameters: two 128 × 128 matrices read with the contraction index FIRST (`wl k j`, `wr k j`), a bias row and
  the normalisation's scale and shift rows.

    v j   = (Σ_k (a k · ic) · wl k j  +  bl j)  +  Σ_k hr k · wr k j
    μ     = (Σ_j v j) / 128
    σ²    = (Σ_j (v j − μ)·(v j − μ)) / 128
    out j = max (((v j − μ) · rsqrt (σ² + ε)) · g j + b j) 0

  The three float constants are kept as the binary words both programs print (128, ε = f32(1e-5), 0): the same word
  on both sides is never evaluated.
-/
import Idealize.ShloMosaic.PureOps.Ideal
import Idealize.ShloMosaic.PureOps.Ideal.Laws
import Idealize.ShloMosaic.Lib.ValueIdx

noncomputable section

namespace Cert.Sage

open Idealize.ShloMosaic

/-- The word of 128.0, the width of a feature row. -/
abbrev c128 : EReal := Ideal.ofBits .f32 0x43000000#32
/-- The word of the variance's guard ε = f32(1e-5). -/
abbrev cEps : EReal := Ideal.ofBits .f32 0x3727C5AC#32
/-- The word of 0.0, the floor of the rectifier. -/
abbrev cZero : EReal := Ideal.ofBits .f32 0x00000000#32

/-- The row before normalisation: both linear maps and the bias. -/
def preNorm (a hr : Fin 128 → EReal) (ic : EReal) (wl wr : Fin 128 → Fin 128 → EReal) (bl : Fin 128 → EReal) :
    Fin 128 → EReal :=
  fun j => ((∑ k : Fin 128, (a k * ic) * wl k j) + bl j) + ∑ k : Fin 128, hr k * wr k j

/-- The mean of a row. -/
def rowMean (v : Fin 128 → EReal) : EReal := Ideal.div (∑ j : Fin 128, v j) c128

/-- The (biased) variance of a row about its mean. -/
def rowVar (v : Fin 128 → EReal) : EReal :=
  Ideal.div (∑ j : Fin 128, (v j - rowMean v) * (v j - rowMean v)) c128

/-- Normalise a row, scale and shift it, and rectify. -/
def normRelu (v g b : Fin 128 → EReal) : Fin 128 → EReal :=
  fun j => max (((v j - rowMean v) * Ideal.rsqrt (rowVar v + cEps)) * g j + b j) cZero

/-- One node's new feature row. -/
def rowOut (a hr : Fin 128 → EReal) (ic : EReal) (wl wr : Fin 128 → Fin 128 → EReal) (bl g b : Fin 128 → EReal) :
    Fin 128 → EReal :=
  normRelu (preNorm a hr ic wl wr bl) g b

/-- The arrays a layer works on: 50000 nodes with 128 features each; the reciprocal degrees as a column; a 128 × 128
    matrix; a parameter row. -/
abbrev SNxD : Shape := ⟨2, ![50000, 128]⟩
abbrev SNx1 : Shape := ⟨2, ![50000, 1]⟩
abbrev SDxD : Shape := ⟨2, ![128, 128]⟩
abbrev S1xD : Shape := ⟨2, ![1, 128]⟩

/-- One layer on whole arrays: node `i 0`'s new row, from row `i 0` of the summed neighbour features `A`, entry
    `i 0` of the reciprocal-degree column `iv`, row `i 0` of the features `h`, and the layer's parameters (the
    matrices with the contraction index first, the rows as 1 × 128 arrays). -/
def layerArr (A : SNxD.Idx → EReal) (iv : SNx1.Idx → EReal) (h : SNxD.Idx → EReal) (wl : SDxD.Idx → EReal)
    (bl : S1xD.Idx → EReal) (wr : SDxD.Idx → EReal) (g b : S1xD.Idx → EReal) : SNxD.Idx → EReal :=
  fun i => rowOut (fun k => A (ValueIdx.ix2 (i 0) k)) (fun k => h (ValueIdx.ix2 (i 0) k))
    (iv (ValueIdx.ix2 (i 0) (0 : Fin 1))) (fun k j => wl (ValueIdx.ix2 k j)) (fun k j => wr (ValueIdx.ix2 k j))
    (fun j => bl (ValueIdx.ix2 (0 : Fin 1) j)) (fun j => g (ValueIdx.ix2 (0 : Fin 1) j))
    (fun j => b (ValueIdx.ix2 (0 : Fin 1) j)) (i 1)

end Cert.Sage

end
-- ==== Proof.KTerms.lean ====
/-
  The values the kernel's program computes OUTSIDE its three fused-layer calls, as functions of the argument arrays:
  the edge list's two rows, the reciprocal clipped in-degrees, the gathered neighbour rows (with the fill a gather
  puts where a source index is out of range) and their sum per destination, and each layer's parameters cut out of
  the stacked, transposed weights. Then the three layers composed.
-/
import proofs.«421054_j73529840107534_3_alg».proof.Proof.Gen.KernelIdeal
import proofs.«421054_j73529840107534_3_alg».proof.Proof.Spec

noncomputable section

namespace Cert.Sage.K

open Cert.KernelIdeal Cert.KernelIdeal.Facts₀ Cert.KernelIdeal.Facts Idealize.ShloMosaic

variable {F : FTy → Type} [FloatOps F]

/-- The edges' source nodes: row 0 of the edge list. -/
def src (e : IVec S2x800000 32) : IVec S800000 32 :=
  shapeCast S800000 (extractStridedSlice S1x800000 ![0, 0] e slices_S2x800000_S1x800000_0_0) shapeCasts_S1x800000_S800000

/-- The edges' destination nodes: row 1 of the edge list. -/
def dst (e : IVec S2x800000 32) : IVec S800000 32 :=
  shapeCast S800000 (extractStridedSlice S1x800000 ![1, 0] e slices_S2x800000_S1x800000_1_0) shapeCasts_S1x800000_S800000

/-- The destinations as a column of scatter indices. -/
def dstCol (e : IVec S2x800000 32) : IVec S800000x1 32 :=
  broadcastInDim S800000x1 ![0] bcast_S800000_S800000x1_0 (dst e)

/-- 1 / max(in-degree, 1) per node: ones summed per destination, clipped below at one, inverted. -/
def invVec (e : IVec S2x800000 32) : FVec F S50000 .f32 :=
  Host.divf (broadcastInDim S50000 ![] bcast_S_S50000 (constant S_ .f32 0x3F800000#32))
    (maximumf
      (Host.scatterAdd scatter_S50000_S800000x1_S800000_n_0_0_1
        (broadcastInDim S50000 ![] bcast_S_S50000 (constant S_ .f32 0x00000000#32)) (dstCol e)
        (broadcastInDim S800000 ![] bcast_S_S800000 (constant S_ .f32 0x3F800000#32)))
      (broadcastInDim S50000 ![] bcast_S_S50000 (constant S_ .f32 0x3F800000#32)))

/-- The same as a 50000 × 1 column, the form the fused layer reads. -/
def invCol (e : IVec S2x800000 32) : FVec F S50000x1 .f32 :=
  shapeCast S50000x1 (invVec (F := F) e) shapeCasts_S50000_S50000x1

/-- A source index with a negative one wrapped round by the node count. -/
def srcN (e : IVec S2x800000 32) : IVec S800000 32 :=
  select (cmpi .slt (src e) (broadcastInDim S800000 ![] bcast_S_S800000 (constantI S_ 32 0#32)))
    (addi (src e) (broadcastInDim S800000 ![] bcast_S_S800000 (constantI S_ 32 50000#32))) (src e)

/-- The wrapped source indices as a column of gather indices. -/
def srcCol (e : IVec S2x800000 32) : IVec S800000x1 32 :=
  broadcastInDim S800000x1 ![0] bcast_S800000_S800000x1_0 (srcN e)

/-- Per edge: is the wrapped source index inside 0 … 49999? -/
def inb (e : IVec S2x800000 32) : IVec S800000 1 :=
  Host.reduce IntOp.andi
    (andi (cmpi .sge (srcCol e) (broadcastInDim S800000x1 ![] bcast_S_S800000x1 (constantI S_ 32 0#32)))
      (cmpi .sle (srcCol e)
        (broadcastInDim S800000x1 ![0, 1] bcast_S1x1_S800000x1_0_1
          (broadcastInDim S1x1 ![1] bcast_S1_S1x1_1 (constantI S1 32 49999#32)))))
    (constantI S_ 1 1#1) reducesTo_S800000x1_S800000_d1 h_S_

/-- The gathered rows of `h`, one per edge, with the fill word where the index is out of range. -/
def take (h : FVec F S50000x128 .f32) (e : IVec S2x800000 32) : FVec F S800000x128 .f32 :=
  select (broadcastInDim S800000x128 ![0] bcast_S800000_S800000x128_0 (inb e))
    (Host.gather gather_S50000x128_S800000x1_S800000x128_1_0_n_n_0_1_1128 h (srcCol e))
    (broadcastInDim S800000x128 ![] bcast_S_S800000x128 (constant S_ .f32 0x7FC00000#32))

/-- The gathered rows summed per destination node. -/
def agg (h : FVec F S50000x128 .f32) (e : IVec S2x800000 32) : FVec F S50000x128 .f32 :=
  Host.scatterAdd scatter_S50000x128_S800000x1_S800000x128_1_0_0_1
    (broadcastInDim S50000x128 ![] bcast_S_S50000x128 (constant S_ .f32 0x00000000#32)) (dstCol e) (take h e)

/-- The stacked weights with each matrix transposed. -/
def wT (W : FVec F S3x128x128 .f32) : FVec F S3x128x128 .f32 :=
  transpose S3x128x128 [0, 2, 1] W transposes_S3x128x128_S3x128x128_0_2_1

/-- One layer's transposed matrix cut out of the stack, at offsets `o`. -/
def wSlice (W : FVec F S3x128x128 .f32) (o : Fin 3 → ℕ) (hs : S3x128x128.Slices o S1x128x128) : FVec F S128x128 .f32 :=
  shapeCast S128x128 (extractStridedSlice S1x128x128 o (wT W) hs) shapeCasts_S1x128x128_S128x128

/-- One layer's parameter row cut out of a stack of rows, as a 1 × 128 array. -/
def rowSlice (B : FVec F S3x128 .f32) (o : Fin 2 → ℕ) (hs : S3x128.Slices o S1x128) : FVec F S1x128 .f32 :=
  shapeCast S1x128 (shapeCast S128 (extractStridedSlice S1x128 o B hs) shapeCasts_S1x128_S128) shapeCasts_S128_S1x128

/-- Layer 0's, 1's and 2's transposed matrix of a stack. -/
def mat0 (W : FVec F S3x128x128 .f32) : FVec F S128x128 .f32 := wSlice W ![0, 0, 0] slices_S3x128x128_S1x128x128_0_0_0
def mat1 (W : FVec F S3x128x128 .f32) : FVec F S128x128 .f32 := wSlice W ![1, 0, 0] slices_S3x128x128_S1x128x128_1_0_0
def mat2 (W : FVec F S3x128x128 .f32) : FVec F S128x128 .f32 := wSlice W ![2, 0, 0] slices_S3x128x128_S1x128x128_2_0_0

/-- Layer 0's, 1's and 2's row of a stack of parameter rows. -/
def row0 (B : FVec F S3x128 .f32) : FVec F S1x128 .f32 := rowSlice B ![0, 0] slices_S3x128_S1x128_0_0
def row1 (B : FVec F S3x128 .f32) : FVec F S1x128 .f32 := rowSlice B ![1, 0] slices_S3x128_S1x128_1_0
def row2 (B : FVec F S3x128 .f32) : FVec F S1x128 .f32 := rowSlice B ![2, 0] slices_S3x128_S1x128_2_0

end Cert.Sage.K

namespace Cert.Sage.K

open Cert.KernelIdeal Cert.KernelIdeal.Facts₀ Cert.KernelIdeal.Facts Idealize.ShloMosaic

/-- Layer 0 of the kernel's program on features `h`. -/
def layer0 (h : FVec Ideal S50000x128 .f32) (e : IVec S2x800000 32) (Wl : FVec Ideal S3x128x128 .f32) (bl : FVec Ideal S3x128 .f32)
    (Wr : FVec Ideal S3x128x128 .f32) (g b : FVec Ideal S3x128 .f32) : FVec Ideal S50000x128 .f32 :=
  Cert.Sage.layerArr (agg h e) (invCol (F := Ideal) e) h (mat0 Wl) (row0 bl) (mat0 Wr) (row0 g) (row0 b)

/-- Layer 1. -/
def layer1 (h : FVec Ideal S50000x128 .f32) (e : IVec S2x800000 32) (Wl : FVec Ideal S3x128x128 .f32) (bl : FVec Ideal S3x128 .f32)
    (Wr : FVec Ideal S3x128x128 .f32) (g b : FVec Ideal S3x128 .f32) : FVec Ideal S50000x128 .f32 :=
  Cert.Sage.layerArr (agg h e) (invCol (F := Ideal) e) h (mat1 Wl) (row1 bl) (mat1 Wr) (row1 g) (row1 b)

/-- Layer 2. -/
def layer2 (h : FVec Ideal S50000x128 .f32) (e : IVec S2x800000 32) (Wl : FVec Ideal S3x128x128 .f32) (bl : FVec Ideal S3x128 .f32)
    (Wr : FVec Ideal S3x128x128 .f32) (g b : FVec Ideal S3x128 .f32) : FVec Ideal S50000x128 .f32 :=
  Cert.Sage.layerArr (agg h e) (invCol (F := Ideal) e) h (mat2 Wl) (row2 bl) (mat2 Wr) (row2 g) (row2 b)

/-- The kernel's program: three layers, each on the one before. -/
def value (x : FVec Ideal S50000x128 .f32) (e : IVec S2x800000 32) (Wl : FVec Ideal S3x128x128 .f32) (bl : FVec Ideal S3x128 .f32)
    (Wr : FVec Ideal S3x128x128 .f32) (g b : FVec Ideal S3x128 .f32) : FVec Ideal S50000x128 .f32 :=
  layer2 (layer1 (layer0 x e Wl bl Wr g b) e Wl bl Wr g b) e Wl bl Wr g b

end Cert.Sage.K

end
-- ==== Proof.LibVecRows.lean ====
/-
  A kernel's vector operations on a block of rows read at an index: the sum of each row, a vector of row values
  viewed as a column, and a column broadcast along the rows. Stated for any extents.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.LibVecRows

open Idealize.ShloMosaic Idealize.ShloMosaic.ValueIdx

/-- The sum over the second axis of an `a × b` block, read at row `p`: the sum of the row. -/
theorem multiReduction_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  -- The reduction over one axis is the sum over that axis's coordinates of the source at the row index with the
  -- coordinate inserted; on the second axis of a rank-2 block the inserted index is (p, k).
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext c
  match c with
  | ⟨0, _⟩ => exact Fin.ext rfl
  | ⟨1, _⟩ => exact Fin.ext rfl

/-- A vector of length `a` viewed as an `a × 1` column reads its own entry. -/
theorem shapeCast_col_apply {a : ℕ} {α : Type} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  -- Both indices have the row-major position p: p * 1 + 0 on the column side.
  shapeCast_apply v h _ _ (by
    have hz : z.val = 0 := by omega
    rw [Shape.rowMajor_val_one, Shape.rowMajor_val_two]
    show p.val = p.val * 1 + z.val
    rw [hz, Nat.mul_one, Nat.add_zero])

/-- An `a × 1` column broadcast to `a × b` reads the column's entry of the row. -/
theorem broadcastTo_col_apply {a b : ℕ} {α : Type} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  -- The row axis keeps its coordinate (which is 0 anyway when the extent is 1); the unit axis reads 0.
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibVecRows

end
-- ==== Proof.BodyLib.lean ====
/-
  The fused layer's arithmetic on one block of 5000 rows, as functions of whole blocks, and what each leaves at row p
  and column q. A product with a 128 × 128 matrix into a zero accumulator is the sum over the contraction index; the
  sum of each row, viewed as a column and divided by the word of 128, is the row's mean; a column broadcast along the
  rows and a row broadcast down the columns read their one entry. Put together, the block at (p, q) is the layer's row
  function of row p of the operands.
-/
import proofs.«421054_j73529840107534_3_alg».proof.Proof.Gen.KernelIdeal
import proofs.«421054_j73529840107534_3_alg».proof.Proof.Spec
import proofs.«421054_j73529840107534_3_alg».proof.Proof.LibVecRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.BodyLib

open Cert.KernelIdeal Cert.KernelIdeal.Gen Idealize.ShloMosaic Idealize.ShloMosaic.ValueIdx

/-! ## The product with a 128 × 128 matrix -/

/-- The left operand's row coordinate is the output's. -/
theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contraction index. -/
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contraction index. -/
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's. -/
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 block times a 128 × 128 matrix, into the zero block, at (p, q): Σ_k l (p, k) · w (k, q). -/
theorem matmul_zero_apply (l : FVec Ideal S5000x128 .f32) (w : FVec Ideal S128x128 .f32) (p : Fin 5000) (q : Fin 128) :
    matmul dot_S5000x128_S128x128_S5000x128_1_0_0_1_n_n (some .fp32) l w (constant S5000x128 .f32 0x00000000#32) (ix2 p q)
      = ∑ k : Fin 128, l (ix2 p k) * w (ix2 k q) := by
  show FloatOps.matmul dot_S5000x128_S128x128_S5000x128_1_0_0_1_n_n (some .fp32) l w (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## Both linear maps and the bias -/

/-- The block before normalisation: the neighbour sums scaled by the reciprocal-degree column times the first matrix,
    plus the bias row, plus the features times the second matrix. -/
def lin (a : FVec Ideal S5000x128 .f32) (ic : FVec Ideal S5000x1 .f32) (h : FVec Ideal S5000x128 .f32)
    (wl : FVec Ideal S128x128 .f32) (bl : FVec Ideal S1x128 .f32) (wr : FVec Ideal S128x128 .f32) : FVec Ideal S5000x128 .f32 :=
  addf
    (addf
      (matmul dot_S5000x128_S128x128_S5000x128_1_0_0_1_n_n (some .fp32)
        (mulf a (broadcastTo S5000x128 ic broadcasts_S5000x1_S5000x128)) wl (constant S5000x128 .f32 0x00000000#32))
      (broadcastTo S5000x128 bl broadcasts_S1x128_S5000x128))
    (matmul dot_S5000x128_S128x128_S5000x128_1_0_0_1_n_n (some .fp32) h wr (constant S5000x128 .f32 0x00000000#32))

/-- At (p, q) it is the specification's row before normalisation, of row p of the operands. -/
theorem lin_apply (a : FVec Ideal S5000x128 .f32) (ic : FVec Ideal S5000x1 .f32) (h : FVec Ideal S5000x128 .f32)
    (wl : FVec Ideal S128x128 .f32) (bl : FVec Ideal S1x128 .f32) (wr : FVec Ideal S128x128 .f32) (p : Fin 5000) (q : Fin 128) :
    lin a ic h wl bl wr (ix2 p q)
      = preNorm (fun k => a (ix2 p k)) (fun k => h (ix2 p k)) (ic (ix2 p (0 : Fin 1)))
          (fun k j => wl (ix2 k j)) (fun k j => wr (ix2 k j)) (fun j => bl (ix2 (0 : Fin 1) j)) q := by
  unfold lin preNorm
  rw [addf_apply, addf_apply, matmul_zero_apply, matmul_zero_apply, broadcastTo_1b_ab_apply]
  simp only [mulf_apply, Cert.LibVecRows.broadcastTo_col_apply]

/-! ## Row means, as a column -/

/-- The column of row means: each row's sum, viewed as a column, over the word of 128. -/
def meanCol (v : FVec Ideal S5000x128 .f32) : FVec Ideal S5000x1 .f32 :=
  divf (shapeCast S5000x1 (multiReduction .add [1] S5000 v 0x00000000#32 reduces_S5000x128_S5000 (.inl rfl) rfl) shapeCasts_S5000_S5000x1)
    (broadcast S5000x1 (Scalar.ofBits .f32 0x43000000#32))

/-- Its entry of row p is the mean of row p. -/
theorem meanCol_apply (v : FVec Ideal S5000x128 .f32) (p : Fin 5000) :
    meanCol v (ix2 p (0 : Fin 1)) = rowMean (fun k => v (ix2 p k)) := by
  unfold meanCol rowMean
  rw [divf_apply, broadcast_apply, Cert.LibVecRows.shapeCast_col_apply]
  exact congrArg (fun s => Ideal.div s (Ideal.ofBits .f32 0x43000000#32))
    (Cert.LibVecRows.multiReduction_rows_apply v 0x00000000#32 reduces_S5000x128_S5000 (.inl rfl) rfl p)

/-- The block with each row's mean taken off. -/
def centred (v : FVec Ideal S5000x128 .f32) : FVec Ideal S5000x128 .f32 :=
  subf v (broadcastTo S5000x128 (meanCol v) broadcasts_S5000x1_S5000x128)

theorem centred_apply (v : FVec Ideal S5000x128 .f32) (p : Fin 5000) (q : Fin 128) :
    centred v (ix2 p q) = v (ix2 p q) - rowMean (fun k => v (ix2 p k)) := by
  unfold centred
  rw [subf_apply, Cert.LibVecRows.broadcastTo_col_apply, meanCol_apply]

/-- The column of reciprocal standard deviations: the mean of the squared centred row, plus ε, under rsqrt. -/
def rstdCol (v : FVec Ideal S5000x128 .f32) : FVec Ideal S5000x1 .f32 :=
  rsqrt (addf (meanCol (mulf (centred v) (centred v))) (broadcast S5000x1 (Scalar.ofBits .f32 0x3727C5AC#32)))

theorem rstdCol_apply (v : FVec Ideal S5000x128 .f32) (p : Fin 5000) :
    rstdCol v (ix2 p (0 : Fin 1)) = Ideal.rsqrt (rowVar (fun k => v (ix2 p k)) + cEps) := by
  show Ideal.rsqrt (meanCol (mulf (centred v) (centred v)) (ix2 p (0 : Fin 1)) + Ideal.ofBits .f32 0x3727C5AC#32) = _
  rw [meanCol_apply]
  simp only [mulf_apply, centred_apply]
  rfl

/-- The normalised block. -/
def normed (v : FVec Ideal S5000x128 .f32) : FVec Ideal S5000x128 .f32 :=
  mulf (centred v) (broadcastTo S5000x128 (rstdCol v) broadcasts_S5000x1_S5000x128)

theorem normed_apply (v : FVec Ideal S5000x128 .f32) (p : Fin 5000) (q : Fin 128) :
    normed v (ix2 p q)
      = (v (ix2 p q) - rowMean (fun k => v (ix2 p k))) * Ideal.rsqrt (rowVar (fun k => v (ix2 p k)) + cEps) := by
  unfold normed
  rw [mulf_apply, Cert.LibVecRows.broadcastTo_col_apply, centred_apply, rstdCol_apply]

/-! ## Scale, shift, rectify -/

/-- A block times a scale row plus a shift row, floored at the word of 0. -/
def scaled (u : FVec Ideal S5000x128 .f32) (g b : FVec Ideal S1x128 .f32) : FVec Ideal S5000x128 .f32 :=
  maximumf
    (addf (mulf u (broadcastTo S5000x128 g broadcasts_S1x128_S5000x128)) (broadcastTo S5000x128 b broadcasts_S1x128_S5000x128))
    (broadcast S5000x128 (Scalar.ofBits .f32 0x00000000#32))

theorem scaled_apply (u : FVec Ideal S5000x128 .f32) (g b : FVec Ideal S1x128 .f32) (p : Fin 5000) (q : Fin 128) :
    scaled u g b (ix2 p q) = max (u (ix2 p q) * g (ix2 (0 : Fin 1) q) + b (ix2 (0 : Fin 1) q)) cZero := by
  unfold scaled
  rw [maximumf_apply, addf_apply, mulf_apply, broadcast_apply, broadcastTo_1b_ab_apply, broadcastTo_1b_ab_apply]
  rfl

/-! ## The whole block -/

/-- The layer on one block of rows. -/
def block (a : FVec Ideal S5000x128 .f32) (ic : FVec Ideal S5000x1 .f32) (h : FVec Ideal S5000x128 .f32)
    (wl : FVec Ideal S128x128 .f32) (bl : FVec Ideal S1x128 .f32) (wr : FVec Ideal S128x128 .f32)
    (g b : FVec Ideal S1x128 .f32) : FVec Ideal S5000x128 .f32 :=
  scaled (normed (lin a ic h wl bl wr)) g b

/-- At (r, j) it is the specification's row function of row r of the operands, at j. -/
theorem block_apply (a : FVec Ideal S5000x128 .f32) (ic : FVec Ideal S5000x1 .f32) (h : FVec Ideal S5000x128 .f32)
    (wl : FVec Ideal S128x128 .f32) (bl : FVec Ideal S1x128 .f32) (wr : FVec Ideal S128x128 .f32)
    (g b : FVec Ideal S1x128 .f32) (r : Fin 5000) (j : Fin 128) :
    block a ic h wl bl wr g b (ix2 r j)
      = rowOut (fun k => a (ix2 r k)) (fun k => h (ix2 r k)) (ic (ix2 r (0 : Fin 1)))
          (fun k j' => wl (ix2 k j')) (fun k j' => wr (ix2 k j')) (fun j' => bl (ix2 (0 : Fin 1) j'))
          (fun j' => g (ix2 (0 : Fin 1) j')) (fun j' => b (ix2 (0 : Fin 1) j')) j := by
  unfold block
  rw [scaled_apply, normed_apply]
  simp only [lin_apply]
  rfl

end Cert.Sage.BodyLib

end
-- ==== Proof.Body0.lean ====
/-
  What the fused layer's body leaves in its output block, read at row r and column j: the layer's row function of
  row r of the two feature blocks, entry r of the reciprocal-degree column, and the resident parameters.
-/
import proofs.«421054_j73529840107534_3_alg».proof.Proof.Gen.KernelIdeal.Frame
import proofs.«421054_j73529840107534_3_alg».proof.Proof.Spec
import proofs.«421054_j73529840107534_3_alg».proof.Proof.LibVecRows
import proofs.«421054_j73529840107534_3_alg».proof.Proof.BodyLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.K0

open Cert.KernelIdeal Cert.KernelIdeal.Gen Idealize.ShloMosaic Idealize.ShloMosaic.ValueIdx

/-- The zero offsets of a whole-block rectangle, however spelt. -/
theorem body_zero_offsets : (![0, 0] : Fin 2 → Nat) = fun _ => 0 := funext fun a => by fin_cases a <;> rfl

/-- The output block after the body is the layer's block function of the input blocks: the one store covers the
    block, every load reads its whole block, and a shape cast to the same shape is the identity. -/
theorem body_eq_block (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (x6 x7 : Vec Ideal S1x128 .f32) :
    out0_8 (F := Ideal) x0 x1 x2 x3 x4 x5 x6 x7 = Cert.Sage.BodyLib.block x0 x1 x2 x3 x4 x5 x6 x7 := by
  unfold out0_8
  rw [View.canon_unit_zero body_zero_offsets]
  simp only [View.ld_unit_zero (S := S5000x128) body_zero_offsets, View.ld_unit_zero (S := S5000x1) body_zero_offsets,
    View.ld_unit_zero (S := S128x128) body_zero_offsets, View.ld_unit_zero (S := S1x128) body_zero_offsets]
  unfold k0_pay1 k0_pay2 k0_pay3
  simp only [shapeCast_self]
  rfl

theorem out_apply (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (x6 x7 : Vec Ideal S1x128 .f32)
    (r : Fin 5000) (j : Fin 128) :
    out0_8 (F := Ideal) x0 x1 x2 x3 x4 x5 x6 x7 (ix2 r j)
      = Cert.Sage.rowOut (fun k => x0 (ix2 r k)) (fun k => x2 (ix2 r k)) (x1 (ix2 r (0 : Fin 1)))
          (fun k j' => x3 (ix2 k j')) (fun k j' => x5 (ix2 k j')) (fun j' => x4 (ix2 (0 : Fin 1) j'))
          (fun j' => x6 (ix2 (0 : Fin 1) j')) (fun j' => x7 (ix2 (0 : Fin 1) j')) j := by
  -- The block is the layer's block function; read at (r, j), that is the row function of row r.
  rw [body_eq_block]
  exact Cert.Sage.BodyLib.block_apply x0 x1 x2 x3 x4 x5 x6 x7 r j

end Cert.Sage.K0

end
-- ==== Proof.Region0.lean ====
/-
  The fused layer's output array after all ten row blocks have been written back: the layer on whole arrays, of the
  eight input arrays as the call finds them.

  Row block t of the output (rows 5000·t … 5000·t + 4999) is written once, at grid point t, and holds for each of its
  rows r the layer's row function of row r of the three moving input blocks (which are rows 5000·t + r of their arrays)
  and of the resident parameters (whose blocks are their whole arrays). The ten row blocks cover the array: row i lies
  in block i / 5000.
-/
import proofs.«421054_j73529840107534_3_alg».proof.Proof.Gen.KernelIdeal.Frame
import proofs.«421054_j73529840107534_3_alg».proof.Proof.Spec
import proofs.«421054_j73529840107534_3_alg».proof.Proof.Body0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.K0.Blocks

open Cert.KernelIdeal Cert.KernelIdeal.Gen Idealize.ShloMosaic Idealize.ShloMosaic.ValueIdx Idealize.ShloMosaic.TcCoe Idealize.SL.Sem
open Idealize.ShloMosaic.Pipeline (Dat)

/-- The row function at equal arguments. -/
theorem rowOut_congr {a a' hr hr' : Fin 128 → EReal} {ic ic' : EReal} {wl wl' wr wr' : Fin 128 → Fin 128 → EReal}
    {bl bl' g g' b b' : Fin 128 → EReal} {j j' : Fin 128} (ha : a = a') (hh : hr = hr') (hi : ic = ic') (hwl : wl = wl')
    (hwr : wr = wr') (hbl : bl = bl') (hg : g = g') (hb : b = b') (hj : j = j') :
    Cert.Sage.rowOut a hr ic wl wr bl g b j = Cert.Sage.rowOut a' hr' ic' wl' wr' bl' g' b' j' := by
  subst ha hh hi hwl hwr hbl hg hb hj; rfl

/-- The printed index maps, decided over the grid: at point t the three moving inputs and the output sit at row block
    t, column block 0; the five resident parameters at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

section
variable (V : (c : Dev nD) → (b : Ref sig .tc) → Buf (Elt Ideal) ((c : Thread nD τ).loc b))

/-- The eight input arrays as the call finds them, and the eight input blocks at a point, each at its literal type:
    the summed neighbour features, the reciprocal clipped in-degrees, the features, the neighbour matrix, the bias row,
    the own-feature matrix, the normalisation's scale row and its shift row. -/
abbrev aggArr (c : Dev nD) : S50000x128.Idx → EReal := V c main_v18
abbrev invArr (c : Dev nD) : S50000x1.Idx → EReal := V c main_v12
abbrev featArr (c : Dev nD) : S50000x128.Idx → EReal := V c main_arg0
abbrev wlArr (c : Dev nD) : S128x128.Idx → EReal := V c main_v20
abbrev blArr (c : Dev nD) : S1x128.Idx → EReal := V c main_v29
abbrev wrArr (c : Dev nD) : S128x128.Idx → EReal := V c main_v24
abbrev gArr (c : Dev nD) : S1x128.Idx → EReal := V c main_v30
abbrev bArr (c : Dev nD) : S1x128.Idx → EReal := V c main_v31
abbrev aggBlk (c : Dev nD) (t : Fin cfg0.N) : Vec Ideal S5000x128 .f32 := iblk0 V c 0 t
abbrev invBlk (c : Dev nD) (t : Fin cfg0.N) : Vec Ideal S5000x1 .f32 := iblk0 V c 1 t
abbrev featBlk (c : Dev nD) (t : Fin cfg0.N) : Vec Ideal S5000x128 .f32 := iblk0 V c 2 t
abbrev wlBlk (c : Dev nD) (t : Fin cfg0.N) : Vec Ideal S128x128 .f32 := iblk0 V c 3 t
abbrev blBlk (c : Dev nD) (t : Fin cfg0.N) : Vec Ideal S1x128 .f32 := iblk0 V c 4 t
abbrev wrBlk (c : Dev nD) (t : Fin cfg0.N) : Vec Ideal S128x128 .f32 := iblk0 V c 5 t
abbrev gBlk (c : Dev nD) (t : Fin cfg0.N) : Vec Ideal S1x128 .f32 := iblk0 V c 6 t
abbrev bBlk (c : Dev nD) (t : Fin cfg0.N) : Vec Ideal S1x128 .f32 := iblk0 V c 7 t

/-- Row y₀ of the summed-neighbour block at point t is row 5000·t + y₀ of its array. -/
theorem aggBlk_apply (c : Dev nD) (t : Fin cfg0.N) (y : S5000x128.Idx) (k : S50000x128.Idx)
    (hk0 : (k 0).val = 5000 * t.val + (y 0).val) (hk1 : (k 1).val = (y 1).val) :
    aggBlk V c t y = aggArr V c k := by
  obtain ⟨⟨e0, e1⟩, -⟩ := idx_facts t
  unfold aggBlk iblk0
  rw [View.read_apply]
  show V c main_v18 _ = V c main_v18 _
  congr 1
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 128 + 1 * (y 1).val = (k 1).val; rw [e1, hk1]; omega

/-- Entry y₀ of the reciprocal-degree block at point t is entry 5000·t + y₀ of its column. -/
theorem invBlk_apply (c : Dev nD) (t : Fin cfg0.N) (y : S5000x1.Idx) (k : S50000x1.Idx)
    (hk0 : (k 0).val = 5000 * t.val + (y 0).val) (hk1 : (k 1).val = (y 1).val) :
    invBlk V c t y = invArr V c k := by
  obtain ⟨-, ⟨e0, e1⟩, -⟩ := idx_facts t
  unfold invBlk iblk0
  rw [View.read_apply]
  show V c main_v12 _ = V c main_v12 _
  congr 1
  funext a
  apply Fin.ext
  match a with
  | ⟨0, _⟩ => show win0_1.index t (0 : Fin 2) * 5000 + 1 * (y 0).val = (k 0).val; rw [e0, hk0]; omega
  | ⟨1, _⟩ => show win0_1.index t (1 : Fin 2) * 1 + 1 * (y 1).val = (k 1).val; rw [e1, hk1]; omega

/-- Row y₀ of the feature block at point t is row 5000·t + y₀ of the feature array. -/
theorem featBlk_apply (c : Dev nD) (t : Fin cfg0.N) (y : S5000x128.Idx) (k : S50000x128.Idx)
    (hk0 : (k 0).val = 5000 * t.val + (y 0).val) (hk1 : (k 1).val = (y 1).val) :
    featBlk V c t y = featArr V c k := by
  obtain ⟨-, -, ⟨e0, e1⟩, -⟩ := idx_facts t
  unfold featBlk iblk0
  rw [View.read_apply]
  show V c main_arg0 _ = V c main_arg0 _
  congr 1
  funext a
  apply Fin.ext
  match a with
  | ⟨0, _⟩ => show win0_2.index t (0 : Fin 2) * 5000 + 1 * (y 0).val = (k 0).val; rw [e0, hk0]; omega
  | ⟨1, _⟩ => show win0_2.index t (1 : Fin 2) * 128 + 1 * (y 1).val = (k 1).val; rw [e1, hk1]; omega

/-- A resident parameter's block at any point is its whole array: the neighbour matrix, -/
theorem wlBlk_apply (c : Dev nD) (t : Fin cfg0.N) (y : S128x128.Idx) : wlBlk V c t y = wlArr V c y := by
  obtain ⟨-, -, -, ⟨e0, e1⟩, -⟩ := idx_facts t
  unfold wlBlk iblk0
  rw [View.read_apply]
  show V c main_v20 _ = V c main_v20 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- the bias row, -/
theorem blBlk_apply (c : Dev nD) (t : Fin cfg0.N) (y : S1x128.Idx) : blBlk V c t y = blArr V c y := by
  obtain ⟨-, -, -, -, ⟨e0, e1⟩, -⟩ := idx_facts t
  unfold blBlk iblk0
  rw [View.read_apply]
  show V c main_v29 _ = V c main_v29 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- the own-feature matrix, -/
theorem wrBlk_apply (c : Dev nD) (t : Fin cfg0.N) (y : S128x128.Idx) : wrBlk V c t y = wrArr V c y := by
  obtain ⟨-, -, -, -, -, ⟨e0, e1⟩, -⟩ := idx_facts t
  unfold wrBlk iblk0
  rw [View.read_apply]
  show V c main_v24 _ = V c main_v24 _
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- the normalisation's scale row, -/
theorem gBlk_apply (c : Dev nD) (t : Fin cfg0.N) (y : S1x128.Idx) : gBlk V c t y = gArr V c y := by
  obtain ⟨-, -, -, -, -, -, ⟨e0, e1⟩, -⟩ := idx_facts t
  unfold gBlk iblk0
  rw [View.read_apply]
  show V c main_v30 _ = V c main_v30 _
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- and its shift row. -/
theorem bBlk_apply (c : Dev nD) (t : Fin cfg0.N) (y : S1x128.Idx) : bBlk V c t y = bArr V c y := by
  obtain ⟨-, -, -, -, -, -, -, ⟨e0, e1⟩, -⟩ := idx_facts t
  unfold bBlk iblk0
  rw [View.read_apply]
  show V c main_v31 _ = V c main_v31 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-- The layer on the whole arrays as the call finds them. -/
abbrev layerOf (c : Dev nD) : S50000x128.Idx → EReal :=
  Cert.Sage.layerArr (aggArr V c) (invArr V c) (featArr V c) (wlArr V c) (blArr V c) (wrArr V c) (gArr V c) (bArr V c)

/-- What the body leaves at row r, column q of its output block at point t is the layer's value at row 5000·t + r,
    column q: the body's row function reads row r of the moving blocks, which are rows 5000·t + r of their arrays, and
    the resident blocks, which are their arrays. -/
theorem point_apply (c : Dev nD) (t : Fin cfg0.N) (r : Fin 5000) (q : Fin 128) (i : S50000x128.Idx)
    (hi0 : (i 0).val = 5000 * t.val + r.val) (hi1 : (i 1).val = q.val) :
    out0_8 (F := Ideal) (aggBlk V c t) (invBlk V c t) (featBlk V c t) (wlBlk V c t) (blBlk V c t) (wrBlk V c t)
        (gBlk V c t) (bBlk V c t) (ix2 r q) = layerOf V c i := by
  refine (Cert.Sage.K0.out_apply (aggBlk V c t) (invBlk V c t) (featBlk V c t) (wlBlk V c t) (blBlk V c t)
    (wrBlk V c t) (gBlk V c t) (bBlk V c t) r q).trans ?_
  show Cert.Sage.rowOut _ _ _ _ _ _ _ _ q = Cert.Sage.rowOut _ _ _ _ _ _ _ _ (i 1)
  refine rowOut_congr ?_ ?_ ?_ ?_ ?_ ?_ ?_ ?_ (Fin.ext hi1.symm)
  · exact funext fun k => aggBlk_apply V c t (ix2 r k) (ix2 (i 0) k) hi0 rfl
  · exact funext fun k => featBlk_apply V c t (ix2 r k) (ix2 (i 0) k) hi0 rfl
  · exact invBlk_apply V c t (ix2 r (0 : Fin 1)) (ix2 (i 0) (0 : Fin 1)) hi0 rfl
  · exact funext fun k => funext fun j => wlBlk_apply V c t (ix2 k j)
  · exact funext fun k => funext fun j => wrBlk_apply V c t (ix2 k j)
  · exact funext fun j => blBlk_apply V c t (ix2 (0 : Fin 1) j)
  · exact funext fun j => gBlk_apply V c t (ix2 (0 : Fin 1) j)
  · exact funext fun j => bBlk_apply V c t (ix2 (0 : Fin 1) j)

/-- What point t writes back is row block t of the layer on the whole arrays: entry (j₀, j₁) of the output block sits at
    row 5000·t + j₀, column j₁ of the array. -/
theorem flushed_eq (c : Dev nD) (t : Fin cfg0.N) :
    (dat0 (F := Ideal) V c).flushed 8 t = ((cfg0.win 8).blk t).view.read (Elt Ideal) (layerOf V c) := by
  show (cfg0.win 8).cut (grid0.coords t) ((dat0 V c).after 8 t) = _
  rw [after0_8]
  obtain ⟨-, -, -, -, -, -, -, -, ⟨e0, e1⟩⟩ := idx_facts t
  funext j
  have hj0 : (j 0).val < 5000 := (j 0).isLt
  have hj1 : (j 1).val < 128 := (j 1).isLt
  have hx : (cfg0.win 8).xinj (grid0.coords t) j = ix2 (⟨(j 0).val, hj0⟩ : Fin 5000) (⟨(j 1).val, hj1⟩ : Fin 128) := by
    funext a
    match a with
    | ⟨0, _⟩ => rfl
    | ⟨1, _⟩ => rfl
  refine (congrArg (out0_8 (F := Ideal) (aggBlk V c t) (invBlk V c t) (featBlk V c t) (wlBlk V c t) (blBlk V c t)
    (wrBlk V c t) (gBlk V c t) (bBlk V c t)) hx).trans ?_
  exact point_apply V c t ⟨(j 0).val, hj0⟩ ⟨(j 1).val, hj1⟩ (((cfg0.win 8).blk t).view.emb j)
    (by show win0_8.index t (0 : Fin 2) * 5000 + 1 * (j 0).val = 5000 * t.val + (j 0).val; rw [e0]; omega)
    (by show win0_8.index t (1 : Fin 2) * 128 + 1 * (j 1).val = (j 1).val; rw [e1]; omega)

end

/-- An index of the output array is in point t's block iff each coordinate is in the block's range on its axis. -/
theorem mem_blk (t : Fin cfg0.N) (i : S50000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v32).slice (win0_8.rect t)).set ↔ _
  rw [View.set_slice_whole, Rect.mem_set_unit]
  exact Iff.rfl

/-- The ten row blocks cover the output array: row i₀ lies in the block of point i₀ / 5000, which is written back. -/
theorem cover (i : S50000x128.Idx) :
    ∃ t : Fin cfg0.N, (cfg0.win 8).flush t = true ∧ i ∈ ((cfg0.win 8).blk t).view.set := by
  have hi0 : (i 0).val < 50000 := idx2_lt0 i
  have hi1 : (i 1).val < 128 := idx2_lt1 i
  have hN : cfg0.N = 10 := N_0
  have ht : (i 0).val / 5000 < cfg0.N := by rw [hN]; omega
  obtain ⟨-, -, -, -, -, -, -, -, ⟨e0, e1⟩⟩ := idx_facts ⟨(i 0).val / 5000, ht⟩
  refine ⟨⟨(i 0).val / 5000, ht⟩, flush0_8 _, ?_⟩
  rw [mem_blk]
  intro a
  match a with
  | ⟨0, _⟩ =>
    show win0_8.index ⟨(i 0).val / 5000, ht⟩ (0 : Fin 2) * 5000 ≤ (i 0).val
      ∧ (i 0).val < win0_8.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_8.index ⟨(i 0).val / 5000, ht⟩ (1 : Fin 2) * 128 ≤ (i 1).val
      ∧ (i 1).val < win0_8.index ⟨(i 0).val / 5000, ht⟩ (1 : Fin 2) * 128 + 128
    rw [e1]
    omega

end Cert.Sage.K0.Blocks

namespace Cert.Sage.K0

open Cert.KernelIdeal Cert.KernelIdeal.Gen Idealize.ShloMosaic Idealize.ShloMosaic.ValueIdx Idealize.ShloMosaic.TcCoe Idealize.SL.Sem
open Idealize.ShloMosaic.Pipeline (Dat)

theorem arr_out (V : (c : Dev nD) → (b : Ref sig .tc) → Buf (Elt Ideal) ((c : Thread nD τ).loc b)) (c : Dev nD) :
    (dat0 (F := Ideal) V c).arrAt 8 cfg0.N
      = Cert.Sage.layerArr (V c main_v18) (V c main_v12) (V c main_arg0) (V c main_v20) (V c main_v29) (V c main_v24) (V c main_v30) (V c main_v31) :=
  (dat0 (F := Ideal) V c).arrAt_eq_of_cover 8 (Blocks.layerOf V c) (fun t _ => Blocks.flushed_eq V c t) Blocks.cover

end Cert.Sage.K0

end
-- ==== Proof.Body1.lean ====
/-
  What the fused layer's body leaves in its output block, read at row r and column j: the layer's row function of
  row r of the two feature blocks, entry r of the reciprocal-degree column, and the resident parameters.
-/
import proofs.«421054_j73529840107534_3_alg».proof.Proof.Gen.KernelIdeal.Frame
import proofs.«421054_j73529840107534_3_alg».proof.Proof.Spec
import proofs.«421054_j73529840107534_3_alg».proof.Proof.LibVecRows
import proofs.«421054_j73529840107534_3_alg».proof.Proof.BodyLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.K1

open Cert.KernelIdeal Cert.KernelIdeal.Gen Idealize.ShloMosaic Idealize.ShloMosaic.ValueIdx

/-- The zero offsets of a whole-block rectangle, however spelt. -/
theorem body_zero_offsets : (![0, 0] : Fin 2 → Nat) = fun _ => 0 := funext fun a => by fin_cases a <;> rfl

/-- The output block after the body is the layer's block function of the input blocks: the one store covers the
    block, every load reads its whole block, and a shape cast to the same shape is the identity. -/
theorem body_eq_block (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (x6 x7 : Vec Ideal S1x128 .f32) :
    out1_8 (F := Ideal) x0 x1 x2 x3 x4 x5 x6 x7 = Cert.Sage.BodyLib.block x0 x1 x2 x3 x4 x5 x6 x7 := by
  unfold out1_8
  rw [View.canon_unit_zero body_zero_offsets]
  simp only [View.ld_unit_zero (S := S5000x128) body_zero_offsets, View.ld_unit_zero (S := S5000x1) body_zero_offsets,
    View.ld_unit_zero (S := S128x128) body_zero_offsets, View.ld_unit_zero (S := S1x128) body_zero_offsets]
  unfold k1_pay1 k1_pay2
  simp only [shapeCast_self]
  rfl

theorem out_apply (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (x6 x7 : Vec Ideal S1x128 .f32)
    (r : Fin 5000) (j : Fin 128) :
    out1_8 (F := Ideal) x0 x1 x2 x3 x4 x5 x6 x7 (ix2 r j)
      = Cert.Sage.rowOut (fun k => x0 (ix2 r k)) (fun k => x2 (ix2 r k)) (x1 (ix2 r (0 : Fin 1)))
          (fun k j' => x3 (ix2 k j')) (fun k j' => x5 (ix2 k j')) (fun j' => x4 (ix2 (0 : Fin 1) j'))
          (fun j' => x6 (ix2 (0 : Fin 1) j')) (fun j' => x7 (ix2 (0 : Fin 1) j')) j := by
  -- The block is the layer's block function; read at (r, j), that is the row function of row r.
  rw [body_eq_block]
  exact Cert.Sage.BodyLib.block_apply x0 x1 x2 x3 x4 x5 x6 x7 r j

end Cert.Sage.K1

end
-- ==== Proof.Region1.lean ====
/-
  The fused layer's output array after all ten row blocks have been written back: the layer on whole arrays, of the
  eight input arrays as the call finds them.

  Row block t of the output (rows 5000·t … 5000·t + 4999) is written once, at grid point t, and holds for each of its
  rows r the layer's row function of row r of the three moving input blocks (which are rows 5000·t + r of their arrays)
  and of the resident parameters (whose blocks are their whole arrays). The ten row blocks cover the array: row i lies
  in block i / 5000.
-/
import proofs.«421054_j73529840107534_3_alg».proof.Proof.Gen.KernelIdeal.Frame
import proofs.«421054_j73529840107534_3_alg».proof.Proof.Spec
import proofs.«421054_j73529840107534_3_alg».proof.Proof.Body1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.K1.Blocks

open Cert.KernelIdeal Cert.KernelIdeal.Gen Idealize.ShloMosaic Idealize.ShloMosaic.ValueIdx Idealize.ShloMosaic.TcCoe Idealize.SL.Sem
open Idealize.ShloMosaic.Pipeline (Dat)

/-- The row function at equal arguments. -/
theorem rowOut_congr {a a' hr hr' : Fin 128 → EReal} {ic ic' : EReal} {wl wl' wr wr' : Fin 128 → Fin 128 → EReal}
    {bl bl' g g' b b' : Fin 128 → EReal} {j j' : Fin 128} (ha : a = a') (hh : hr = hr') (hi : ic = ic') (hwl : wl = wl')
    (hwr : wr = wr') (hbl : bl = bl') (hg : g = g') (hb : b = b') (hj : j = j') :
    Cert.Sage.rowOut a hr ic wl wr bl g b j = Cert.Sage.rowOut a' hr' ic' wl' wr' bl' g' b' j' := by
  subst ha hh hi hwl hwr hbl hg hb hj; rfl

/-- The printed index maps, decided over the grid: at point t the three moving inputs and the output sit at row block
    t, column block 0; the five resident parameters at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0) :=
  (by decide +kernel : ∀ t : Fin grid1.N, _)

section
variable (V : (c : Dev nD) → (b : Ref sig .tc) → Buf (Elt Ideal) ((c : Thread nD τ).loc b))

/-- The eight input arrays as the call finds them, and the eight input blocks at a point, each at its literal type:
    the summed neighbour features, the reciprocal clipped in-degrees, the features, the neighbour matrix, the bias row,
    the own-feature matrix, the normalisation's scale row and its shift row. -/
abbrev aggArr (c : Dev nD) : S50000x128.Idx → EReal := V c main_v36
abbrev invArr (c : Dev nD) : S50000x1.Idx → EReal := V c main_v12
abbrev featArr (c : Dev nD) : S50000x128.Idx → EReal := V c main_v32
abbrev wlArr (c : Dev nD) : S128x128.Idx → EReal := V c main_v38
abbrev blArr (c : Dev nD) : S1x128.Idx → EReal := V c main_v47
abbrev wrArr (c : Dev nD) : S128x128.Idx → EReal := V c main_v42
abbrev gArr (c : Dev nD) : S1x128.Idx → EReal := V c main_v48
abbrev bArr (c : Dev nD) : S1x128.Idx → EReal := V c main_v49
abbrev aggBlk (c : Dev nD) (t : Fin cfg1.N) : Vec Ideal S5000x128 .f32 := iblk1 V c 0 t
abbrev invBlk (c : Dev nD) (t : Fin cfg1.N) : Vec Ideal S5000x1 .f32 := iblk1 V c 1 t
abbrev featBlk (c : Dev nD) (t : Fin cfg1.N) : Vec Ideal S5000x128 .f32 := iblk1 V c 2 t
abbrev wlBlk (c : Dev nD) (t : Fin cfg1.N) : Vec Ideal S128x128 .f32 := iblk1 V c 3 t
abbrev blBlk (c : Dev nD) (t : Fin cfg1.N) : Vec Ideal S1x128 .f32 := iblk1 V c 4 t
abbrev wrBlk (c : Dev nD) (t : Fin cfg1.N) : Vec Ideal S128x128 .f32 := iblk1 V c 5 t
abbrev gBlk (c : Dev nD) (t : Fin cfg1.N) : Vec Ideal S1x128 .f32 := iblk1 V c 6 t
abbrev bBlk (c : Dev nD) (t : Fin cfg1.N) : Vec Ideal S1x128 .f32 := iblk1 V c 7 t

/-- Row y₀ of the summed-neighbour block at point t is row 5000·t + y₀ of its array. -/
theorem aggBlk_apply (c : Dev nD) (t : Fin cfg1.N) (y : S5000x128.Idx) (k : S50000x128.Idx)
    (hk0 : (k 0).val = 5000 * t.val + (y 0).val) (hk1 : (k 1).val = (y 1).val) :
    aggBlk V c t y = aggArr V c k := by
  obtain ⟨⟨e0, e1⟩, -⟩ := idx_facts t
  unfold aggBlk iblk1
  rw [View.read_apply]
  show V c main_v36 _ = V c main_v36 _
  congr 1
  funext a
  apply Fin.ext
  match a with
  | ⟨0, _⟩ => show win1_0.index t (0 : Fin 2) * 5000 + 1 * (y 0).val = (k 0).val; rw [e0, hk0]; omega
  | ⟨1, _⟩ => show win1_0.index t (1 : Fin 2) * 128 + 1 * (y 1).val = (k 1).val; rw [e1, hk1]; omega

/-- Entry y₀ of the reciprocal-degree block at point t is entry 5000·t + y₀ of its column. -/
theorem invBlk_apply (c : Dev nD) (t : Fin cfg1.N) (y : S5000x1.Idx) (k : S50000x1.Idx)
    (hk0 : (k 0).val = 5000 * t.val + (y 0).val) (hk1 : (k 1).val = (y 1).val) :
    invBlk V c t y = invArr V c k := by
  obtain ⟨-, ⟨e0, e1⟩, -⟩ := idx_facts t
  unfold invBlk iblk1
  rw [View.read_apply]
  show V c main_v12 _ = V c main_v12 _
  congr 1
  funext a
  apply Fin.ext
  match a with
  | ⟨0, _⟩ => show win1_1.index t (0 : Fin 2) * 5000 + 1 * (y 0).val = (k 0).val; rw [e0, hk0]; omega
  | ⟨1, _⟩ => show win1_1.index t (1 : Fin 2) * 1 + 1 * (y 1).val = (k 1).val; rw [e1, hk1]; omega

/-- Row y₀ of the feature block at point t is row 5000·t + y₀ of the feature array. -/
theorem featBlk_apply (c : Dev nD) (t : Fin cfg1.N) (y : S5000x128.Idx) (k : S50000x128.Idx)
    (hk0 : (k 0).val = 5000 * t.val + (y 0).val) (hk1 : (k 1).val = (y 1).val) :
    featBlk V c t y = featArr V c k := by
  obtain ⟨-, -, ⟨e0, e1⟩, -⟩ := idx_facts t
  unfold featBlk iblk1
  rw [View.read_apply]
  show V c main_v32 _ = V c main_v32 _
  congr 1
  funext a
  apply Fin.ext
  match a with
  | ⟨0, _⟩ => show win1_2.index t (0 : Fin 2) * 5000 + 1 * (y 0).val = (k 0).val; rw [e0, hk0]; omega
  | ⟨1, _⟩ => show win1_2.index t (1 : Fin 2) * 128 + 1 * (y 1).val = (k 1).val; rw [e1, hk1]; omega

/-- A resident parameter's block at any point is its whole array: the neighbour matrix, -/
theorem wlBlk_apply (c : Dev nD) (t : Fin cfg1.N) (y : S128x128.Idx) : wlBlk V c t y = wlArr V c y := by
  obtain ⟨-, -, -, ⟨e0, e1⟩, -⟩ := idx_facts t
  unfold wlBlk iblk1
  rw [View.read_apply]
  show V c main_v38 _ = V c main_v38 _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- the bias row, -/
theorem blBlk_apply (c : Dev nD) (t : Fin cfg1.N) (y : S1x128.Idx) : blBlk V c t y = blArr V c y := by
  obtain ⟨-, -, -, -, ⟨e0, e1⟩, -⟩ := idx_facts t
  unfold blBlk iblk1
  rw [View.read_apply]
  show V c main_v47 _ = V c main_v47 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- the own-feature matrix, -/
theorem wrBlk_apply (c : Dev nD) (t : Fin cfg1.N) (y : S128x128.Idx) : wrBlk V c t y = wrArr V c y := by
  obtain ⟨-, -, -, -, -, ⟨e0, e1⟩, -⟩ := idx_facts t
  unfold wrBlk iblk1
  rw [View.read_apply]
  show V c main_v42 _ = V c main_v42 _
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- the normalisation's scale row, -/
theorem gBlk_apply (c : Dev nD) (t : Fin cfg1.N) (y : S1x128.Idx) : gBlk V c t y = gArr V c y := by
  obtain ⟨-, -, -, -, -, -, ⟨e0, e1⟩, -⟩ := idx_facts t
  unfold gBlk iblk1
  rw [View.read_apply]
  show V c main_v48 _ = V c main_v48 _
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- and its shift row. -/
theorem bBlk_apply (c : Dev nD) (t : Fin cfg1.N) (y : S1x128.Idx) : bBlk V c t y = bArr V c y := by
  obtain ⟨-, -, -, -, -, -, -, ⟨e0, e1⟩, -⟩ := idx_facts t
  unfold bBlk iblk1
  rw [View.read_apply]
  show V c main_v49 _ = V c main_v49 _
  congr 1
  funext a
  apply Fin.ext
  match a with
  | ⟨0, _⟩ => show win1_7.index t (0 : Fin 2) * 1 + 1 * (y 0).val = (y 0).val; rw [e0]; omega
  | ⟨1, _⟩ => show win1_7.index t (1 : Fin 2) * 128 + 1 * (y 1).val = (y 1).val; rw [e1]; omega

/-- The layer on the whole arrays as the call finds them. -/
abbrev layerOf (c : Dev nD) : S50000x128.Idx → EReal :=
  Cert.Sage.layerArr (aggArr V c) (invArr V c) (featArr V c) (wlArr V c) (blArr V c) (wrArr V c) (gArr V c) (bArr V c)

/-- What the body leaves at row r, column q of its output block at point t is the layer's value at row 5000·t + r,
    column q: the body's row function reads row r of the moving blocks, which are rows 5000·t + r of their arrays, and
    the resident blocks, which are their arrays. -/
theorem point_apply (c : Dev nD) (t : Fin cfg1.N) (r : Fin 5000) (q : Fin 128) (i : S50000x128.Idx)
    (hi0 : (i 0).val = 5000 * t.val + r.val) (hi1 : (i 1).val = q.val) :
    out1_8 (F := Ideal) (aggBlk V c t) (invBlk V c t) (featBlk V c t) (wlBlk V c t) (blBlk V c t) (wrBlk V c t)
        (gBlk V c t) (bBlk V c t) (ix2 r q) = layerOf V c i := by
  refine (Cert.Sage.K1.out_apply (aggBlk V c t) (invBlk V c t) (featBlk V c t) (wlBlk V c t) (blBlk V c t)
    (wrBlk V c t) (gBlk V c t) (bBlk V c t) r q).trans ?_
  show Cert.Sage.rowOut _ _ _ _ _ _ _ _ q = Cert.Sage.rowOut _ _ _ _ _ _ _ _ (i 1)
  refine rowOut_congr ?_ ?_ ?_ ?_ ?_ ?_ ?_ ?_ (Fin.ext hi1.symm)
  · exact funext fun k => aggBlk_apply V c t (ix2 r k) (ix2 (i 0) k) hi0 rfl
  · exact funext fun k => featBlk_apply V c t (ix2 r k) (ix2 (i 0) k) hi0 rfl
  · exact invBlk_apply V c t (ix2 r (0 : Fin 1)) (ix2 (i 0) (0 : Fin 1)) hi0 rfl
  · exact funext fun k => funext fun j => wlBlk_apply V c t (ix2 k j)
  · exact funext fun k => funext fun j => wrBlk_apply V c t (ix2 k j)
  · exact funext fun j => blBlk_apply V c t (ix2 (0 : Fin 1) j)
  · exact funext fun j => gBlk_apply V c t (ix2 (0 : Fin 1) j)
  · exact funext fun j => bBlk_apply V c t (ix2 (0 : Fin 1) j)

/-- What point t writes back is row block t of the layer on the whole arrays: entry (j₀, j₁) of the output block sits at
    row 5000·t + j₀, column j₁ of the array. -/
theorem flushed_eq (c : Dev nD) (t : Fin cfg1.N) :
    (dat1 (F := Ideal) V c).flushed 8 t = ((cfg1.win 8).blk t).view.read (Elt Ideal) (layerOf V c) := by
  show (cfg1.win 8).cut (grid1.coords t) ((dat1 V c).after 8 t) = _
  rw [after1_8]
  obtain ⟨-, -, -, -, -, -, -, -, ⟨e0, e1⟩⟩ := idx_facts t
  funext j
  have hj0 : (j 0).val < 5000 := (j 0).isLt
  have hj1 : (j 1).val < 128 := (j 1).isLt
  have hx : (cfg1.win 8).xinj (grid1.coords t) j = ix2 (⟨(j 0).val, hj0⟩ : Fin 5000) (⟨(j 1).val, hj1⟩ : Fin 128) := by
    funext a
    match a with
    | ⟨0, _⟩ => rfl
    | ⟨1, _⟩ => rfl
  refine (congrArg (out1_8 (F := Ideal) (aggBlk V c t) (invBlk V c t) (featBlk V c t) (wlBlk V c t) (blBlk V c t)
    (wrBlk V c t) (gBlk V c t) (bBlk V c t)) hx).trans ?_
  exact point_apply V c t ⟨(j 0).val, hj0⟩ ⟨(j 1).val, hj1⟩ (((cfg1.win 8).blk t).view.emb j)
    (by show win1_8.index t (0 : Fin 2) * 5000 + 1 * (j 0).val = 5000 * t.val + (j 0).val; rw [e0]; omega)
    (by show win1_8.index t (1 : Fin 2) * 128 + 1 * (j 1).val = (j 1).val; rw [e1]; omega)

end

/-- An index of the output array is in point t's block iff each coordinate is in the block's range on its axis. -/
theorem mem_blk (t : Fin cfg1.N) (i : S50000x128.Idx) :
    i ∈ ((cfg1.win 8).blk t).view.set ↔ ∀ a : Fin 2, win1_8.index t a * S5000x128.size a ≤ (i a).val
      ∧ (i a).val < win1_8.index t a * S5000x128.size a + S5000x128.size a := by
  show i ∈ ((View.whole main_v50).slice (win1_8.rect t)).set ↔ _
  rw [View.set_slice_whole, Rect.mem_set_unit]
  exact Iff.rfl

/-- The ten row blocks cover the output array: row i₀ lies in the block of point i₀ / 5000, which is written back. -/
theorem cover (i : S50000x128.Idx) :
    ∃ t : Fin cfg1.N, (cfg1.win 8).flush t = true ∧ i ∈ ((cfg1.win 8).blk t).view.set := by
  have hi0 : (i 0).val < 50000 := idx2_lt0 i
  have hi1 : (i 1).val < 128 := idx2_lt1 i
  have hN : cfg1.N = 10 := N_1
  have ht : (i 0).val / 5000 < cfg1.N := by rw [hN]; omega
  obtain ⟨-, -, -, -, -, -, -, -, ⟨e0, e1⟩⟩ := idx_facts ⟨(i 0).val / 5000, ht⟩
  refine ⟨⟨(i 0).val / 5000, ht⟩, flush1_8 _, ?_⟩
  rw [mem_blk]
  intro a
  match a with
  | ⟨0, _⟩ =>
    show win1_8.index ⟨(i 0).val / 5000, ht⟩ (0 : Fin 2) * 5000 ≤ (i 0).val
      ∧ (i 0).val < win1_8.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_8.index ⟨(i 0).val / 5000, ht⟩ (1 : Fin 2) * 128 ≤ (i 1).val
      ∧ (i 1).val < win1_8.index ⟨(i 0).val / 5000, ht⟩ (1 : Fin 2) * 128 + 128
    rw [e1]
    omega

end Cert.Sage.K1.Blocks

namespace Cert.Sage.K1

open Cert.KernelIdeal Cert.KernelIdeal.Gen Idealize.ShloMosaic Idealize.ShloMosaic.ValueIdx Idealize.ShloMosaic.TcCoe Idealize.SL.Sem
open Idealize.ShloMosaic.Pipeline (Dat)

theorem arr_out (V : (c : Dev nD) → (b : Ref sig .tc) → Buf (Elt Ideal) ((c : Thread nD τ).loc b)) (c : Dev nD) :
    (dat1 (F := Ideal) V c).arrAt 8 cfg1.N
      = Cert.Sage.layerArr (V c main_v36) (V c main_v12) (V c main_v32) (V c main_v38) (V c main_v47) (V c main_v42) (V c main_v48) (V c main_v49) :=
  (dat1 (F := Ideal) V c).arrAt_eq_of_cover 8 (Blocks.layerOf V c) (fun t _ => Blocks.flushed_eq V c t) Blocks.cover

end Cert.Sage.K1

end
-- ==== Proof.Body2.lean ====
/-
  What the fused layer's body leaves in its output block, read at row r and column j: the layer's row function of
  row r of the two feature blocks, entry r of the reciprocal-degree column, and the resident parameters.
-/
import proofs.«421054_j73529840107534_3_alg».proof.Proof.Gen.KernelIdeal.Frame
import proofs.«421054_j73529840107534_3_alg».proof.Proof.Spec
import proofs.«421054_j73529840107534_3_alg».proof.Proof.LibVecRows
import proofs.«421054_j73529840107534_3_alg».proof.Proof.BodyLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.K2

open Cert.KernelIdeal Cert.KernelIdeal.Gen Idealize.ShloMosaic Idealize.ShloMosaic.ValueIdx

/-- The zero offsets of a whole-block rectangle, however spelt. -/
theorem body_zero_offsets : (![0, 0] : Fin 2 → Nat) = fun _ => 0 := funext fun a => by fin_cases a <;> rfl

/-- The output block after the body is the layer's block function of the input blocks: the one store covers the
    block, every load reads its whole block, and a shape cast to the same shape is the identity. -/
theorem body_eq_block (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (x6 x7 : Vec Ideal S1x128 .f32) :
    out2_8 (F := Ideal) x0 x1 x2 x3 x4 x5 x6 x7 = Cert.Sage.BodyLib.block x0 x1 x2 x3 x4 x5 x6 x7 := by
  unfold out2_8
  rw [View.canon_unit_zero body_zero_offsets]
  simp only [View.ld_unit_zero (S := S5000x128) body_zero_offsets, View.ld_unit_zero (S := S5000x1) body_zero_offsets,
    View.ld_unit_zero (S := S128x128) body_zero_offsets, View.ld_unit_zero (S := S1x128) body_zero_offsets]
  unfold k2_pay1 k2_pay2
  simp only [shapeCast_self]
  rfl

theorem out_apply (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (x6 x7 : Vec Ideal S1x128 .f32)
    (r : Fin 5000) (j : Fin 128) :
    out2_8 (F := Ideal) x0 x1 x2 x3 x4 x5 x6 x7 (ix2 r j)
      = Cert.Sage.rowOut (fun k => x0 (ix2 r k)) (fun k => x2 (ix2 r k)) (x1 (ix2 r (0 : Fin 1)))
          (fun k j' => x3 (ix2 k j')) (fun k j' => x5 (ix2 k j')) (fun j' => x4 (ix2 (0 : Fin 1) j'))
          (fun j' => x6 (ix2 (0 : Fin 1) j')) (fun j' => x7 (ix2 (0 : Fin 1) j')) j := by
  -- The block is the layer's block function; read at (r, j), that is the row function of row r.
  rw [body_eq_block]
  exact Cert.Sage.BodyLib.block_apply x0 x1 x2 x3 x4 x5 x6 x7 r j

end Cert.Sage.K2

end
-- ==== Proof.Region2.lean ====
/-
  The fused layer's output array after all ten row blocks have been written back: the layer on whole arrays, of the
  eight input arrays as the call finds them.

  Row block t of the output (rows 5000·t … 5000·t + 4999) is written once, at grid point t, and holds for each of its
  rows r the layer's row function of row r of the three moving input blocks (which are rows 5000·t + r of their arrays)
  and of the resident parameters (whose blocks are their whole arrays). The ten row blocks cover the array: row i lies
  in block i / 5000.
-/
import proofs.«421054_j73529840107534_3_alg».proof.Proof.Gen.KernelIdeal.Frame
import proofs.«421054_j73529840107534_3_alg».proof.Proof.Spec
import proofs.«421054_j73529840107534_3_alg».proof.Proof.Body2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.K2.Blocks

open Cert.KernelIdeal Cert.KernelIdeal.Gen Idealize.ShloMosaic Idealize.ShloMosaic.ValueIdx Idealize.ShloMosaic.TcCoe Idealize.SL.Sem
open Idealize.ShloMosaic.Pipeline (Dat)

/-- The row function at equal arguments. -/
theorem rowOut_congr {a a' hr hr' : Fin 128 → EReal} {ic ic' : EReal} {wl wl' wr wr' : Fin 128 → Fin 128 → EReal}
    {bl bl' g g' b b' : Fin 128 → EReal} {j j' : Fin 128} (ha : a = a') (hh : hr = hr') (hi : ic = ic') (hwl : wl = wl')
    (hwr : wr = wr') (hbl : bl = bl') (hg : g = g') (hb : b = b') (hj : j = j') :
    Cert.Sage.rowOut a hr ic wl wr bl g b j = Cert.Sage.rowOut a' hr' ic' wl' wr' bl' g' b' j' := by
  subst ha hh hi hwl hwr hbl hg hb hj; rfl

/-- The printed index maps, decided over the grid: at point t the three moving inputs and the output sit at row block
    t, column block 0; the five resident parameters at block (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = t.val ∧ win2_8.index t (1 : Fin 2) = 0) :=
  (by decide +kernel : ∀ t : Fin grid2.N, _)

section
variable (V : (c : Dev nD) → (b : Ref sig .tc) → Buf (Elt Ideal) ((c : Thread nD τ).loc b))

/-- The eight input arrays as the call finds them, and the eight input blocks at a point, each at its literal type:
    the summed neighbour features, the reciprocal clipped in-degrees, the features, the neighbour matrix, the bias row,
    the own-feature matrix, the normalisation's scale row and its shift row. -/
abbrev aggArr (c : Dev nD) : S50000x128.Idx → EReal := V c main_v54
abbrev invArr (c : Dev nD) : S50000x1.Idx → EReal := V c main_v12
abbrev featArr (c : Dev nD) : S50000x128.Idx → EReal := V c main_v50
abbrev wlArr (c : Dev nD) : S128x128.Idx → EReal := V c main_v56
abbrev blArr (c : Dev nD) : S1x128.Idx → EReal := V c main_v65
abbrev wrArr (c : Dev nD) : S128x128.Idx → EReal := V c main_v60
abbrev gArr (c : Dev nD) : S1x128.Idx → EReal := V c main_v66
abbrev bArr (c : Dev nD) : S1x128.Idx → EReal := V c main_v67
abbrev aggBlk (c : Dev nD) (t : Fin cfg2.N) : Vec Ideal S5000x128 .f32 := iblk2 V c 0 t
abbrev invBlk (c : Dev nD) (t : Fin cfg2.N) : Vec Ideal S5000x1 .f32 := iblk2 V c 1 t
abbrev featBlk (c : Dev nD) (t : Fin cfg2.N) : Vec Ideal S5000x128 .f32 := iblk2 V c 2 t
abbrev wlBlk (c : Dev nD) (t : Fin cfg2.N) : Vec Ideal S128x128 .f32 := iblk2 V c 3 t
abbrev blBlk (c : Dev nD) (t : Fin cfg2.N) : Vec Ideal S1x128 .f32 := iblk2 V c 4 t
abbrev wrBlk (c : Dev nD) (t : Fin cfg2.N) : Vec Ideal S128x128 .f32 := iblk2 V c 5 t
abbrev gBlk (c : Dev nD) (t : Fin cfg2.N) : Vec Ideal S1x128 .f32 := iblk2 V c 6 t
abbrev bBlk (c : Dev nD) (t : Fin cfg2.N) : Vec Ideal S1x128 .f32 := iblk2 V c 7 t

/-- Row y₀ of the summed-neighbour block at point t is row 5000·t + y₀ of its array. -/
theorem aggBlk_apply (c : Dev nD) (t : Fin cfg2.N) (y : S5000x128.Idx) (k : S50000x128.Idx)
    (hk0 : (k 0).val = 5000 * t.val + (y 0).val) (hk1 : (k 1).val = (y 1).val) :
    aggBlk V c t y = aggArr V c k := by
  obtain ⟨⟨e0, e1⟩, -⟩ := idx_facts t
  unfold aggBlk iblk2
  rw [View.read_apply]
  show V c main_v54 _ = V c main_v54 _
  congr 1
  funext a
  apply Fin.ext
  match a with
  | ⟨0, _⟩ => show win2_0.index t (0 : Fin 2) * 5000 + 1 * (y 0).val = (k 0).val; rw [e0, hk0]; omega
  | ⟨1, _⟩ => show win2_0.index t (1 : Fin 2) * 128 + 1 * (y 1).val = (k 1).val; rw [e1, hk1]; omega

/-- Entry y₀ of the reciprocal-degree block at point t is entry 5000·t + y₀ of its column. -/
theorem invBlk_apply (c : Dev nD) (t : Fin cfg2.N) (y : S5000x1.Idx) (k : S50000x1.Idx)
    (hk0 : (k 0).val = 5000 * t.val + (y 0).val) (hk1 : (k 1).val = (y 1).val) :
    invBlk V c t y = invArr V c k := by
  obtain ⟨-, ⟨e0, e1⟩, -⟩ := idx_facts t
  unfold invBlk iblk2
  rw [View.read_apply]
  show V c main_v12 _ = V c main_v12 _
  congr 1
  funext a
  apply Fin.ext
  match a with
  | ⟨0, _⟩ => show win2_1.index t (0 : Fin 2) * 5000 + 1 * (y 0).val = (k 0).val; rw [e0, hk0]; omega
  | ⟨1, _⟩ => show win2_1.index t (1 : Fin 2) * 1 + 1 * (y 1).val = (k 1).val; rw [e1, hk1]; omega

/-- Row y₀ of the feature block at point t is row 5000·t + y₀ of the feature array. -/
theorem featBlk_apply (c : Dev nD) (t : Fin cfg2.N) (y : S5000x128.Idx) (k : S50000x128.Idx)
    (hk0 : (k 0).val = 5000 * t.val + (y 0).val) (hk1 : (k 1).val = (y 1).val) :
    featBlk V c t y = featArr V c k := by
  obtain ⟨-, -, ⟨e0, e1⟩, -⟩ := idx_facts t
  unfold featBlk iblk2
  rw [View.read_apply]
  show V c main_v50 _ = V c main_v50 _
  congr 1
  funext a
  apply Fin.ext
  match a with
  | ⟨0, _⟩ => show win2_2.index t (0 : Fin 2) * 5000 + 1 * (y 0).val = (k 0).val; rw [e0, hk0]; omega
  | ⟨1, _⟩ => show win2_2.index t (1 : Fin 2) * 128 + 1 * (y 1).val = (k 1).val; rw [e1, hk1]; omega

/-- A resident parameter's block at any point is its whole array: the neighbour matrix, -/
theorem wlBlk_apply (c : Dev nD) (t : Fin cfg2.N) (y : S128x128.Idx) : wlBlk V c t y = wlArr V c y := by
  obtain ⟨-, -, -, ⟨e0, e1⟩, -⟩ := idx_facts t
  unfold wlBlk iblk2
  rw [View.read_apply]
  show V c main_v56 _ = V c main_v56 _
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- the bias row, -/
theorem blBlk_apply (c : Dev nD) (t : Fin cfg2.N) (y : S1x128.Idx) : blBlk V c t y = blArr V c y := by
  obtain ⟨-, -, -, -, ⟨e0, e1⟩, -⟩ := idx_facts t
  unfold blBlk iblk2
  rw [View.read_apply]
  show V c main_v65 _ = V c main_v65 _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- the own-feature matrix, -/
theorem wrBlk_apply (c : Dev nD) (t : Fin cfg2.N) (y : S128x128.Idx) : wrBlk V c t y = wrArr V c y := by
  obtain ⟨-, -, -, -, -, ⟨e0, e1⟩, -⟩ := idx_facts t
  unfold wrBlk iblk2
  rw [View.read_apply]
  show V c main_v60 _ = V c main_v60 _
  congr 1
  funext a
  apply Fin.ext
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega

/-- the normalisation's scale row, -/
theorem gBlk_apply (c : Dev nD) (t : Fin cfg2.N) (y : S1x128.Idx) : gBlk V c t y = gArr V c y := by
  obtain ⟨-, -, -, -, -, -, ⟨e0, e1⟩, -⟩ := idx_facts t
  unfold gBlk iblk2
  rw [View.read_apply]
  show V c main_v66 _ = V c main_v66 _
  congr 1
  funext a
  apply Fin.ext
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega

/-- and its shift row. -/
theorem bBlk_apply (c : Dev nD) (t : Fin cfg2.N) (y : S1x128.Idx) : bBlk V c t y = bArr V c y := by
  obtain ⟨-, -, -, -, -, -, -, ⟨e0, e1⟩, -⟩ := idx_facts t
  unfold bBlk iblk2
  rw [View.read_apply]
  show V c main_v67 _ = V c main_v67 _
  congr 1
  funext a
  apply Fin.ext
  match a with
  | ⟨0, _⟩ => show win2_7.index t (0 : Fin 2) * 1 + 1 * (y 0).val = (y 0).val; rw [e0]; omega
  | ⟨1, _⟩ => show win2_7.index t (1 : Fin 2) * 128 + 1 * (y 1).val = (y 1).val; rw [e1]; omega

/-- The layer on the whole arrays as the call finds them. -/
abbrev layerOf (c : Dev nD) : S50000x128.Idx → EReal :=
  Cert.Sage.layerArr (aggArr V c) (invArr V c) (featArr V c) (wlArr V c) (blArr V c) (wrArr V c) (gArr V c) (bArr V c)

/-- What the body leaves at row r, column q of its output block at point t is the layer's value at row 5000·t + r,
    column q: the body's row function reads row r of the moving blocks, which are rows 5000·t + r of their arrays, and
    the resident blocks, which are their arrays. -/
theorem point_apply (c : Dev nD) (t : Fin cfg2.N) (r : Fin 5000) (q : Fin 128) (i : S50000x128.Idx)
    (hi0 : (i 0).val = 5000 * t.val + r.val) (hi1 : (i 1).val = q.val) :
    out2_8 (F := Ideal) (aggBlk V c t) (invBlk V c t) (featBlk V c t) (wlBlk V c t) (blBlk V c t) (wrBlk V c t)
        (gBlk V c t) (bBlk V c t) (ix2 r q) = layerOf V c i := by
  refine (Cert.Sage.K2.out_apply (aggBlk V c t) (invBlk V c t) (featBlk V c t) (wlBlk V c t) (blBlk V c t)
    (wrBlk V c t) (gBlk V c t) (bBlk V c t) r q).trans ?_
  show Cert.Sage.rowOut _ _ _ _ _ _ _ _ q = Cert.Sage.rowOut _ _ _ _ _ _ _ _ (i 1)
  refine rowOut_congr ?_ ?_ ?_ ?_ ?_ ?_ ?_ ?_ (Fin.ext hi1.symm)
  · exact funext fun k => aggBlk_apply V c t (ix2 r k) (ix2 (i 0) k) hi0 rfl
  · exact funext fun k => featBlk_apply V c t (ix2 r k) (ix2 (i 0) k) hi0 rfl
  · exact invBlk_apply V c t (ix2 r (0 : Fin 1)) (ix2 (i 0) (0 : Fin 1)) hi0 rfl
  · exact funext fun k => funext fun j => wlBlk_apply V c t (ix2 k j)
  · exact funext fun k => funext fun j => wrBlk_apply V c t (ix2 k j)
  · exact funext fun j => blBlk_apply V c t (ix2 (0 : Fin 1) j)
  · exact funext fun j => gBlk_apply V c t (ix2 (0 : Fin 1) j)
  · exact funext fun j => bBlk_apply V c t (ix2 (0 : Fin 1) j)

/-- What point t writes back is row block t of the layer on the whole arrays: entry (j₀, j₁) of the output block sits at
    row 5000·t + j₀, column j₁ of the array. -/
theorem flushed_eq (c : Dev nD) (t : Fin cfg2.N) :
    (dat2 (F := Ideal) V c).flushed 8 t = ((cfg2.win 8).blk t).view.read (Elt Ideal) (layerOf V c) := by
  show (cfg2.win 8).cut (grid2.coords t) ((dat2 V c).after 8 t) = _
  rw [after2_8]
  obtain ⟨-, -, -, -, -, -, -, -, ⟨e0, e1⟩⟩ := idx_facts t
  funext j
  have hj0 : (j 0).val < 5000 := (j 0).isLt
  have hj1 : (j 1).val < 128 := (j 1).isLt
  have hx : (cfg2.win 8).xinj (grid2.coords t) j = ix2 (⟨(j 0).val, hj0⟩ : Fin 5000) (⟨(j 1).val, hj1⟩ : Fin 128) := by
    funext a
    match a with
    | ⟨0, _⟩ => rfl
    | ⟨1, _⟩ => rfl
  refine (congrArg (out2_8 (F := Ideal) (aggBlk V c t) (invBlk V c t) (featBlk V c t) (wlBlk V c t) (blBlk V c t)
    (wrBlk V c t) (gBlk V c t) (bBlk V c t)) hx).trans ?_
  exact point_apply V c t ⟨(j 0).val, hj0⟩ ⟨(j 1).val, hj1⟩ (((cfg2.win 8).blk t).view.emb j)
    (by show win2_8.index t (0 : Fin 2) * 5000 + 1 * (j 0).val = 5000 * t.val + (j 0).val; rw [e0]; omega)
    (by show win2_8.index t (1 : Fin 2) * 128 + 1 * (j 1).val = (j 1).val; rw [e1]; omega)

end

/-- An index of the output array is in point t's block iff each coordinate is in the block's range on its axis. -/
theorem mem_blk (t : Fin cfg2.N) (i : S50000x128.Idx) :
    i ∈ ((cfg2.win 8).blk t).view.set ↔ ∀ a : Fin 2, win2_8.index t a * S5000x128.size a ≤ (i a).val
      ∧ (i a).val < win2_8.index t a * S5000x128.size a + S5000x128.size a := by
  show i ∈ ((View.whole main_v68).slice (win2_8.rect t)).set ↔ _
  rw [View.set_slice_whole, Rect.mem_set_unit]
  exact Iff.rfl

/-- The ten row blocks cover the output array: row i₀ lies in the block of point i₀ / 5000, which is written back. -/
theorem cover (i : S50000x128.Idx) :
    ∃ t : Fin cfg2.N, (cfg2.win 8).flush t = true ∧ i ∈ ((cfg2.win 8).blk t).view.set := by
  have hi0 : (i 0).val < 50000 := idx2_lt0 i
  have hi1 : (i 1).val < 128 := idx2_lt1 i
  have hN : cfg2.N = 10 := N_2
  have ht : (i 0).val / 5000 < cfg2.N := by rw [hN]; omega
  obtain ⟨-, -, -, -, -, -, -, -, ⟨e0, e1⟩⟩ := idx_facts ⟨(i 0).val / 5000, ht⟩
  refine ⟨⟨(i 0).val / 5000, ht⟩, flush2_8 _, ?_⟩
  rw [mem_blk]
  intro a
  match a with
  | ⟨0, _⟩ =>
    show win2_8.index ⟨(i 0).val / 5000, ht⟩ (0 : Fin 2) * 5000 ≤ (i 0).val
      ∧ (i 0).val < win2_8.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win2_8.index ⟨(i 0).val / 5000, ht⟩ (1 : Fin 2) * 128 ≤ (i 1).val
      ∧ (i 1).val < win2_8.index ⟨(i 0).val / 5000, ht⟩ (1 : Fin 2) * 128 + 128
    rw [e1]
    omega

end Cert.Sage.K2.Blocks

namespace Cert.Sage.K2

open Cert.KernelIdeal Cert.KernelIdeal.Gen Idealize.ShloMosaic Idealize.ShloMosaic.ValueIdx Idealize.ShloMosaic.TcCoe Idealize.SL.Sem
open Idealize.ShloMosaic.Pipeline (Dat)

theorem arr_out (V : (c : Dev nD) → (b : Ref sig .tc) → Buf (Elt Ideal) ((c : Thread nD τ).loc b)) (c : Dev nD) :
    (dat2 (F := Ideal) V c).arrAt 8 cfg2.N
      = Cert.Sage.layerArr (V c main_v54) (V c main_v12) (V c main_v50) (V c main_v56) (V c main_v65) (V c main_v60) (V c main_v66) (V c main_v67) :=
  (dat2 (F := Ideal) V c).arrAt_eq_of_cover 8 (Blocks.layerOf V c) (fun t _ => Blocks.flushed_eq V c t) Blocks.cover

end Cert.Sage.K2

end
-- ==== Proof.KHostOps.lean ====
/-
  The host stretches of the kernel's program, each read on its own over ANY contents `V` of the buffers it starts
  from: which buffers it writes (every other one is left as it was), and what it leaves in the buffers the fused layers
  read — the gathered neighbour rows and their sums per destination, the reciprocal degrees, each layer's matrices and
  parameter rows —, as the terms of KTerms.lean.
-/
import proofs.«421054_j73529840107534_3_alg».proof.Proof.Gen.KernelIdeal.Launch
import proofs.«421054_j73529840107534_3_alg».proof.Proof.Spec
import proofs.«421054_j73529840107534_3_alg».proof.Proof.KTerms
import Idealize.ShloMosaic.Lib.StableHlo.Run
import Idealize.ShloMosaic.Lib.Pipeline.Frame

set_option maxRecDepth 16384

noncomputable section

namespace Cert.Sage.KH

open Cert.KernelIdeal Cert.KernelIdeal.Gen Idealize.ShloMosaic Idealize.ShloMosaic.TcCoe Idealize.SL.Sem
open Idealize.ShloMosaic.StableHlo

variable {F : FTy → Type} [FloatOps F]

/-! ## What each stretch writes, and that it leaves every other buffer alone -/

/-- The buffers the first stretch writes: the edge list's rows, the reciprocal degrees and their intermediates, the transposed weight stacks. -/
abbrev wr0 : List (Ref sig .tc) :=
  [main_v0, main_v1, main_v2, main_v3, main_cst, main_v4, main_cst_0, main_v5, main_v6, main_v7, main_cst_1, main_v8, main_v9, main_cst_2, main_v10, main_v11, main_v12, main_v13, main_v14]

theorem writes0 : (hostOps0 : List (HloOp τ sig (Elt F))).Forall fun op =>
    op.writes ⊆ (wr0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- A buffer outside that list holds after the stretch what it held before. -/
theorem carry0 (V : Valuation τ sig (Elt F)) {r : Ref sig .tc} (hr : r ∉ wr0) :
    StableHlo.after hostOps0 V (Proc.devRef .tc r) = V (Proc.devRef .tc r) :=
  StableHlo.after_of_writes_sub _ V writes0 hr

/-- The buffers layer 0's gather stretch writes. -/
abbrev wr0_1 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v15]

theorem writes0_1 : (hostOps0_1 : List (HloOp τ sig (Elt F))).Forall fun op =>
    op.writes ⊆ (wr0_1.map (Proc.devRef (τ := τ) .tc)).toFinset := by
  simp only [hostOps0_1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- A buffer outside that list holds after the stretch what it held before. -/
theorem carry0_1 (V : Valuation τ sig (Elt F)) {r : Ref sig .tc} (hr : r ∉ wr0_1) :
    StableHlo.after hostOps0_1 V (Proc.devRef .tc r) = V (Proc.devRef .tc r) :=
  StableHlo.after_of_writes_sub _ V writes0_1 hr

/-- The buffers layer 0's sum-and-parameters stretch writes. -/
abbrev wr0_2 : List (Ref sig .tc) :=
  [main_cst_3, main_v16, main_v17, main_v18, main_v19, main_v20, main_v21, main_v22, main_v23, main_v24, main_v25, main_v26, main_v27, main_v28, main_v29, main_v30, main_v31]

theorem writes0_2 : (hostOps0_2 : List (HloOp τ sig (Elt F))).Forall fun op =>
    op.writes ⊆ (wr0_2.map (Proc.devRef (τ := τ) .tc)).toFinset := by
  simp only [hostOps0_2, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- A buffer outside that list holds after the stretch what it held before. -/
theorem carry0_2 (V : Valuation τ sig (Elt F)) {r : Ref sig .tc} (hr : r ∉ wr0_2) :
    StableHlo.after hostOps0_2 V (Proc.devRef .tc r) = V (Proc.devRef .tc r) :=
  StableHlo.after_of_writes_sub _ V writes0_2 hr

/-- The buffers layer 1's gather stretch writes. -/
abbrev wr1 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v33]

theorem writes1 : (hostOps1 : List (HloOp τ sig (Elt F))).Forall fun op =>
    op.writes ⊆ (wr1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- A buffer outside that list holds after the stretch what it held before. -/
theorem carry1 (V : Valuation τ sig (Elt F)) {r : Ref sig .tc} (hr : r ∉ wr1) :
    StableHlo.after hostOps1 V (Proc.devRef .tc r) = V (Proc.devRef .tc r) :=
  StableHlo.after_of_writes_sub _ V writes1 hr

/-- The buffers layer 1's sum-and-parameters stretch writes. -/
abbrev wr1_1 : List (Ref sig .tc) :=
  [main_cst_4, main_v34, main_v35, main_v36, main_v37, main_v38, main_v39, main_v40, main_v41, main_v42, main_v43, main_v44, main_v45, main_v46, main_v47, main_v48, main_v49]

theorem writes1_1 : (hostOps1_1 : List (HloOp τ sig (Elt F))).Forall fun op =>
    op.writes ⊆ (wr1_1.map (Proc.devRef (τ := τ) .tc)).toFinset := by
  simp only [hostOps1_1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- A buffer outside that list holds after the stretch what it held before. -/
theorem carry1_1 (V : Valuation τ sig (Elt F)) {r : Ref sig .tc} (hr : r ∉ wr1_1) :
    StableHlo.after hostOps1_1 V (Proc.devRef .tc r) = V (Proc.devRef .tc r) :=
  StableHlo.after_of_writes_sub _ V writes1_1 hr

/-- The buffers layer 2's gather stretch writes. -/
abbrev wr2 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v51]

theorem writes2 : (hostOps2 : List (HloOp τ sig (Elt F))).Forall fun op =>
    op.writes ⊆ (wr2.map (Proc.devRef (τ := τ) .tc)).toFinset := by
  simp only [hostOps2, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- A buffer outside that list holds after the stretch what it held before. -/
theorem carry2 (V : Valuation τ sig (Elt F)) {r : Ref sig .tc} (hr : r ∉ wr2) :
    StableHlo.after hostOps2 V (Proc.devRef .tc r) = V (Proc.devRef .tc r) :=
  StableHlo.after_of_writes_sub _ V writes2 hr

/-- The buffers layer 2's sum-and-parameters stretch writes. -/
abbrev wr2_1 : List (Ref sig .tc) :=
  [main_cst_5, main_v52, main_v53, main_v54, main_v55, main_v56, main_v57, main_v58, main_v59, main_v60, main_v61, main_v62, main_v63, main_v64, main_v65, main_v66, main_v67]

theorem writes2_1 : (hostOps2_1 : List (HloOp τ sig (Elt F))).Forall fun op =>
    op.writes ⊆ (wr2_1.map (Proc.devRef (τ := τ) .tc)).toFinset := by
  simp only [hostOps2_1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- A buffer outside that list holds after the stretch what it held before. -/
theorem carry2_1 (V : Valuation τ sig (Elt F)) {r : Ref sig .tc} (hr : r ∉ wr2_1) :
    StableHlo.after hostOps2_1 V (Proc.devRef .tc r) = V (Proc.devRef .tc r) :=
  StableHlo.after_of_writes_sub _ V writes2_1 hr

/-! ## The first stretch: the edge list's rows, the reciprocal degrees, the transposed weights

Each buffer is read off the fold operation by operation; what is left is the definition's own term. -/

section Stretch0
variable (V : Valuation τ sig (Elt F))

theorem s0_v1 : StableHlo.after hostOps0 V (Proc.devRef .tc main_v1) = K.src (V (Proc.devRef .tc main_arg1)) := by
  after_results
  rfl

theorem s0_v3 : StableHlo.after hostOps0 V (Proc.devRef .tc main_v3) = K.dst (V (Proc.devRef .tc main_arg1)) := by
  after_results
  rfl

theorem s0_v12 : StableHlo.after hostOps0 V (Proc.devRef .tc main_v12) = K.invCol (F := F) (V (Proc.devRef .tc main_arg1)) := by
  after_results
  rfl

theorem s0_v13 : StableHlo.after hostOps0 V (Proc.devRef .tc main_v13) = K.wT (V (Proc.devRef .tc main_arg2)) := by
  after_results
  rfl

theorem s0_v14 : StableHlo.after hostOps0 V (Proc.devRef .tc main_v14) = K.wT (V (Proc.devRef .tc main_arg4)) := by
  after_results
  rfl

end Stretch0

/-! ## The gather stretches

Each is cut in three: the wrapped source indices as a column; the mask "the index is in range"; the gather itself and
the choice between the gathered row and the fill. A later part reads the earlier parts' buffers as they were left. -/

section Take0
variable (V : Valuation τ sig (Elt F)) (e : IVec S2x800000 32)

/-- Layer 0's gather stretch, first part: the source indices, a negative one wrapped round, as a column. -/
abbrev takeA0 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S800000, .i32⟩) (broadcastInDim S800000 ![] bcast_S_S800000),
    StableHlo.TRef.binary (.of main_v1 : StableHlo.TRef sig ⟨S800000, .i32⟩) (.of main_call0_v0 : StableHlo.TRef sig ⟨S800000, .i32⟩) (.of main_call0_v1 : StableHlo.TRef sig ⟨S800000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S800000, .i32⟩) (broadcastInDim S800000 ![] bcast_S_S800000),
    StableHlo.TRef.binary (.of main_v1 : StableHlo.TRef sig ⟨S800000, .i32⟩) (.of main_call0_v2 : StableHlo.TRef sig ⟨S800000, .i32⟩) (.of main_call0_v3 : StableHlo.TRef sig ⟨S800000, .i32⟩) addi,
    StableHlo.TRef.ternary (.of main_call0_v1 : StableHlo.TRef sig ⟨S800000, .i1⟩) (.of main_call0_v3 : StableHlo.TRef sig ⟨S800000, .i32⟩) (.of main_v1 : StableHlo.TRef sig ⟨S800000, .i32⟩) (.of main_call0_v4 : StableHlo.TRef sig ⟨S800000, .i32⟩) select,
    StableHlo.TRef.unary main_call0_call0.v0 (.of main_call0_v5 : StableHlo.TRef sig ⟨S800000x1, .i32⟩) (broadcastInDim S800000x1 ![0] bcast_S800000_S800000x1_0) ]

/-- Second part: per edge, whether the wrapped index lies in 0 … 49999. -/
abbrev takeB0 : List (HloOp τ sig (Elt F)) :=
  [ StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S800000x1, .i32⟩) (broadcastInDim S800000x1 ![] bcast_S_S800000x1),
    StableHlo.TRef.binary (.of main_call0_v5 : StableHlo.TRef sig ⟨S800000x1, .i32⟩) (.of main_call0_v6 : StableHlo.TRef sig ⟨S800000x1, .i32⟩) (.of main_call0_v7 : StableHlo.TRef sig ⟨S800000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S800000x1, .i32⟩) (broadcastInDim S800000x1 ![0, 1] bcast_S1x1_S800000x1_0_1),
    StableHlo.TRef.binary (.of main_call0_v5 : StableHlo.TRef sig ⟨S800000x1, .i32⟩) (.of main_call0_v9 : StableHlo.TRef sig ⟨S800000x1, .i32⟩) (.of main_call0_v10 : StableHlo.TRef sig ⟨S800000x1, .i1⟩) (cmpi .sle),
    StableHlo.TRef.binary (.of main_call0_v7 : StableHlo.TRef sig ⟨S800000x1, .i1⟩) (.of main_call0_v10 : StableHlo.TRef sig ⟨S800000x1, .i1⟩) (.of main_call0_v11 : StableHlo.TRef sig ⟨S800000x1, .i1⟩) andi,
    StableHlo.TRef.nullary (.of main_call0_c_3 : StableHlo.TRef sig ⟨S_, .i1⟩) (constantI S_ 1 1#1),
    StableHlo.TRef.binary (.of main_call0_v11 : StableHlo.TRef sig ⟨S800000x1, .i1⟩) (.of main_call0_c_3 : StableHlo.TRef sig ⟨S_, .i1⟩) (.of main_call0_v12 : StableHlo.TRef sig ⟨S800000, .i1⟩) (fun x v => Host.reduce IntOp.andi x v reducesTo_S800000x1_S800000_d1 h_S_) ]

/-- Third part: the gathered rows, the fill word where the index is out of range. -/
abbrev takeC0 : List (HloOp τ sig (Elt F)) :=
  [ StableHlo.TRef.binary (.of main_arg0 : StableHlo.TRef sig ⟨S50000x128, .f32⟩) (.of main_call0_v5 : StableHlo.TRef sig ⟨S800000x1, .i32⟩) (.of main_call0_v13 : StableHlo.TRef sig ⟨S800000x128, .f32⟩) (fun x i => Host.gather gather_S50000x128_S800000x1_S800000x128_1_0_n_n_0_1_1128 x i),
    StableHlo.TRef.unary (.of main_call0_v12 : StableHlo.TRef sig ⟨S800000, .i1⟩) (.of main_call0_v14 : StableHlo.TRef sig ⟨S800000x128, .i1⟩) (broadcastInDim S800000x128 ![0] bcast_S800000_S800000x128_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S800000x128, .f32⟩) (broadcastInDim S800000x128 ![] bcast_S_S800000x128),
    StableHlo.TRef.ternary (.of main_call0_v14 : StableHlo.TRef sig ⟨S800000x128, .i1⟩) (.of main_call0_v13 : StableHlo.TRef sig ⟨S800000x128, .f32⟩) (.of main_call0_v15 : StableHlo.TRef sig ⟨S800000x128, .f32⟩) (.of main_v15 : StableHlo.TRef sig ⟨S800000x128, .f32⟩) select ]

theorem split0 : (hostOps0_1 : List (HloOp τ sig (Elt F))) = takeA0 ++ (takeB0 ++ takeC0) := rfl

theorem takeA0_v5 (h1 : V (Proc.devRef .tc main_v1) = K.src e) :
    StableHlo.after takeA0 V (Proc.devRef .tc main_call0_v5) = K.srcCol e := by
  after_results
  simp only [TRef.ofBuf, TRef.toBuf, cast_eq]
  rw [h1]
  unfold K.srcCol K.srcN
  with_reducible rfl

theorem takeA0_in : StableHlo.after takeA0 V (Proc.devRef .tc main_arg0) = V (Proc.devRef .tc main_arg0) := by
  after_results

theorem takeB0_v12 (h5 : V (Proc.devRef .tc main_call0_v5) = K.srcCol e) :
    StableHlo.after takeB0 V (Proc.devRef .tc main_call0_v12) = K.inb e := by
  after_results
  simp only [TRef.ofBuf, TRef.toBuf, cast_eq]
  rw [h5]
  unfold K.inb
  with_reducible rfl

theorem takeB0_v5 : StableHlo.after takeB0 V (Proc.devRef .tc main_call0_v5) = V (Proc.devRef .tc main_call0_v5) := by
  after_results

theorem takeB0_in : StableHlo.after takeB0 V (Proc.devRef .tc main_arg0) = V (Proc.devRef .tc main_arg0) := by
  after_results

theorem takeC0_out (h : FVec F S50000x128 .f32) (h0 : V (Proc.devRef .tc main_arg0) = h)
    (h5 : V (Proc.devRef .tc main_call0_v5) = K.srcCol e) (h12 : V (Proc.devRef .tc main_call0_v12) = K.inb e) :
    StableHlo.after takeC0 V (Proc.devRef .tc main_v15) = K.take h e := by
  after_results
  simp only [TRef.ofBuf, TRef.toBuf, cast_eq]
  rw [h0, h5, h12]
  unfold K.take
  with_reducible rfl

/-- The whole stretch: from the sources and the features `h`, the gathered rows. -/
theorem take0 (h : FVec F S50000x128 .f32) (h1 : V (Proc.devRef .tc main_v1) = K.src e) (h0 : V (Proc.devRef .tc main_arg0) = h) :
    StableHlo.after hostOps0_1 V (Proc.devRef .tc main_v15) = K.take h e := by
  rw [split0, StableHlo.after_append, StableHlo.after_append]
  have hA := takeA0_v5 V e h1
  exact takeC0_out _ e h ((takeB0_in _).trans ((takeA0_in V).trans h0))
    ((takeB0_v5 _).trans hA) (takeB0_v12 _ e hA)

end Take0

section Take1
variable (V : Valuation τ sig (Elt F)) (e : IVec S2x800000 32)

/-- Layer 1's gather stretch, first part: the source indices, a negative one wrapped round, as a column. -/
abbrev takeA1 : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S800000, .i32⟩) (broadcastInDim S800000 ![] bcast_S_S800000),
    StableHlo.TRef.binary (.of main_v1 : StableHlo.TRef sig ⟨S800000, .i32⟩) (.of main_call1_v0 : StableHlo.TRef sig ⟨S800000, .i32⟩) (.of main_call1_v1 : StableHlo.TRef sig ⟨S800000, .i1⟩) (cmpi .slt),
    StableHlo.TRef.nullary (.of main_call1_c_0 : StableHlo.TRef sig ⟨S_, .i32⟩) (constantI S_ 32 50000#32),
    StableHlo.TRef.unary (.of main_call1_c_0 : StableHlo.TRef sig ⟨S_, .i32⟩) (.of main_call1_v2 : StableHlo.TRef sig ⟨S800000, .i32⟩) (broadcastInDim S800000 ![] bcast_S_S800000),
    StableHlo.TRef.binary (.of main_v1 : StableHlo.TRef sig ⟨S800000, .i32⟩) (.of main_call1_v2 : StableHlo.TRef sig ⟨S800000, .i32⟩) (.of main_call1_v3 : StableHlo.TRef sig ⟨S800000, .i32⟩) addi,
    StableHlo.TRef.ternary (.of main_call1_v1 : StableHlo.TRef sig ⟨S800000, .i1⟩) (.of main_call1_v3 : StableHlo.TRef sig ⟨S800000, .i32⟩) (.of main_v1 : StableHlo.TRef sig ⟨S800000, .i32⟩) (.of main_call1_v4 : StableHlo.TRef sig ⟨S800000, .i32⟩) select,
    StableHlo.TRef.unary main_call1_call0.v0 (.of main_call1_v5 : StableHlo.TRef sig ⟨S800000x1, .i32⟩) (broadcastInDim S800000x1 ![0] bcast_S800000_S800000x1_0) ]

/-- Second part: per edge, whether the wrapped index lies in 0 … 49999. -/
abbrev takeB1 : List (HloOp τ sig (Elt F)) :=
  [ StableHlo.TRef.nullary (.of main_call1_c_1 : StableHlo.TRef sig ⟨S1, .i32⟩) (constantI S1 32 49999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S800000x1, .i32⟩) (broadcastInDim S800000x1 ![] bcast_S_S800000x1),
    StableHlo.TRef.binary (.of main_call1_v5 : StableHlo.TRef sig ⟨S800000x1, .i32⟩) (.of main_call1_v6 : StableHlo.TRef sig ⟨S800000x1, .i32⟩) (.of main_call1_v7 : StableHlo.TRef sig ⟨S800000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S800000x1, .i32⟩) (broadcastInDim S800000x1 ![0, 1] bcast_S1x1_S800000x1_0_1),
    StableHlo.TRef.binary (.of main_call1_v5 : StableHlo.TRef sig ⟨S800000x1, .i32⟩) (.of main_call1_v9 : StableHlo.TRef sig ⟨S800000x1, .i32⟩) (.of main_call1_v10 : StableHlo.TRef sig ⟨S800000x1, .i1⟩) (cmpi .sle),
    StableHlo.TRef.binary (.of main_call1_v7 : StableHlo.TRef sig ⟨S800000x1, .i1⟩) (.of main_call1_v10 : StableHlo.TRef sig ⟨S800000x1, .i1⟩) (.of main_call1_v11 : StableHlo.TRef sig ⟨S800000x1, .i1⟩) andi,
    StableHlo.TRef.nullary (.of main_call1_c_3 : StableHlo.TRef sig ⟨S_, .i1⟩) (constantI S_ 1 1#1),
    StableHlo.TRef.binary (.of main_call1_v11 : StableHlo.TRef sig ⟨S800000x1, .i1⟩) (.of main_call1_c_3 : StableHlo.TRef sig ⟨S_, .i1⟩) (.of main_call1_v12 : StableHlo.TRef sig ⟨S800000, .i1⟩) (fun x v => Host.reduce IntOp.andi x v reducesTo_S800000x1_S800000_d1 h_S_) ]

/-- Third part: the gathered rows, the fill word where the index is out of range. -/
abbrev takeC1 : List (HloOp τ sig (Elt F)) :=
  [ StableHlo.TRef.binary (.of main_v32 : StableHlo.TRef sig ⟨S50000x128, .f32⟩) (.of main_call1_v5 : StableHlo.TRef sig ⟨S800000x1, .i32⟩) (.of main_call1_v13 : StableHlo.TRef sig ⟨S800000x128, .f32⟩) (fun x i => Host.gather gather_S50000x128_S800000x1_S800000x128_1_0_n_n_0_1_1128 x i),
    StableHlo.TRef.unary (.of main_call1_v12 : StableHlo.TRef sig ⟨S800000, .i1⟩) (.of main_call1_v14 : StableHlo.TRef sig ⟨S800000x128, .i1⟩) (broadcastInDim S800000x128 ![0] bcast_S800000_S800000x128_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S800000x128, .f32⟩) (broadcastInDim S800000x128 ![] bcast_S_S800000x128),
    StableHlo.TRef.ternary (.of main_call1_v14 : StableHlo.TRef sig ⟨S800000x128, .i1⟩) (.of main_call1_v13 : StableHlo.TRef sig ⟨S800000x128, .f32⟩) (.of main_call1_v15 : StableHlo.TRef sig ⟨S800000x128, .f32⟩) (.of main_v33 : StableHlo.TRef sig ⟨S800000x128, .f32⟩) select ]

theorem split1 : (hostOps1 : List (HloOp τ sig (Elt F))) = takeA1 ++ (takeB1 ++ takeC1) := rfl

theorem takeA1_v5 (h1 : V (Proc.devRef .tc main_v1) = K.src e) :
    StableHlo.after takeA1 V (Proc.devRef .tc main_call1_v5) = K.srcCol e := by
  after_results
  simp only [TRef.ofBuf, TRef.toBuf, cast_eq]
  rw [h1]
  unfold K.srcCol K.srcN
  with_reducible rfl

theorem takeA1_in : StableHlo.after takeA1 V (Proc.devRef .tc main_v32) = V (Proc.devRef .tc main_v32) := by
  after_results

theorem takeB1_v12 (h5 : V (Proc.devRef .tc main_call1_v5) = K.srcCol e) :
    StableHlo.after takeB1 V (Proc.devRef .tc main_call1_v12) = K.inb e := by
  after_results
  simp only [TRef.ofBuf, TRef.toBuf, cast_eq]
  rw [h5]
  unfold K.inb
  with_reducible rfl

theorem takeB1_v5 : StableHlo.after takeB1 V (Proc.devRef .tc main_call1_v5) = V (Proc.devRef .tc main_call1_v5) := by
  after_results

theorem takeB1_in : StableHlo.after takeB1 V (Proc.devRef .tc main_v32) = V (Proc.devRef .tc main_v32) := by
  after_results

theorem takeC1_out (h : FVec F S50000x128 .f32) (h0 : V (Proc.devRef .tc main_v32) = h)
    (h5 : V (Proc.devRef .tc main_call1_v5) = K.srcCol e) (h12 : V (Proc.devRef .tc main_call1_v12) = K.inb e) :
    StableHlo.after takeC1 V (Proc.devRef .tc main_v33) = K.take h e := by
  after_results
  simp only [TRef.ofBuf, TRef.toBuf, cast_eq]
  rw [h0, h5, h12]
  unfold K.take
  with_reducible rfl

/-- The whole stretch: from the sources and the features `h`, the gathered rows. -/
theorem take1 (h : FVec F S50000x128 .f32) (h1 : V (Proc.devRef .tc main_v1) = K.src e) (h0 : V (Proc.devRef .tc main_v32) = h) :
    StableHlo.after hostOps1 V (Proc.devRef .tc main_v33) = K.take h e := by
  rw [split1, StableHlo.after_append, StableHlo.after_append]
  have hA := takeA1_v5 V e h1
  exact takeC1_out _ e h ((takeB1_in _).trans ((takeA1_in V).trans h0))
    ((takeB1_v5 _).trans hA) (takeB1_v12 _ e hA)

end Take1

section Take2
variable (V : Valuation τ sig (Elt F)) (e : IVec S2x800000 32)

/-- Layer 2's gather stretch, first part: the source indices, a negative one wrapped round, as a column. -/
abbrev takeA2 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S800000, .i32⟩) (broadcastInDim S800000 ![] bcast_S_S800000),
    StableHlo.TRef.binary (.of main_v1 : StableHlo.TRef sig ⟨S800000, .i32⟩) (.of main_call2_v0 : StableHlo.TRef sig ⟨S800000, .i32⟩) (.of main_call2_v1 : StableHlo.TRef sig ⟨S800000, .i1⟩) (cmpi .slt),
    StableHlo.TRef.nullary (.of main_call2_c_0 : StableHlo.TRef sig ⟨S_, .i32⟩) (constantI S_ 32 50000#32),
    StableHlo.TRef.unary (.of main_call2_c_0 : StableHlo.TRef sig ⟨S_, .i32⟩) (.of main_call2_v2 : StableHlo.TRef sig ⟨S800000, .i32⟩) (broadcastInDim S800000 ![] bcast_S_S800000),
    StableHlo.TRef.binary (.of main_v1 : StableHlo.TRef sig ⟨S800000, .i32⟩) (.of main_call2_v2 : StableHlo.TRef sig ⟨S800000, .i32⟩) (.of main_call2_v3 : StableHlo.TRef sig ⟨S800000, .i32⟩) addi,
    StableHlo.TRef.ternary (.of main_call2_v1 : StableHlo.TRef sig ⟨S800000, .i1⟩) (.of main_call2_v3 : StableHlo.TRef sig ⟨S800000, .i32⟩) (.of main_v1 : StableHlo.TRef sig ⟨S800000, .i32⟩) (.of main_call2_v4 : StableHlo.TRef sig ⟨S800000, .i32⟩) select,
    StableHlo.TRef.unary main_call2_call0.v0 (.of main_call2_v5 : StableHlo.TRef sig ⟨S800000x1, .i32⟩) (broadcastInDim S800000x1 ![0] bcast_S800000_S800000x1_0) ]

/-- Second part: per edge, whether the wrapped index lies in 0 … 49999. -/
abbrev takeB2 : List (HloOp τ sig (Elt F)) :=
  [ StableHlo.TRef.nullary (.of main_call2_c_1 : StableHlo.TRef sig ⟨S1, .i32⟩) (constantI S1 32 49999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S800000x1, .i32⟩) (broadcastInDim S800000x1 ![] bcast_S_S800000x1),
    StableHlo.TRef.binary (.of main_call2_v5 : StableHlo.TRef sig ⟨S800000x1, .i32⟩) (.of main_call2_v6 : StableHlo.TRef sig ⟨S800000x1, .i32⟩) (.of main_call2_v7 : StableHlo.TRef sig ⟨S800000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S800000x1, .i32⟩) (broadcastInDim S800000x1 ![0, 1] bcast_S1x1_S800000x1_0_1),
    StableHlo.TRef.binary (.of main_call2_v5 : StableHlo.TRef sig ⟨S800000x1, .i32⟩) (.of main_call2_v9 : StableHlo.TRef sig ⟨S800000x1, .i32⟩) (.of main_call2_v10 : StableHlo.TRef sig ⟨S800000x1, .i1⟩) (cmpi .sle),
    StableHlo.TRef.binary (.of main_call2_v7 : StableHlo.TRef sig ⟨S800000x1, .i1⟩) (.of main_call2_v10 : StableHlo.TRef sig ⟨S800000x1, .i1⟩) (.of main_call2_v11 : StableHlo.TRef sig ⟨S800000x1, .i1⟩) andi,
    StableHlo.TRef.nullary (.of main_call2_c_3 : StableHlo.TRef sig ⟨S_, .i1⟩) (constantI S_ 1 1#1),
    StableHlo.TRef.binary (.of main_call2_v11 : StableHlo.TRef sig ⟨S800000x1, .i1⟩) (.of main_call2_c_3 : StableHlo.TRef sig ⟨S_, .i1⟩) (.of main_call2_v12 : StableHlo.TRef sig ⟨S800000, .i1⟩) (fun x v => Host.reduce IntOp.andi x v reducesTo_S800000x1_S800000_d1 h_S_) ]

/-- Third part: the gathered rows, the fill word where the index is out of range. -/
abbrev takeC2 : List (HloOp τ sig (Elt F)) :=
  [ StableHlo.TRef.binary (.of main_v50 : StableHlo.TRef sig ⟨S50000x128, .f32⟩) (.of main_call2_v5 : StableHlo.TRef sig ⟨S800000x1, .i32⟩) (.of main_call2_v13 : StableHlo.TRef sig ⟨S800000x128, .f32⟩) (fun x i => Host.gather gather_S50000x128_S800000x1_S800000x128_1_0_n_n_0_1_1128 x i),
    StableHlo.TRef.unary (.of main_call2_v12 : StableHlo.TRef sig ⟨S800000, .i1⟩) (.of main_call2_v14 : StableHlo.TRef sig ⟨S800000x128, .i1⟩) (broadcastInDim S800000x128 ![0] bcast_S800000_S800000x128_0),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S800000x128, .f32⟩) (broadcastInDim S800000x128 ![] bcast_S_S800000x128),
    StableHlo.TRef.ternary (.of main_call2_v14 : StableHlo.TRef sig ⟨S800000x128, .i1⟩) (.of main_call2_v13 : StableHlo.TRef sig ⟨S800000x128, .f32⟩) (.of main_call2_v15 : StableHlo.TRef sig ⟨S800000x128, .f32⟩) (.of main_v51 : StableHlo.TRef sig ⟨S800000x128, .f32⟩) select ]

theorem split2 : (hostOps2 : List (HloOp τ sig (Elt F))) = takeA2 ++ (takeB2 ++ takeC2) := rfl

theorem takeA2_v5 (h1 : V (Proc.devRef .tc main_v1) = K.src e) :
    StableHlo.after takeA2 V (Proc.devRef .tc main_call2_v5) = K.srcCol e := by
  after_results
  simp only [TRef.ofBuf, TRef.toBuf, cast_eq]
  rw [h1]
  unfold K.srcCol K.srcN
  with_reducible rfl

theorem takeA2_in : StableHlo.after takeA2 V (Proc.devRef .tc main_v50) = V (Proc.devRef .tc main_v50) := by
  after_results

theorem takeB2_v12 (h5 : V (Proc.devRef .tc main_call2_v5) = K.srcCol e) :
    StableHlo.after takeB2 V (Proc.devRef .tc main_call2_v12) = K.inb e := by
  after_results
  simp only [TRef.ofBuf, TRef.toBuf, cast_eq]
  rw [h5]
  unfold K.inb
  with_reducible rfl

theorem takeB2_v5 : StableHlo.after takeB2 V (Proc.devRef .tc main_call2_v5) = V (Proc.devRef .tc main_call2_v5) := by
  after_results

theorem takeB2_in : StableHlo.after takeB2 V (Proc.devRef .tc main_v50) = V (Proc.devRef .tc main_v50) := by
  after_results

theorem takeC2_out (h : FVec F S50000x128 .f32) (h0 : V (Proc.devRef .tc main_v50) = h)
    (h5 : V (Proc.devRef .tc main_call2_v5) = K.srcCol e) (h12 : V (Proc.devRef .tc main_call2_v12) = K.inb e) :
    StableHlo.after takeC2 V (Proc.devRef .tc main_v51) = K.take h e := by
  after_results
  simp only [TRef.ofBuf, TRef.toBuf, cast_eq]
  rw [h0, h5, h12]
  unfold K.take
  with_reducible rfl

/-- The whole stretch: from the sources and the features `h`, the gathered rows. -/
theorem take2 (h : FVec F S50000x128 .f32) (h1 : V (Proc.devRef .tc main_v1) = K.src e) (h0 : V (Proc.devRef .tc main_v50) = h) :
    StableHlo.after hostOps2 V (Proc.devRef .tc main_v51) = K.take h e := by
  rw [split2, StableHlo.after_append, StableHlo.after_append]
  have hA := takeA2_v5 V e h1
  exact takeC2_out _ e h ((takeB2_in _).trans ((takeA2_in V).trans h0))
    ((takeB2_v5 _).trans hA) (takeB2_v12 _ e hA)

end Take2

/-! ## The sum-and-parameters stretches

From the destinations and the gathered rows: the rows summed per destination; from the transposed stacks and the
stacked rows: the layer's two matrices and three parameter rows. -/

section Agg0
variable (V : Valuation τ sig (Elt F)) (e : IVec S2x800000 32)

theorem agg0 (h : FVec F S50000x128 .f32) (h3 : V (Proc.devRef .tc main_v3) = K.dst e)
    (ht : V (Proc.devRef .tc main_v15) = K.take h e) :
    StableHlo.after hostOps0_2 V (Proc.devRef .tc main_v18) = K.agg h e := by
  after_results
  rw [h3, ht]
  rfl

theorem matl0 (Wl : FVec F S3x128x128 .f32) (h13 : V (Proc.devRef .tc main_v13) = K.wT Wl) :
    StableHlo.after hostOps0_2 V (Proc.devRef .tc main_v20) = K.mat0 Wl := by
  after_results
  rw [h13]
  rfl

theorem matr0 (Wr : FVec F S3x128x128 .f32) (h14 : V (Proc.devRef .tc main_v14) = K.wT Wr) :
    StableHlo.after hostOps0_2 V (Proc.devRef .tc main_v24) = K.mat0 Wr := by
  after_results
  rw [h14]
  rfl

theorem rowbl0 (bl : FVec F S3x128 .f32) (ha : V (Proc.devRef .tc main_arg3) = bl) :
    StableHlo.after hostOps0_2 V (Proc.devRef .tc main_v29) = K.row0 bl := by
  after_results
  rw [ha]
  rfl

theorem rowg0 (g : FVec F S3x128 .f32) (ha : V (Proc.devRef .tc main_arg5) = g) :
    StableHlo.after hostOps0_2 V (Proc.devRef .tc main_v30) = K.row0 g := by
  after_results
  rw [ha]
  rfl

theorem rowb0 (b : FVec F S3x128 .f32) (ha : V (Proc.devRef .tc main_arg6) = b) :
    StableHlo.after hostOps0_2 V (Proc.devRef .tc main_v31) = K.row0 b := by
  after_results
  rw [ha]
  rfl

end Agg0

section Agg1
variable (V : Valuation τ sig (Elt F)) (e : IVec S2x800000 32)

theorem agg1 (h : FVec F S50000x128 .f32) (h3 : V (Proc.devRef .tc main_v3) = K.dst e)
    (ht : V (Proc.devRef .tc main_v33) = K.take h e) :
    StableHlo.after hostOps1_1 V (Proc.devRef .tc main_v36) = K.agg h e := by
  after_results
  rw [h3, ht]
  rfl

theorem matl1 (Wl : FVec F S3x128x128 .f32) (h13 : V (Proc.devRef .tc main_v13) = K.wT Wl) :
    StableHlo.after hostOps1_1 V (Proc.devRef .tc main_v38) = K.mat1 Wl := by
  after_results
  rw [h13]
  rfl

theorem matr1 (Wr : FVec F S3x128x128 .f32) (h14 : V (Proc.devRef .tc main_v14) = K.wT Wr) :
    StableHlo.after hostOps1_1 V (Proc.devRef .tc main_v42) = K.mat1 Wr := by
  after_results
  rw [h14]
  rfl

theorem rowbl1 (bl : FVec F S3x128 .f32) (ha : V (Proc.devRef .tc main_arg3) = bl) :
    StableHlo.after hostOps1_1 V (Proc.devRef .tc main_v47) = K.row1 bl := by
  after_results
  rw [ha]
  rfl

theorem rowg1 (g : FVec F S3x128 .f32) (ha : V (Proc.devRef .tc main_arg5) = g) :
    StableHlo.after hostOps1_1 V (Proc.devRef .tc main_v48) = K.row1 g := by
  after_results
  rw [ha]
  rfl

theorem rowb1 (b : FVec F S3x128 .f32) (ha : V (Proc.devRef .tc main_arg6) = b) :
    StableHlo.after hostOps1_1 V (Proc.devRef .tc main_v49) = K.row1 b := by
  after_results
  rw [ha]
  rfl

end Agg1

section Agg2
variable (V : Valuation τ sig (Elt F)) (e : IVec S2x800000 32)

theorem agg2 (h : FVec F S50000x128 .f32) (h3 : V (Proc.devRef .tc main_v3) = K.dst e)
    (ht : V (Proc.devRef .tc main_v51) = K.take h e) :
    StableHlo.after hostOps2_1 V (Proc.devRef .tc main_v54) = K.agg h e := by
  after_results
  rw [h3, ht]
  rfl

theorem matl2 (Wl : FVec F S3x128x128 .f32) (h13 : V (Proc.devRef .tc main_v13) = K.wT Wl) :
    StableHlo.after hostOps2_1 V (Proc.devRef .tc main_v56) = K.mat2 Wl := by
  after_results
  rw [h13]
  rfl

theorem matr2 (Wr : FVec F S3x128x128 .f32) (h14 : V (Proc.devRef .tc main_v14) = K.wT Wr) :
    StableHlo.after hostOps2_1 V (Proc.devRef .tc main_v60) = K.mat2 Wr := by
  after_results
  rw [h14]
  rfl

theorem rowbl2 (bl : FVec F S3x128 .f32) (ha : V (Proc.devRef .tc main_arg3) = bl) :
    StableHlo.after hostOps2_1 V (Proc.devRef .tc main_v65) = K.row2 bl := by
  after_results
  rw [ha]
  rfl

theorem rowg2 (g : FVec F S3x128 .f32) (ha : V (Proc.devRef .tc main_arg5) = g) :
    StableHlo.after hostOps2_1 V (Proc.devRef .tc main_v66) = K.row2 g := by
  after_results
  rw [ha]
  rfl

theorem rowb2 (b : FVec F S3x128 .f32) (ha : V (Proc.devRef .tc main_arg6) = b) :
    StableHlo.after hostOps2_1 V (Proc.devRef .tc main_v67) = K.row2 b := by
  after_results
  rw [ha]
  rfl

end Agg2

/-! ## The buffers every layer reads again -/

/-- What the buffers that outlive a layer hold: the edge list's two rows, the reciprocal degrees, the two transposed
    weight stacks, and the three stacks of parameter rows as launched. -/
structure Keeps (e : IVec S2x800000 32) (Wl Wr : FVec F S3x128x128 .f32) (bl g b : FVec F S3x128 .f32)
    (V : Valuation τ sig (Elt F)) : Prop where
  v1 : V (Proc.devRef .tc main_v1) = K.src e
  v3 : V (Proc.devRef .tc main_v3) = K.dst e
  v12 : V (Proc.devRef .tc main_v12) = K.invCol (F := F) e
  v13 : V (Proc.devRef .tc main_v13) = K.wT Wl
  v14 : V (Proc.devRef .tc main_v14) = K.wT Wr
  a3 : V (Proc.devRef .tc main_arg3) = bl
  a5 : V (Proc.devRef .tc main_arg5) = g
  a6 : V (Proc.devRef .tc main_arg6) = b

/-- The list of those buffers. -/
abbrev kept : List (Ref sig .tc) := [main_v1, main_v3, main_v12, main_v13, main_v14, main_arg3, main_arg5, main_arg6]

/-- A stretch that writes none of them keeps them. -/
theorem Keeps.step {e : IVec S2x800000 32} {Wl Wr : FVec F S3x128x128 .f32} {bl g b : FVec F S3x128 .f32}
    {V : Valuation τ sig (Elt F)} (hk : Keeps e Wl Wr bl g b V) {ops : List (HloOp τ sig (Elt F))} {wr : List (Ref sig .tc)}
    (hw : ops.Forall fun op => op.writes ⊆ (wr.map (Proc.devRef (τ := τ) .tc)).toFinset)
    (hr : ∀ r ∈ kept, r ∉ wr) : Keeps e Wl Wr bl g b (StableHlo.after ops V) where
  v1 := (StableHlo.after_of_writes_sub _ V hw (hr main_v1 (by decide))).trans hk.v1
  v3 := (StableHlo.after_of_writes_sub _ V hw (hr main_v3 (by decide))).trans hk.v3
  v12 := (StableHlo.after_of_writes_sub _ V hw (hr main_v12 (by decide))).trans hk.v12
  v13 := (StableHlo.after_of_writes_sub _ V hw (hr main_v13 (by decide))).trans hk.v13
  v14 := (StableHlo.after_of_writes_sub _ V hw (hr main_v14 (by decide))).trans hk.v14
  a3 := (StableHlo.after_of_writes_sub _ V hw (hr main_arg3 (by decide))).trans hk.a3
  a5 := (StableHlo.after_of_writes_sub _ V hw (hr main_arg5 (by decide))).trans hk.a5
  a6 := (StableHlo.after_of_writes_sub _ V hw (hr main_arg6 (by decide))).trans hk.a6

/-- The first stretch sets them up, from the arguments. -/
theorem keeps0 (V : Valuation τ sig (Elt F)) :
    Keeps (V (Proc.devRef .tc main_arg1)) (V (Proc.devRef .tc main_arg2)) (V (Proc.devRef .tc main_arg4)) (V (Proc.devRef .tc main_arg3))
      (V (Proc.devRef .tc main_arg5)) (V (Proc.devRef .tc main_arg6)) (StableHlo.after hostOps0 V) where
  v1 := s0_v1 V
  v3 := s0_v3 V
  v12 := s0_v12 V
  v13 := s0_v13 V
  v14 := s0_v14 V
  a3 := carry0 V (by decide)
  a5 := carry0 V (by decide)
  a6 := carry0 V (by decide)

end Cert.Sage.KH

end
-- ==== Proof.KHost.lean ====
/-
  The kernel's program read end to end: its result array is the three layers composed, of the argument arrays.

  The buffer contents at each boundary of the run are followed from the launch: a host stretch leaves in the buffers
  a layer reads the terms of KTerms.lean (KHostOps.lean, over any starting contents); a fused layer leaves in its output
  array the layer on whole arrays, of its eight input arrays as it finds them (Region0/1/2.lean), and every buffer that
  is not its output as it was. The edge rows, the reciprocal degrees, the transposed weights and the parameter stacks are
  written once and carried through every later boundary.
-/
import proofs.«421054_j73529840107534_3_alg».proof.Proof.Gen.KernelIdeal.Frame
import proofs.«421054_j73529840107534_3_alg».proof.Proof.Spec
import proofs.«421054_j73529840107534_3_alg».proof.Proof.KTerms
import proofs.«421054_j73529840107534_3_alg».proof.Proof.Region0
import proofs.«421054_j73529840107534_3_alg».proof.Proof.Region1
import proofs.«421054_j73529840107534_3_alg».proof.Proof.Region2
import proofs.«421054_j73529840107534_3_alg».proof.Proof.KHostOps
import Idealize.ShloMosaic.Lib.StableHlo.Run

set_option maxRecDepth 16384

noncomputable section

namespace Cert.Sage

open Cert.KernelIdeal Cert.KernelIdeal.Gen Idealize.ShloMosaic Idealize.ShloMosaic.TcCoe Idealize.SL.Sem

namespace KH

variable (m : (ℓ : Loc nD τ sig) → Buf (Elt Ideal) ℓ) (ρ : Dev nD → PrngReg) (c : Dev nD)

/-- Core `c`'s seven argument arrays as launched: the features, the edge list, the two weight stacks, the bias, scale
    and shift stacks. -/
abbrev ax : FVec Ideal S50000x128 .f32 := m ((c.tc : Thread nD τ).loc main_arg0)
abbrev ae : IVec S2x800000 32 := m ((c.tc : Thread nD τ).loc main_arg1)
abbrev aWl : FVec Ideal S3x128x128 .f32 := m ((c.tc : Thread nD τ).loc main_arg2)
abbrev abl : FVec Ideal S3x128 .f32 := m ((c.tc : Thread nD τ).loc main_arg3)
abbrev aWr : FVec Ideal S3x128x128 .f32 := m ((c.tc : Thread nD τ).loc main_arg4)
abbrev ag : FVec Ideal S3x128 .f32 := m ((c.tc : Thread nD τ).loc main_arg5)
abbrev ab : FVec Ideal S3x128 .f32 := m ((c.tc : Thread nD τ).loc main_arg6)

/-- The features after layer 0, and after layer 1. -/
abbrev L0 : FVec Ideal S50000x128 .f32 := K.layer0 (ax m c) (ae m c) (aWl m c) (abl m c) (aWr m c) (ag m c) (ab m c)
abbrev L1 : FVec Ideal S50000x128 .f32 := K.layer1 (L0 m c) (ae m c) (aWl m c) (abl m c) (aWr m c) (ag m c) (ab m c)

/-! ## From the launch to layer 0 -/

theorem keeps1 : KH.Keeps (ae m c) (aWl m c) (aWr m c) (abl m c) (ag m c) (ab m c) (W1 m ρ c) := KH.keeps0 (W0 m ρ c)
theorem keeps2 : KH.Keeps (ae m c) (aWl m c) (aWr m c) (abl m c) (ag m c) (ab m c) (W2 m ρ c) := (keeps1 m ρ c).step KH.writes0_1 (by decide)
theorem keeps3 : KH.Keeps (ae m c) (aWl m c) (aWr m c) (abl m c) (ag m c) (ab m c) (W3 m ρ c) := (keeps2 m ρ c).step KH.writes0_2 (by decide)

theorem W1_x : W1 m ρ c (Proc.devRef .tc main_arg0) = ax m c := KH.carry0 _ (by decide)
theorem W2_x : W2 m ρ c (Proc.devRef .tc main_arg0) = ax m c := (KH.carry0_1 _ (by decide)).trans (W1_x m ρ c)
theorem W3_x : W3 m ρ c (Proc.devRef .tc main_arg0) = ax m c := (KH.carry0_2 _ (by decide)).trans (W2_x m ρ c)
theorem W2_t : W2 m ρ c (Proc.devRef .tc main_v15) = K.take (ax m c) (ae m c) :=
  KH.take0 _ _ _ (keeps1 m ρ c).v1 (W1_x m ρ c)

/-- Layer 0's eight input arrays as it finds them are the layer's terms. -/
theorem layer0_in : Cert.Sage.layerArr (V3 m ρ c main_v18) (V3 m ρ c main_v12) (V3 m ρ c main_arg0) (V3 m ρ c main_v20)
      (V3 m ρ c main_v29) (V3 m ρ c main_v24) (V3 m ρ c main_v30) (V3 m ρ c main_v31)
    = K.layer0 (ax m c) (ae m c) (aWl m c) (abl m c) (aWr m c) (ag m c) (ab m c) := by
  rw [show V3 m ρ c main_v18 = K.agg (ax m c) (ae m c) from KH.agg0 _ _ _ (keeps2 m ρ c).v3 (W2_t m ρ c),
    show V3 m ρ c main_v12 = K.invCol (F := Ideal) (ae m c) from (keeps3 m ρ c).v12,
    show V3 m ρ c main_arg0 = ax m c from W3_x m ρ c,
    show V3 m ρ c main_v20 = K.mat0 (aWl m c) from KH.matl0 _ _ (keeps2 m ρ c).v13,
    show V3 m ρ c main_v29 = K.row0 (abl m c) from KH.rowbl0 _ _ (keeps2 m ρ c).a3,
    show V3 m ρ c main_v24 = K.mat0 (aWr m c) from KH.matr0 _ _ (keeps2 m ρ c).v14,
    show V3 m ρ c main_v30 = K.row0 (ag m c) from KH.rowg0 _ _ (keeps2 m ρ c).a5,
    show V3 m ρ c main_v31 = K.row0 (ab m c) from KH.rowb0 _ _ (keeps2 m ρ c).a6]
  rfl

/-- Layer 0's output array when the call returns. -/
theorem W4_h : W4 m ρ c (Proc.devRef .tc main_v32) = L0 m c :=
  (W4_arr m ρ c 8).trans ((K0.arr_out (V3 m ρ) c).trans (layer0_in m ρ c))

/-- The fused layer writes none of the carried buffers (the reciprocal degrees it reads through an input window). -/
theorem keeps4 : KH.Keeps (ae m c) (aWl m c) (aWr m c) (abl m c) (ag m c) (ab m c) (W4 m ρ c) where
  v1 := (W4_of_ne m ρ c main_v1 (by decide)).trans (keeps3 m ρ c).v1
  v3 := (W4_of_ne m ρ c main_v3 (by decide)).trans (keeps3 m ρ c).v3
  v12 := ((W4_arr m ρ c 1).trans (((dat0 (V3 m ρ) c).arrAt_in 1 rfl _).trans (A_eq0 (V3 m ρ) c 1))).trans (keeps3 m ρ c).v12
  v13 := (W4_of_ne m ρ c main_v13 (by decide)).trans (keeps3 m ρ c).v13
  v14 := (W4_of_ne m ρ c main_v14 (by decide)).trans (keeps3 m ρ c).v14
  a3 := (W4_of_ne m ρ c main_arg3 (by decide)).trans (keeps3 m ρ c).a3
  a5 := (W4_of_ne m ρ c main_arg5 (by decide)).trans (keeps3 m ρ c).a5
  a6 := (W4_of_ne m ρ c main_arg6 (by decide)).trans (keeps3 m ρ c).a6

/-! ## From layer 0 to layer 1 -/

theorem keeps5 : KH.Keeps (ae m c) (aWl m c) (aWr m c) (abl m c) (ag m c) (ab m c) (W5 m ρ c) := (keeps4 m ρ c).step KH.writes1 (by decide)
theorem keeps6 : KH.Keeps (ae m c) (aWl m c) (aWr m c) (abl m c) (ag m c) (ab m c) (W6 m ρ c) := (keeps5 m ρ c).step KH.writes1_1 (by decide)

theorem W5_h : W5 m ρ c (Proc.devRef .tc main_v32) = L0 m c := (KH.carry1 _ (by decide)).trans (W4_h m ρ c)
theorem W6_h : W6 m ρ c (Proc.devRef .tc main_v32) = L0 m c := (KH.carry1_1 _ (by decide)).trans (W5_h m ρ c)
theorem W5_t : W5 m ρ c (Proc.devRef .tc main_v33) = K.take (L0 m c) (ae m c) :=
  KH.take1 _ _ _ (keeps4 m ρ c).v1 (W4_h m ρ c)

/-- Layer 1's eight input arrays as it finds them are the layer's terms. -/
theorem layer1_in : Cert.Sage.layerArr (V6 m ρ c main_v36) (V6 m ρ c main_v12) (V6 m ρ c main_v32) (V6 m ρ c main_v38)
      (V6 m ρ c main_v47) (V6 m ρ c main_v42) (V6 m ρ c main_v48) (V6 m ρ c main_v49)
    = K.layer1 (L0 m c) (ae m c) (aWl m c) (abl m c) (aWr m c) (ag m c) (ab m c) := by
  rw [show V6 m ρ c main_v36 = K.agg (L0 m c) (ae m c) from KH.agg1 _ _ _ (keeps5 m ρ c).v3 (W5_t m ρ c),
    show V6 m ρ c main_v12 = K.invCol (F := Ideal) (ae m c) from (keeps6 m ρ c).v12,
    show V6 m ρ c main_v32 = L0 m c from W6_h m ρ c,
    show V6 m ρ c main_v38 = K.mat1 (aWl m c) from KH.matl1 _ _ (keeps5 m ρ c).v13,
    show V6 m ρ c main_v47 = K.row1 (abl m c) from KH.rowbl1 _ _ (keeps5 m ρ c).a3,
    show V6 m ρ c main_v42 = K.mat1 (aWr m c) from KH.matr1 _ _ (keeps5 m ρ c).v14,
    show V6 m ρ c main_v48 = K.row1 (ag m c) from KH.rowg1 _ _ (keeps5 m ρ c).a5,
    show V6 m ρ c main_v49 = K.row1 (ab m c) from KH.rowb1 _ _ (keeps5 m ρ c).a6]
  rfl

/-- Layer 1's output array when the call returns. -/
theorem W7_h : W7 m ρ c (Proc.devRef .tc main_v50) = L1 m c :=
  (W7_arr m ρ c 8).trans ((K1.arr_out (V6 m ρ) c).trans (layer1_in m ρ c))

/-- The fused layer writes none of the carried buffers (the reciprocal degrees it reads through an input window). -/
theorem keeps7 : KH.Keeps (ae m c) (aWl m c) (aWr m c) (abl m c) (ag m c) (ab m c) (W7 m ρ c) where
  v1 := (W7_of_ne m ρ c main_v1 (by decide)).trans (keeps6 m ρ c).v1
  v3 := (W7_of_ne m ρ c main_v3 (by decide)).trans (keeps6 m ρ c).v3
  v12 := ((W7_arr m ρ c 1).trans (((dat1 (V6 m ρ) c).arrAt_in 1 rfl _).trans (A_eq1 (V6 m ρ) c 1))).trans (keeps6 m ρ c).v12
  v13 := (W7_of_ne m ρ c main_v13 (by decide)).trans (keeps6 m ρ c).v13
  v14 := (W7_of_ne m ρ c main_v14 (by decide)).trans (keeps6 m ρ c).v14
  a3 := (W7_of_ne m ρ c main_arg3 (by decide)).trans (keeps6 m ρ c).a3
  a5 := (W7_of_ne m ρ c main_arg5 (by decide)).trans (keeps6 m ρ c).a5
  a6 := (W7_of_ne m ρ c main_arg6 (by decide)).trans (keeps6 m ρ c).a6

/-! ## From layer 1 to layer 2 -/

theorem keeps8 : KH.Keeps (ae m c) (aWl m c) (aWr m c) (abl m c) (ag m c) (ab m c) (W8 m ρ c) := (keeps7 m ρ c).step KH.writes2 (by decide)
theorem keeps9 : KH.Keeps (ae m c) (aWl m c) (aWr m c) (abl m c) (ag m c) (ab m c) (W9 m ρ c) := (keeps8 m ρ c).step KH.writes2_1 (by decide)

theorem W8_h : W8 m ρ c (Proc.devRef .tc main_v50) = L1 m c := (KH.carry2 _ (by decide)).trans (W7_h m ρ c)
theorem W9_h : W9 m ρ c (Proc.devRef .tc main_v50) = L1 m c := (KH.carry2_1 _ (by decide)).trans (W8_h m ρ c)
theorem W8_t : W8 m ρ c (Proc.devRef .tc main_v51) = K.take (L1 m c) (ae m c) :=
  KH.take2 _ _ _ (keeps7 m ρ c).v1 (W7_h m ρ c)

/-- Layer 2's eight input arrays as it finds them are the layer's terms. -/
theorem layer2_in : Cert.Sage.layerArr (V9 m ρ c main_v54) (V9 m ρ c main_v12) (V9 m ρ c main_v50) (V9 m ρ c main_v56)
      (V9 m ρ c main_v65) (V9 m ρ c main_v60) (V9 m ρ c main_v66) (V9 m ρ c main_v67)
    = K.layer2 (L1 m c) (ae m c) (aWl m c) (abl m c) (aWr m c) (ag m c) (ab m c) := by
  rw [show V9 m ρ c main_v54 = K.agg (L1 m c) (ae m c) from KH.agg2 _ _ _ (keeps8 m ρ c).v3 (W8_t m ρ c),
    show V9 m ρ c main_v12 = K.invCol (F := Ideal) (ae m c) from (keeps9 m ρ c).v12,
    show V9 m ρ c main_v50 = L1 m c from W9_h m ρ c,
    show V9 m ρ c main_v56 = K.mat2 (aWl m c) from KH.matl2 _ _ (keeps8 m ρ c).v13,
    show V9 m ρ c main_v65 = K.row2 (abl m c) from KH.rowbl2 _ _ (keeps8 m ρ c).a3,
    show V9 m ρ c main_v60 = K.mat2 (aWr m c) from KH.matr2 _ _ (keeps8 m ρ c).v14,
    show V9 m ρ c main_v66 = K.row2 (ag m c) from KH.rowg2 _ _ (keeps8 m ρ c).a5,
    show V9 m ρ c main_v67 = K.row2 (ab m c) from KH.rowb2 _ _ (keeps8 m ρ c).a6]
  rfl

/-- Layer 2's output array when the call returns. -/
theorem W10_h : W10 m ρ c (Proc.devRef .tc main_v68) = K.layer2 (L1 m c) (ae m c) (aWl m c) (abl m c) (aWr m c) (ag m c) (ab m c) :=
  (W10_arr m ρ c 8).trans ((K2.arr_out (V9 m ρ) c).trans (layer2_in m ρ c))

end KH

theorem kernel_value (m : (ℓ : Loc nD τ sig) → Buf (Elt Ideal) ℓ) (ρ : Dev nD → PrngReg) (c : Dev nD) :
    W10 (F := Ideal) m ρ c (Proc.devRef .tc main_v68)
      = K.value (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  KH.W10_h m ρ c

end Cert.Sage

end
-- ==== Proof.LibHostRows.lean ====
/-
  Host layout operations and the host's row sum read at an index, for arrays of rows: a vector made a column, a
  scalar broadcast anywhere, a column broadcast along the rows, a vector made a row, a row broadcast down the
  rows, and the sum of a matrix's rows. Stated for any extents.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibHostRows

open Idealize.ShloMosaic Idealize.ShloMosaic.ValueIdx

/-- The host's sum over the second axis of an `a × b` array, read at row `r`: the initial value plus the sum of
    the row. -/
theorem hostReduceAdd_rows_apply {a b : ℕ} {φ : FTy} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel) (r : Fin a) :
    Host.reduceAdd x init h hu (ix1 r) = init ix0 + ∑ k : Fin b, x (ix2 r k) := by
  have hR : (⟨2, ![a, b]⟩ : Shape).Reduces [1] ⟨1, ![a]⟩ := ⟨h.1, Nat.one_pos, h.2⟩
  have e0 : Shape.Idx.first hu = ix0 := eq_ix0 _
  unfold Host.reduceAdd
  rw [Ideal.hostReduceAdd_def, Ideal.hostReduceAdd_single h hR, e0]
  refine congrArg (fun z => init ix0 + z) (Finset.sum_congr rfl fun k _ => congrArg x ?_)
  funext c
  match c with
  | ⟨0, _⟩ => rfl
  | ⟨1, _⟩ => rfl

/-- A vector of length `a` broadcast to an `a × 1` column reads its own entry. -/
theorem broadcastInDim_vec_col_apply {a : ℕ} {α : Type} (v : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ ![0] h v (ix2 r z) = v (ix1 r) := by
  refine broadcastInDim_apply _ h v (ix2 r z) (ix1 r) fun ax => ?_
  match ax with
  | ⟨0, _⟩ =>
    show r.val = if a = 1 then 0 else r.val
    split
    · have := r.isLt; omega
    · rfl

/-- A scalar broadcast to any shape reads the scalar. -/
theorem broadcastInDim_scalar_apply {t : Shape} {α : Type} (v : (⟨0, ![]⟩ : Shape).Idx → α)
    (h : (⟨0, ![]⟩ : Shape).BroadcastsInDim t (![] : Fin 0 → Fin t.rank)) (j : t.Idx) :
    broadcastInDim t ![] h v j = v ix0 := by
  exact broadcastInDim_apply _ h v j ix0 fun ax => ax.elim0

/-- An `a × 1` column broadcast to `a × b` reads the column's entry of the row. -/
theorem broadcastInDim_col_apply {a b : ℕ} {α : Type} (v : (⟨2, ![a, 1]⟩ : Shape).Idx → α)
    (h : (⟨2, ![a, 1]⟩ : Shape).BroadcastsInDim ⟨2, ![a, b]⟩ (![0, 1] : Fin 2 → Fin 2)) (r : Fin a) (k : Fin b) :
    broadcastInDim ⟨2, ![a, b]⟩ ![0, 1] h v (ix2 r k) = v (ix2 r (0 : Fin 1)) := by
  refine broadcastInDim_apply _ h v (ix2 r k) (ix2 r (0 : Fin 1)) fun ax => ?_
  match ax with
  | ⟨0, _⟩ =>
    show r.val = if a = 1 then 0 else r.val
    split
    · have := r.isLt; omega
    · rfl
  | ⟨1, _⟩ => rfl

/-- A vector of length `b` broadcast to a `1 × b` row reads its own entry. -/
theorem broadcastInDim_vec_row_apply {b : ℕ} {α : Type} (v : (⟨1, ![b]⟩ : Shape).Idx → α)
    (h : (⟨1, ![b]⟩ : Shape).BroadcastsInDim ⟨2, ![1, b]⟩ (![1] : Fin 1 → Fin 2)) (z : Fin 1) (k : Fin b) :
    broadcastInDim ⟨2, ![1, b]⟩ ![1] h v (ix2 z k) = v (ix1 k) := by
  refine broadcastInDim_apply _ h v (ix2 z k) (ix1 k) fun ax => ?_
  match ax with
  | ⟨0, _⟩ =>
    show k.val = if b = 1 then 0 else k.val
    split
    · have := k.isLt; omega
    · rfl

/-- A `1 × b` row broadcast to `a × b` reads the row's entry of the column. -/
theorem broadcastInDim_row_apply {a b : ℕ} {α : Type} (v : (⟨2, ![1, b]⟩ : Shape).Idx → α)
    (h : (⟨2, ![1, b]⟩ : Shape).BroadcastsInDim ⟨2, ![a, b]⟩ (![0, 1] : Fin 2 → Fin 2)) (r : Fin a) (k : Fin b) :
    broadcastInDim ⟨2, ![a, b]⟩ ![0, 1] h v (ix2 r k) = v (ix2 (0 : Fin 1) k) := by
  refine broadcastInDim_apply _ h v (ix2 r k) (ix2 (0 : Fin 1) k) fun ax => ?_
  match ax with
  | ⟨0, _⟩ => rfl
  | ⟨1, _⟩ =>
    show k.val = if b = 1 then 0 else k.val
    split
    · have := k.isLt; omega
    · rfl

end Cert.LibHostRows

end
-- ==== Proof.RefLayers.lean ====
/-
  The reference, one layer at a time. A layer is written as two functions of arrays — the row before normalisation,
  and the normalisation with scale, shift and rectifier — with the reference's own operations; each layer's last
  stage IS those two composed, of the layer's input stages (by unfolding the stages between). Read at a row and a
  column the two functions are the specification's row functions of that row's data, so each layer's last stage is the
  layer on whole arrays, of that layer's summed neighbour features, the reciprocal-degree column, the layer's input
  features and its parameter stages.
-/
import proofs.«421054_j73529840107534_3_alg».proof.Proof.RefRead
import proofs.«421054_j73529840107534_3_alg».proof.Proof.Spec
import proofs.«421054_j73529840107534_3_alg».proof.Proof.LibHostRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.R

open Cert.ReferenceIdeal Cert.ReferenceIdeal.Facts₀ Cert.ReferenceIdeal.Facts Cert.ReferenceIdeal.Read
open Idealize.ShloMosaic Idealize.ShloMosaic.ValueIdx

section Terms

variable {F : FTy → Type} [FloatOps F]

/-- The row before normalisation, for every node: (A · iv) Wl + bl + h Wr, the matrices with the contraction
    index first. -/
def preArr (A h : FVec F S50000x128 .f32) (iv : FVec F S50000x1 .f32) (wl : FVec F S128x128 .f32) (bl : FVec F S1x128 .f32)
    (wr : FVec F S128x128 .f32) : FVec F S50000x128 .f32 :=
  addf
    (addf (Host.dotGeneral dot_S50000x128_S128x128_S50000x128_1_0_0_1_n_n none (mulf A (broadcastInDim S50000x128 ![0, 1] bcast_S50000x1_S50000x128_0_1 iv)) wl)
      (broadcastInDim S50000x128 ![0, 1] bcast_S1x128_S50000x128_0_1 bl))
    (Host.dotGeneral dot_S50000x128_S128x128_S50000x128_1_0_0_1_n_n none h wr)

/-- Each row's sum divided by 128, as a column. -/
def meanCol (v : FVec F S50000x128 .f32) : FVec F S50000x1 .f32 :=
  Host.divf
    (broadcastInDim S50000x1 ![0] bcast_S50000_S50000x1_0
      (Host.reduceAdd v (constant S_ .f32 0x00000000#32) reducesTo_S50000x128_S50000_d1 h_S_))
    (broadcastInDim S50000x1 ![] bcast_S_S50000x1 (constant S_ .f32 0x43000000#32))

/-- Each row minus its mean. -/
def cenArr (v : FVec F S50000x128 .f32) : FVec F S50000x128 .f32 :=
  subf v (broadcastInDim S50000x128 ![0, 1] bcast_S50000x1_S50000x128_0_1 (meanCol v))

/-- Normalise every row, scale by g, shift by b, rectify. -/
def normArr (v : FVec F S50000x128 .f32) (g b : FVec F S1x128 .f32) : FVec F S50000x128 .f32 :=
  maximumf
    (addf
      (mulf
        (mulf (cenArr v)
          (broadcastInDim S50000x128 ![0, 1] bcast_S50000x1_S50000x128_0_1
            (Host.rsqrt
              (addf (meanCol (mulf (cenArr v) (cenArr v)))
                (broadcastInDim S50000x1 ![] bcast_S_S50000x1 (constant S_ .f32 0x3727C5AC#32))))))
        (broadcastInDim S50000x128 ![0, 1] bcast_S1x128_S50000x128_0_1 g))
      (broadcastInDim S50000x128 ![0, 1] bcast_S1x128_S50000x128_0_1 b))
    (broadcastInDim S50000x128 ![] bcast_S_S50000x128 (constant S_ .f32 0x00000000#32))

variable (x0 : FVec F S50000x128 .f32) (x1 : IVec S2x800000 32) (x2 : FVec F S3x128x128 .f32) (x3 : FVec F S3x128 .f32)
  (x4 : FVec F S3x128x128 .f32) (x5 x6 : FVec F S3x128 .f32)

/-- Layer 0's last stage is the two functions composed, of the layer's input stages. -/
theorem stage0 :
    val_main_v67 (F := F) x0 x1 x2 x3 x4 x5 x6
      = normArr (preArr (val_main_v22 (F := F) x0 x1) x0 (val_main_v12 (F := F) x1) (val_main_v27 (F := F) x2)
          (val_main_v31 (F := F) x3) (val_main_v36 (F := F) x4)) (val_main_v61 (F := F) x5) (val_main_v64 (F := F) x6) := rfl

/-- Layer 1's last stage likewise, on layer 0's. -/
theorem stage1 :
    val_main_v122 (F := F) x0 x1 x2 x3 x4 x5 x6
      = normArr (preArr (val_main_v77 (F := F) x0 x1 x2 x3 x4 x5 x6) (val_main_v67 (F := F) x0 x1 x2 x3 x4 x5 x6) (val_main_v12 (F := F) x1)
          (val_main_v82 (F := F) x2) (val_main_v86 (F := F) x3) (val_main_v91 (F := F) x4)) (val_main_v116 (F := F) x5)
          (val_main_v119 (F := F) x6) := rfl

/-- Layer 2's last stage likewise, on layer 1's. -/
theorem stage2 :
    val_main_v177 (F := F) x0 x1 x2 x3 x4 x5 x6
      = normArr (preArr (val_main_v132 (F := F) x0 x1 x2 x3 x4 x5 x6) (val_main_v122 (F := F) x0 x1 x2 x3 x4 x5 x6) (val_main_v12 (F := F) x1)
          (val_main_v137 (F := F) x2) (val_main_v141 (F := F) x3) (val_main_v146 (F := F) x4)) (val_main_v171 (F := F) x5)
          (val_main_v174 (F := F) x6) := rfl

end Terms

/-- A 50000 × 128 array times a 128 × 128 matrix, read at (p, q): the sum over k of row p at k times the matrix at (k, q). -/
theorem dot_apply (L : FVec Ideal S50000x128 .f32) (R : FVec Ideal S128x128 .f32) (p : Fin 50000) (q : Fin 128) :
    Host.dotGeneral dot_S50000x128_S128x128_S50000x128_1_0_0_1_n_n none L R (ix2 p q) = ∑ k : Fin 128, L (ix2 p k) * R (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 p q) ((ValueIdx.contrEquiv1 dot_S50000x128_S128x128_S50000x128_1_0_0_1_n_n 128 rfl rfl).symm k) = ix2 p k := funext fun a => Fin.ext (by
    match a with
    | ⟨0, _⟩ => exact lhs_main_v28_0 _ _
    | ⟨1, _⟩ => exact (lhs_main_v28_1 _ _).trans hk)
  have er : dot_S50000x128_S128x128_S50000x128_1_0_0_1_n_n.rhsIdx (ix2 p q) ((ValueIdx.contrEquiv1 dot_S50000x128_S128x128_S50000x128_1_0_0_1_n_n 128 rfl rfl).symm k) = ix2 k q := funext fun a => Fin.ext (by
    match a with
    | ⟨0, _⟩ => exact (rhs_main_v28_0 _ _).trans hk
    | ⟨1, _⟩ => exact rhs_main_v28_1 _ _)
  rw [el, er]

/-- The row before normalisation at (p, q) is the specification's, of row p's data. -/
theorem preArr_apply (A h : FVec Ideal S50000x128 .f32) (iv : FVec Ideal S50000x1 .f32) (wl : FVec Ideal S128x128 .f32)
    (bl : FVec Ideal S1x128 .f32) (wr : FVec Ideal S128x128 .f32) (p : Fin 50000) (q : Fin 128) :
    preArr A h iv wl bl wr (ix2 p q)
      = Cert.Sage.preNorm (fun k => A (ix2 p k)) (fun k => h (ix2 p k)) (iv (ix2 p (0 : Fin 1)))
          (fun k j => wl (ix2 k j)) (fun k j => wr (ix2 k j)) (fun j => bl (ix2 (0 : Fin 1) j)) q := by
  unfold preArr Cert.Sage.preNorm
  show (Host.dotGeneral dot_S50000x128_S128x128_S50000x128_1_0_0_1_n_n none (mulf A (broadcastInDim S50000x128 ![0, 1] bcast_S50000x1_S50000x128_0_1 iv)) wl (ix2 p q)
      + broadcastInDim S50000x128 ![0, 1] bcast_S1x128_S50000x128_0_1 bl (ix2 p q))
      + Host.dotGeneral dot_S50000x128_S128x128_S50000x128_1_0_0_1_n_n none h wr (ix2 p q) = _
  rw [dot_apply, dot_apply, Cert.LibHostRows.broadcastInDim_row_apply]
  refine congrArg₂ (· + ·) (congrArg₂ (· + ·) (Finset.sum_congr rfl fun k _ => ?_) rfl) rfl
  show (A (ix2 p k) * broadcastInDim S50000x128 ![0, 1] bcast_S50000x1_S50000x128_0_1 iv (ix2 p k)) * wl (ix2 k q) = _
  rw [Cert.LibHostRows.broadcastInDim_col_apply]

/-- The mean column at row p is the specification's mean of row p. -/
theorem meanCol_apply (v : FVec Ideal S50000x128 .f32) (p : Fin 50000) :
    meanCol v (ix2 p (0 : Fin 1)) = Cert.Sage.rowMean (fun j => v (ix2 p j)) := by
  unfold meanCol Cert.Sage.rowMean
  show Ideal.div
      (broadcastInDim S50000x1 ![0] bcast_S50000_S50000x1_0
        (Host.reduceAdd v (constant (F := Ideal) S_ .f32 0x00000000#32) reducesTo_S50000x128_S50000_d1 h_S_) (ix2 p (0 : Fin 1)))
      (broadcastInDim S50000x1 ![] bcast_S_S50000x1 (constant (F := Ideal) S_ .f32 0x43000000#32) (ix2 p (0 : Fin 1))) = _
  rw [Cert.LibHostRows.broadcastInDim_vec_col_apply, Cert.LibHostRows.broadcastInDim_scalar_apply,
    Cert.LibHostRows.hostReduceAdd_rows_apply]
  show Ideal.div (Ideal.ofBits .f32 0x00000000#32 + ∑ k : Fin 128, v (ix2 p k)) (Ideal.ofBits .f32 0x43000000#32) = _
  rw [Ideal.ofBits_zero_f32, zero_add]

/-- A centred row. -/
theorem cenArr_apply (v : FVec Ideal S50000x128 .f32) (p : Fin 50000) (q : Fin 128) :
    cenArr v (ix2 p q) = v (ix2 p q) - Cert.Sage.rowMean (fun j => v (ix2 p j)) := by
  unfold cenArr
  show v (ix2 p q) - broadcastInDim S50000x128 ![0, 1] bcast_S50000x1_S50000x128_0_1 (meanCol v) (ix2 p q) = _
  rw [Cert.LibHostRows.broadcastInDim_col_apply, meanCol_apply]

/-- The normalised, scaled, shifted and rectified array at (p, q) is the specification's, of row p. -/
theorem normArr_apply (v : FVec Ideal S50000x128 .f32) (g b : FVec Ideal S1x128 .f32) (p : Fin 50000) (q : Fin 128) :
    normArr v g b (ix2 p q)
      = Cert.Sage.normRelu (fun j => v (ix2 p j)) (fun j => g (ix2 (0 : Fin 1) j)) (fun j => b (ix2 (0 : Fin 1) j)) q := by
  unfold normArr Cert.Sage.normRelu Cert.Sage.rowVar
  show max
      (((cenArr v (ix2 p q)
          * broadcastInDim S50000x128 ![0, 1] bcast_S50000x1_S50000x128_0_1
              (Host.rsqrt (addf (meanCol (mulf (cenArr v) (cenArr v)))
                (broadcastInDim S50000x1 ![] bcast_S_S50000x1 (constant (F := Ideal) S_ .f32 0x3727C5AC#32)))) (ix2 p q))
          * broadcastInDim S50000x128 ![0, 1] bcast_S1x128_S50000x128_0_1 g (ix2 p q))
        + broadcastInDim S50000x128 ![0, 1] bcast_S1x128_S50000x128_0_1 b (ix2 p q))
      (broadcastInDim S50000x128 ![] bcast_S_S50000x128 (constant (F := Ideal) S_ .f32 0x00000000#32) (ix2 p q)) = _
  rw [Cert.LibHostRows.broadcastInDim_col_apply, Cert.LibHostRows.broadcastInDim_row_apply,
    Cert.LibHostRows.broadcastInDim_row_apply, Cert.LibHostRows.broadcastInDim_scalar_apply, cenArr_apply]
  show max (((v (ix2 p q) - Cert.Sage.rowMean fun j => v (ix2 p j))
        * Ideal.rsqrt (meanCol (mulf (cenArr v) (cenArr v)) (ix2 p (0 : Fin 1))
            + broadcastInDim S50000x1 ![] bcast_S_S50000x1 (constant (F := Ideal) S_ .f32 0x3727C5AC#32) (ix2 p (0 : Fin 1))))
        * g (ix2 (0 : Fin 1) q) + b (ix2 (0 : Fin 1) q)) (Ideal.ofBits .f32 0x00000000#32) = _
  rw [meanCol_apply, Cert.LibHostRows.broadcastInDim_scalar_apply]
  have hc : (fun j => mulf (cenArr v) (cenArr v) (ix2 p j))
      = fun j => (v (ix2 p j) - Cert.Sage.rowMean fun j => v (ix2 p j)) * (v (ix2 p j) - Cert.Sage.rowMean fun j => v (ix2 p j)) := by
    funext j
    show cenArr v (ix2 p j) * cenArr v (ix2 p j) = _
    rw [cenArr_apply]
  unfold Cert.Sage.rowMean at hc ⊢
  rw [hc]
  rfl

/-- The two functions composed are the layer on whole arrays. -/
theorem norm_pre_eq_layerArr (A h : FVec Ideal S50000x128 .f32) (iv : FVec Ideal S50000x1 .f32) (wl : FVec Ideal S128x128 .f32)
    (bl : FVec Ideal S1x128 .f32) (wr : FVec Ideal S128x128 .f32) (g b : FVec Ideal S1x128 .f32) :
    normArr (preArr A h iv wl bl wr) g b = Cert.Sage.layerArr A iv h wl bl wr g b := by
  funext i
  obtain ⟨p, q, rfl⟩ : ∃ (p : Fin 50000) (q : Fin 128), i = ix2 p q := ⟨i 0, i 1, eq_ix2 i⟩
  rw [normArr_apply]
  have hv : (fun j => preArr A h iv wl bl wr (ix2 p j))
      = Cert.Sage.preNorm (fun k => A (ix2 p k)) (fun k => h (ix2 p k)) (iv (ix2 p (0 : Fin 1)))
          (fun k j => wl (ix2 k j)) (fun k j => wr (ix2 k j)) (fun j => bl (ix2 (0 : Fin 1) j)) :=
    funext fun j => preArr_apply A h iv wl bl wr p j
  rw [hv]
  rfl

theorem layer0 (x0 : FVec Ideal S50000x128 .f32) (x1 : IVec S2x800000 32) (x2 : FVec Ideal S3x128x128 .f32) (x3 : FVec Ideal S3x128 .f32)
    (x4 : FVec Ideal S3x128x128 .f32) (x5 x6 : FVec Ideal S3x128 .f32) :
    val_main_v67 (F := Ideal) x0 x1 x2 x3 x4 x5 x6
      = Cert.Sage.layerArr (val_main_v22 (F := Ideal) x0 x1) (val_main_v12 (F := Ideal) x1) x0 (val_main_v27 (F := Ideal) x2)
          (val_main_v31 (F := Ideal) x3) (val_main_v36 (F := Ideal) x4) (val_main_v61 (F := Ideal) x5) (val_main_v64 (F := Ideal) x6) :=
  (stage0 x0 x1 x2 x3 x4 x5 x6).trans (norm_pre_eq_layerArr _ _ _ _ _ _ _ _)

theorem layer1 (x0 : FVec Ideal S50000x128 .f32) (x1 : IVec S2x800000 32) (x2 : FVec Ideal S3x128x128 .f32) (x3 : FVec Ideal S3x128 .f32)
    (x4 : FVec Ideal S3x128x128 .f32) (x5 x6 : FVec Ideal S3x128 .f32) :
    val_main_v122 (F := Ideal) x0 x1 x2 x3 x4 x5 x6
      = Cert.Sage.layerArr (val_main_v77 (F := Ideal) x0 x1 x2 x3 x4 x5 x6) (val_main_v12 (F := Ideal) x1) (val_main_v67 (F := Ideal) x0 x1 x2 x3 x4 x5 x6)
          (val_main_v82 (F := Ideal) x2) (val_main_v86 (F := Ideal) x3) (val_main_v91 (F := Ideal) x4) (val_main_v116 (F := Ideal) x5)
          (val_main_v119 (F := Ideal) x6) :=
  (stage1 x0 x1 x2 x3 x4 x5 x6).trans (norm_pre_eq_layerArr _ _ _ _ _ _ _ _)

theorem layer2 (x0 : FVec Ideal S50000x128 .f32) (x1 : IVec S2x800000 32) (x2 : FVec Ideal S3x128x128 .f32) (x3 : FVec Ideal S3x128 .f32)
    (x4 : FVec Ideal S3x128x128 .f32) (x5 x6 : FVec Ideal S3x128 .f32) :
    val_main_v177 (F := Ideal) x0 x1 x2 x3 x4 x5 x6
      = Cert.Sage.layerArr (val_main_v132 (F := Ideal) x0 x1 x2 x3 x4 x5 x6) (val_main_v12 (F := Ideal) x1) (val_main_v122 (F := Ideal) x0 x1 x2 x3 x4 x5 x6)
          (val_main_v137 (F := Ideal) x2) (val_main_v141 (F := Ideal) x3) (val_main_v146 (F := Ideal) x4) (val_main_v171 (F := Ideal) x5)
          (val_main_v174 (F := Ideal) x6) :=
  (stage2 x0 x1 x2 x3 x4 x5 x6).trans (norm_pre_eq_layerArr _ _ _ _ _ _ _ _)

end Cert.Sage.R

end
-- ==== Proof.PreTake.lean ====
/-
  Under the precondition every source index lies in 0 … 49999, so the gather's out-of-range fill is never chosen:
  the gathered rows are the plain gather's.
-/
import proofs.«421054_j73529840107534_3_alg».proof.Proof.Gen.KernelIdeal
import proofs.«421054_j73529840107534_3_alg».proof.Proof.Gen.Pre_finite_inputs
import proofs.«421054_j73529840107534_3_alg».proof.Proof.Spec
import proofs.«421054_j73529840107534_3_alg».proof.Proof.KTerms
import Idealize.ShloMosaic.Lib.ReduceAll
import Idealize.ShloMosaic.Lib.StableHlo.Predicate
import Idealize.ShloMosaic.Lib.ValueIdx
import Idealize.ShloMosaic.Lib.Pipeline.Value

set_option maxRecDepth 16384

noncomputable section

namespace Cert.Sage

open Cert.KernelIdeal Idealize.ShloMosaic Idealize.ShloMosaic.ValueIdx

instance subsingleton_scalar_idx : Subsingleton Cert.Pre_finite_inputs.S_.Idx := ⟨fun a b => funext fun d => d.elim0⟩

/-- A 32-bit word that is at least 0 and below 50000 as a signed word has a value below 50000. -/
theorem toNat_lt_of_signed_range (w : BitVec 32) (h0 : IntOp.cmpi .sge w 0#32 = 1#1) (h1 : IntOp.cmpi .slt w 50000#32 = 1#1) :
    w.toNat < 50000 := by
  unfold IntOp.cmpi at h0 h1
  rw [StableHlo.Predicate.ofBool_eq_one_iff] at h0 h1
  simp only [BitVec.slt, BitVec.sle, decide_eq_true_eq, BitVec.toInt_eq_toNat_cond] at h0 h1
  have hw := w.isLt
  simp at h0 h1
  omega

/-- The precondition's last two conjuncts, element by element: every entry of the edge list's row 0 is at least 0
    and below 50000 (as signed 32-bit words). -/
theorem src_in_range (x0 : FVec Ideal S50000x128 .f32) (e : IVec S2x800000 32) (x2 : FVec Ideal S3x128x128 .f32)
    (x3 : FVec Ideal S3x128 .f32) (x4 : FVec Ideal S3x128x128 .f32) (x5 x6 : FVec Ideal S3x128 .f32)
    (hpre : Cert.Pre_finite_inputs.fn (F := Ideal) x0 e x2 x3 x4 x5 x6 = fun _ => 1#1) (i : S800000.Idx) :
    (K.src e i).toNat < 50000 := by
  have h := congrFun hpre ValueIdx.ix0
  dsimp only [Cert.Pre_finite_inputs.fn, Cert.Pre_finite_inputs.fn_part1, Cert.Pre_finite_inputs.fn_part2] at h
  -- the conjunction's last two members are the two range tests, each an "all" over the edges
  obtain ⟨h', h39⟩ := IntOp.andi_eq_one.1 h
  obtain ⟨-, h33⟩ := IntOp.andi_eq_one.1 h'
  have a0 := Host.reduce_andi_all _ _ _ _ _ h33 i
  have a1 := Host.reduce_andi_all _ _ _ _ _ h39 i
  exact toNat_lt_of_signed_range (K.src e i) a0 a1

/-- A left fold by "and" from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, _, hi, h =>
    foldl_andi_of_all f l _ (IntOp.andi_eq_one.2 ⟨hi, h a (List.mem_cons_self ..)⟩) (fun n hn => h n (List.mem_cons_of_mem _ hn))

/-- A reduction by "and" from 1 of an array of ones is 1 at every result index. -/
theorem reduce_andi_of_all {s t u : Shape} {axes : List (Fin s.rank)} (x : s.Idx → BitVec 1) (init : u.Idx → BitVec 1)
    (h : s.ReducesTo axes t) (hu : 0 < u.numel) (j : t.Idx) (hi : ∀ k, init k = 1#1) (hx : ∀ i, x i = 1#1) :
    Host.reduce IntOp.andi x init h hu j = 1#1 := by
  rw [Host.reduce_eq_foldl]
  exact foldl_andi_of_all x _ _ (hi _) (fun n _ => hx n)

/-- A word with a value below 50000 passes both signed range tests, 0 ≤ w and w ≤ 49999. -/
theorem range_bits_of_toNat_lt (w : BitVec 32) (h : w.toNat < 50000) :
    IntOp.andi (IntOp.cmpi .sge w 0#32) (IntOp.cmpi .sle w 49999#32) = 1#1 := by
  refine IntOp.andi_eq_one.2 ⟨(StableHlo.Predicate.sge_iff_toNat (by omega) (by decide)).2 ?_,
    (StableHlo.Predicate.sle_iff_toNat (by omega) (by decide)).2 ?_⟩
  · show 0 ≤ w.toNat
    omega
  · show w.toNat ≤ 49999
    omega

/-- A source index with a value below 50000 is not negative as a signed word, so wrapping leaves it as it is. -/
theorem srcN_eq_src (e : IVec S2x800000 32) (hr : ∀ i : S800000.Idx, (K.src e i).toNat < 50000) (k : S800000.Idx) :
    K.srcN e k = K.src e k := by
  have hk := hr k
  have hc : ¬ IntOp.cmpi .slt (K.src e k) 0#32 = 1 := by
    intro hc
    have h0 := (StableHlo.Predicate.slt_iff_toNat (a := K.src e k) (b := 0#32) (by omega) (by decide)).1 hc
    exact absurd h0 (Nat.not_lt_zero _)
  show Scalar.select (IntOp.cmpi .slt (K.src e k) 0#32) (IntOp.addi (K.src e k) 50000#32) (K.src e k) = K.src e k
  unfold Scalar.select
  rw [if_neg hc]

/-- Every edge's in-range bit is 1. -/
theorem inb_eq_one (e : IVec S2x800000 32) (hr : ∀ i : S800000.Idx, (K.src e i).toNat < 50000) (k : S800000.Idx) :
    K.inb e k = 1#1 := by
  unfold K.inb
  refine reduce_andi_of_all _ _ _ _ _ (fun _ => rfl) fun i => ?_
  -- the column's entry at a row is the wrapped source index of that row, which is the source index itself
  show IntOp.andi (IntOp.cmpi .sge (K.srcN e _) 0#32) (IntOp.cmpi .sle (K.srcN e _) 49999#32) = 1#1
  rw [srcN_eq_src e hr]
  exact range_bits_of_toNat_lt _ (hr _)

/-- With every source index in range the fill is never selected. -/
theorem take_eq_gather (h : FVec Ideal S50000x128 .f32) (e : IVec S2x800000 32)
    (hr : ∀ i : S800000.Idx, (K.src e i).toNat < 50000) :
    K.take (F := Ideal) h e = Host.gather gather_S50000x128_S800000x1_S800000x128_1_0_n_n_0_1_1128 h (K.srcCol e) := by
  funext j
  unfold K.take select Scalar.select
  -- the mask broadcast along a row reads the edge's bit, which is 1, so the select returns the gathered entry
  have hm : broadcastInDim S800000x128 ![0] Facts₀.bcast_S800000_S800000x128_0 (K.inb e) j = 1 := inb_eq_one e hr _
  rw [if_pos hm]

end Cert.Sage

end
-- ==== Proof.Bridge.lean ====
/-
  The reference's stages and the kernel program's values are the same arrays: the reciprocal degrees (a reshape on one
  side, a broadcast on the other) and each layer's parameters (transpose then cut on one side, cut then transpose on
  the other).
-/
import proofs.«421054_j73529840107534_3_alg».proof.Proof.RefRead
import proofs.«421054_j73529840107534_3_alg».proof.Proof.Spec
import proofs.«421054_j73529840107534_3_alg».proof.Proof.KTerms
import proofs.«421054_j73529840107534_3_alg».proof.Proof.LibHostRows
import proofs.«421054_j73529840107534_3_alg».proof.Proof.LibVecRows
import Idealize.ShloMosaic.Lib.Pipeline.Value
import Idealize.ShloMosaic.Lib.ValueIdx
import Idealize.ShloMosaic.Lib.ValueLayout

set_option maxRecDepth 16384

noncomputable section

namespace Cert.Sage.B

open Idealize.ShloMosaic Idealize.ShloMosaic.ValueIdx

section Generic
open Cert.KernelIdeal

variable {F : FTy → Type} [FloatOps F]

/-- A stack of `n0` matrices cut to its matrix `l` reads, at `(u, i, j)`, the stack at `(l, i, j)`. -/
theorem slice3_axis0_one_apply {α : Type} {n0 n1 n2 : ℕ} (l : ℕ) (X : (⟨3, ![n0, n1, n2]⟩ : Shape).Idx → α)
    (h : (⟨3, ![n0, n1, n2]⟩ : Shape).Slices ![l, 0, 0] ⟨3, ![1, n1, n2]⟩) (hl : l < n0) (u : Fin 1) (i : Fin n1)
    (j : Fin n2) :
    extractStridedSlice ⟨3, ![1, n1, n2]⟩ ![l, 0, 0] X h (ix3 u i j) = X (ix3 (⟨l, hl⟩ : Fin n0) i j) :=
  extractStridedSlice_apply _ _ _ _ _ (fun ax => by
    match ax with
    | ⟨0, _⟩ =>
      have hu : u.val = 0 := by omega
      show l = l + u.val
      rw [hu, Nat.add_zero]
    | ⟨1, _⟩ => exact (Nat.zero_add _).symm
    | ⟨2, _⟩ => exact (Nat.zero_add _).symm)

/-- The transposed stack cut at matrix `l` and viewed as a matrix reads, at `(k, j)`, the stack at `(l, j, k)`. -/
theorem wSlice_apply (W : FVec F S3x128x128 .f32) (l : ℕ) (hs : S3x128x128.Slices ![l, 0, 0] S1x128x128) (hl : l < 3)
    (k j : Fin 128) : K.wSlice W ![l, 0, 0] hs (ix2 k j) = W (ix3 (⟨l, hl⟩ : Fin 3) j k) := by
  unfold K.wSlice K.wT
  refine (shapeCast_1ab_ab_apply _ _ k j).trans ?_
  refine (slice3_axis0_one_apply l _ hs hl (0 : Fin 1) k j).trans ?_
  exact transpose_ix3_021_apply W _ ⟨l, hl⟩ k j

/-- The stack of rows cut at row `l`, viewed as a vector and then as a `1 × 128` array, reads, at `(z, j)`, the stack
    at `(l, j)`. -/
theorem rowSlice_apply (B : FVec F S3x128 .f32) (l : ℕ) (hs : S3x128.Slices ![l, 0] S1x128) (hl : l < 3) (z : Fin 1)
    (j : Fin 128) : K.rowSlice B ![l, 0] hs (ix2 z j) = B (ix2 (⟨l, hl⟩ : Fin 3) j) := by
  unfold K.rowSlice
  refine (shapeCast_a_1a_apply _ _ z j).trans ?_
  refine (shapeCast_1a_a_apply _ _ j).trans ?_
  exact slice2_axis0_apply l B hs (0 : Fin 1) j ⟨l, hl⟩ rfl

/-- Cut, view as a matrix, transpose: the same array as transpose the stack, cut, view as a matrix. Both read, at
    `(k, j)`, the stack at `(l, j, k)`. -/
theorem mat_eq (W : FVec F S3x128x128 .f32) (l : ℕ) (hl : l < 3)
    (hs : S3x128x128.Slices ![l, 0, 0] S1x128x128) (hc : S1x128x128.ShapeCasts S128x128)
    (ht : S128x128.Transposes [1, 0] S128x128) (hs' : S3x128x128.Slices ![l, 0, 0] S1x128x128) :
    transpose S128x128 [1, 0] (shapeCast S128x128 (extractStridedSlice S1x128x128 ![l, 0, 0] W hs) hc) ht
      = K.wSlice W ![l, 0, 0] hs' := by
  funext i
  obtain ⟨k, j, rfl⟩ : ∃ (k j : Fin 128), i = ix2 k j := ⟨i 0, i 1, eq_ix2 i⟩
  refine Eq.trans ?_ (wSlice_apply W l hs' hl k j).symm
  refine (transpose_ix2_apply _ ht k j).trans ?_
  refine (shapeCast_1ab_ab_apply _ hc j k).trans ?_
  exact slice3_axis0_one_apply l W hs hl (0 : Fin 1) j k

/-- Cut a row, view as a vector, broadcast to a `1 × 128` array: the same array as cut, view as a vector, view as a
    `1 × 128` array. Both read, at `(z, j)`, the stack at `(l, j)`. -/
theorem row_eq (B : FVec F S3x128 .f32) (l : ℕ) (hl : l < 3)
    (hs : S3x128.Slices ![l, 0] S1x128) (hc : S1x128.ShapeCasts S128)
    (hb : S128.BroadcastsInDim S1x128 (![1] : Fin 1 → Fin 2)) (hs' : S3x128.Slices ![l, 0] S1x128) :
    broadcastInDim S1x128 ![1] hb (shapeCast S128 (extractStridedSlice S1x128 ![l, 0] B hs) hc)
      = K.rowSlice B ![l, 0] hs' := by
  funext i
  obtain ⟨z, j, rfl⟩ : ∃ (z : Fin 1) (j : Fin 128), i = ix2 z j := ⟨i 0, i 1, eq_ix2 i⟩
  refine Eq.trans ?_ (rowSlice_apply B l hs' hl z j).symm
  refine (Cert.LibHostRows.broadcastInDim_vec_row_apply _ hb z j).trans ?_
  refine (shapeCast_1a_a_apply _ hc j).trans ?_
  exact slice2_axis0_apply l B hs (0 : Fin 1) j ⟨l, hl⟩ rfl

/-- A vector broadcast to a column is the vector viewed as a column: both read, at `(r, z)`, the vector at `r`. -/
theorem col_eq {α : Type} (v : S50000.Idx → α) (hb : S50000.BroadcastsInDim S50000x1 (![0] : Fin 1 → Fin 2))
    (hc : S50000.ShapeCasts S50000x1) :
    broadcastInDim S50000x1 ![0] hb v = shapeCast S50000x1 v hc := by
  funext i
  obtain ⟨r, z, rfl⟩ : ∃ (r : Fin 50000) (z : Fin 1), i = ix2 r z := ⟨i 0, i 1, eq_ix2 i⟩
  refine (Cert.LibHostRows.broadcastInDim_vec_col_apply v hb r z).trans ?_
  exact (Cert.LibVecRows.shapeCast_col_apply v hc r z).symm

end Generic

/-- The reciprocal clipped in-degrees as a vector: the two programs apply the same operations to the same edge list. -/
theorem invVec_eq {F : FTy → Type} [FloatOps F] (x1 : IVec Cert.KernelIdeal.S2x800000 32) :
    Cert.ReferenceIdeal.Read.val_main_v11 (F := F) x1 = K.invVec (F := F) x1 := by
  unfold Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3 Cert.ReferenceIdeal.Read.val_main_v2 Cert.ReferenceIdeal.Read.val_main_cst Cert.ReferenceIdeal.Read.val_main_cst_0
    Cert.ReferenceIdeal.Read.val_main_cst_1 Cert.ReferenceIdeal.Read.val_main_cst_2 K.invVec K.dstCol K.dst
  rfl

/-- The reciprocal-degree column. -/
theorem inv_eq (x1 : IVec Cert.KernelIdeal.S2x800000 32) : Cert.ReferenceIdeal.Read.val_main_v12 (F := Ideal) x1 = K.invCol (F := Ideal) x1 := by
  unfold Cert.ReferenceIdeal.Read.val_main_v12 K.invCol
  rw [invVec_eq (F := Ideal) x1]
  exact col_eq _ _ _

/-- Layer 0's parameters. -/
theorem wl0 (W : FVec Ideal Cert.KernelIdeal.S3x128x128 .f32) : Cert.ReferenceIdeal.Read.val_main_v27 (F := Ideal) W = K.mat0 (F := Ideal) W := by
  unfold Cert.ReferenceIdeal.Read.val_main_v27 Cert.ReferenceIdeal.Read.val_main_v26 Cert.ReferenceIdeal.Read.val_main_v25 K.mat0
  exact mat_eq W 0 (by decide) _ _ _ _
theorem bl0 (B : FVec Ideal Cert.KernelIdeal.S3x128 .f32) : Cert.ReferenceIdeal.Read.val_main_v31 (F := Ideal) B = K.row0 (F := Ideal) B := by
  unfold Cert.ReferenceIdeal.Read.val_main_v31 Cert.ReferenceIdeal.Read.val_main_v30 Cert.ReferenceIdeal.Read.val_main_v29 K.row0
  exact row_eq B 0 (by decide) _ _ _ _
theorem wr0 (W : FVec Ideal Cert.KernelIdeal.S3x128x128 .f32) : Cert.ReferenceIdeal.Read.val_main_v36 (F := Ideal) W = K.mat0 (F := Ideal) W := by
  unfold Cert.ReferenceIdeal.Read.val_main_v36 Cert.ReferenceIdeal.Read.val_main_v35 Cert.ReferenceIdeal.Read.val_main_v34 K.mat0
  exact mat_eq W 0 (by decide) _ _ _ _
theorem g0 (B : FVec Ideal Cert.KernelIdeal.S3x128 .f32) : Cert.ReferenceIdeal.Read.val_main_v61 (F := Ideal) B = K.row0 (F := Ideal) B := by
  unfold Cert.ReferenceIdeal.Read.val_main_v61 Cert.ReferenceIdeal.Read.val_main_v40 Cert.ReferenceIdeal.Read.val_main_v39 K.row0
  exact row_eq B 0 (by decide) _ _ _ _
theorem b0 (B : FVec Ideal Cert.KernelIdeal.S3x128 .f32) : Cert.ReferenceIdeal.Read.val_main_v64 (F := Ideal) B = K.row0 (F := Ideal) B := by
  unfold Cert.ReferenceIdeal.Read.val_main_v64 Cert.ReferenceIdeal.Read.val_main_v42 Cert.ReferenceIdeal.Read.val_main_v41 K.row0
  exact row_eq B 0 (by decide) _ _ _ _

/-- Layer 1's parameters. -/
theorem wl1 (W : FVec Ideal Cert.KernelIdeal.S3x128x128 .f32) : Cert.ReferenceIdeal.Read.val_main_v82 (F := Ideal) W = K.mat1 (F := Ideal) W := by
  unfold Cert.ReferenceIdeal.Read.val_main_v82 Cert.ReferenceIdeal.Read.val_main_v81 Cert.ReferenceIdeal.Read.val_main_v80 K.mat1
  exact mat_eq W 1 (by decide) _ _ _ _
theorem bl1 (B : FVec Ideal Cert.KernelIdeal.S3x128 .f32) : Cert.ReferenceIdeal.Read.val_main_v86 (F := Ideal) B = K.row1 (F := Ideal) B := by
  unfold Cert.ReferenceIdeal.Read.val_main_v86 Cert.ReferenceIdeal.Read.val_main_v85 Cert.ReferenceIdeal.Read.val_main_v84 K.row1
  exact row_eq B 1 (by decide) _ _ _ _
theorem wr1 (W : FVec Ideal Cert.KernelIdeal.S3x128x128 .f32) : Cert.ReferenceIdeal.Read.val_main_v91 (F := Ideal) W = K.mat1 (F := Ideal) W := by
  unfold Cert.ReferenceIdeal.Read.val_main_v91 Cert.ReferenceIdeal.Read.val_main_v90 Cert.ReferenceIdeal.Read.val_main_v89 K.mat1
  exact mat_eq W 1 (by decide) _ _ _ _
theorem g1 (B : FVec Ideal Cert.KernelIdeal.S3x128 .f32) : Cert.ReferenceIdeal.Read.val_main_v116 (F := Ideal) B = K.row1 (F := Ideal) B := by
  unfold Cert.ReferenceIdeal.Read.val_main_v116 Cert.ReferenceIdeal.Read.val_main_v95 Cert.ReferenceIdeal.Read.val_main_v94 K.row1
  exact row_eq B 1 (by decide) _ _ _ _
theorem b1 (B : FVec Ideal Cert.KernelIdeal.S3x128 .f32) : Cert.ReferenceIdeal.Read.val_main_v119 (F := Ideal) B = K.row1 (F := Ideal) B := by
  unfold Cert.ReferenceIdeal.Read.val_main_v119 Cert.ReferenceIdeal.Read.val_main_v97 Cert.ReferenceIdeal.Read.val_main_v96 K.row1
  exact row_eq B 1 (by decide) _ _ _ _

/-- Layer 2's parameters. -/
theorem wl2 (W : FVec Ideal Cert.KernelIdeal.S3x128x128 .f32) : Cert.ReferenceIdeal.Read.val_main_v137 (F := Ideal) W = K.mat2 (F := Ideal) W := by
  unfold Cert.ReferenceIdeal.Read.val_main_v137 Cert.ReferenceIdeal.Read.val_main_v136 Cert.ReferenceIdeal.Read.val_main_v135 K.mat2
  exact mat_eq W 2 (by decide) _ _ _ _
theorem bl2 (B : FVec Ideal Cert.KernelIdeal.S3x128 .f32) : Cert.ReferenceIdeal.Read.val_main_v141 (F := Ideal) B = K.row2 (F := Ideal) B := by
  unfold Cert.ReferenceIdeal.Read.val_main_v141 Cert.ReferenceIdeal.Read.val_main_v140 Cert.ReferenceIdeal.Read.val_main_v139 K.row2
  exact row_eq B 2 (by decide) _ _ _ _
theorem wr2 (W : FVec Ideal Cert.KernelIdeal.S3x128x128 .f32) : Cert.ReferenceIdeal.Read.val_main_v146 (F := Ideal) W = K.mat2 (F := Ideal) W := by
  unfold Cert.ReferenceIdeal.Read.val_main_v146 Cert.ReferenceIdeal.Read.val_main_v145 Cert.ReferenceIdeal.Read.val_main_v144 K.mat2
  exact mat_eq W 2 (by decide) _ _ _ _
theorem g2 (B : FVec Ideal Cert.KernelIdeal.S3x128 .f32) : Cert.ReferenceIdeal.Read.val_main_v171 (F := Ideal) B = K.row2 (F := Ideal) B := by
  unfold Cert.ReferenceIdeal.Read.val_main_v171 Cert.ReferenceIdeal.Read.val_main_v150 Cert.ReferenceIdeal.Read.val_main_v149 K.row2
  exact row_eq B 2 (by decide) _ _ _ _
theorem b2 (B : FVec Ideal Cert.KernelIdeal.S3x128 .f32) : Cert.ReferenceIdeal.Read.val_main_v174 (F := Ideal) B = K.row2 (F := Ideal) B := by
  unfold Cert.ReferenceIdeal.Read.val_main_v174 Cert.ReferenceIdeal.Read.val_main_v152 Cert.ReferenceIdeal.Read.val_main_v151 K.row2
  exact row_eq B 2 (by decide) _ _ _ _

end Cert.Sage.B

end
-- ==== Proof.BridgeAgg.lean ====
/-
  Where every source index is in range, the reference's summed neighbour features of a layer's input are the kernel
  program's: the same scatter-add of the same gather, the kernel's fill never chosen.
-/
import proofs.«421054_j73529840107534_3_alg».proof.Proof.RefRead
import proofs.«421054_j73529840107534_3_alg».proof.Proof.Spec
import proofs.«421054_j73529840107534_3_alg».proof.Proof.KTerms
import proofs.«421054_j73529840107534_3_alg».proof.Proof.PreTake

set_option maxRecDepth 16384

noncomputable section

namespace Cert.Sage.B

open Idealize.ShloMosaic Idealize.ShloMosaic.ValueIdx

/-- The summed neighbour features of layer 0's input. -/
theorem agg0 (x0 : FVec Ideal Cert.KernelIdeal.S50000x128 .f32) (x1 : IVec Cert.KernelIdeal.S2x800000 32) (x2 : FVec Ideal Cert.KernelIdeal.S3x128x128 .f32) (x3 : FVec Ideal Cert.KernelIdeal.S3x128 .f32)
    (x4 : FVec Ideal Cert.KernelIdeal.S3x128x128 .f32) (x5 x6 : FVec Ideal Cert.KernelIdeal.S3x128 .f32)
    (hr : ∀ i : Cert.KernelIdeal.S800000.Idx, (K.src x1 i).toNat < 50000) :
    Cert.ReferenceIdeal.Read.val_main_v22 (F := Ideal) x0 x1 = K.agg (F := Ideal) x0 x1 := by
  -- the kernel program's gathered rows are the plain gather's; both sides are then one scatter-add of one gather
  unfold K.agg
  rw [take_eq_gather _ _ hr]
  rfl

/-- … of layer 1's input, the reference's layer-0 result. -/
theorem agg1 (x0 : FVec Ideal Cert.KernelIdeal.S50000x128 .f32) (x1 : IVec Cert.KernelIdeal.S2x800000 32) (x2 : FVec Ideal Cert.KernelIdeal.S3x128x128 .f32) (x3 : FVec Ideal Cert.KernelIdeal.S3x128 .f32)
    (x4 : FVec Ideal Cert.KernelIdeal.S3x128x128 .f32) (x5 x6 : FVec Ideal Cert.KernelIdeal.S3x128 .f32)
    (hr : ∀ i : Cert.KernelIdeal.S800000.Idx, (K.src x1 i).toNat < 50000) :
    Cert.ReferenceIdeal.Read.val_main_v77 (F := Ideal) x0 x1 x2 x3 x4 x5 x6 = K.agg (F := Ideal) (Cert.ReferenceIdeal.Read.val_main_v67 (F := Ideal) x0 x1 x2 x3 x4 x5 x6) x1 := by
  -- the kernel program's gathered rows are the plain gather's; both sides are then one scatter-add of one gather
  unfold K.agg
  rw [take_eq_gather _ _ hr]
  rfl

/-- … of layer 2's input, the reference's layer-1 result. -/
theorem agg2 (x0 : FVec Ideal Cert.KernelIdeal.S50000x128 .f32) (x1 : IVec Cert.KernelIdeal.S2x800000 32) (x2 : FVec Ideal Cert.KernelIdeal.S3x128x128 .f32) (x3 : FVec Ideal Cert.KernelIdeal.S3x128 .f32)
    (x4 : FVec Ideal Cert.KernelIdeal.S3x128x128 .f32) (x5 x6 : FVec Ideal Cert.KernelIdeal.S3x128 .f32)
    (hr : ∀ i : Cert.KernelIdeal.S800000.Idx, (K.src x1 i).toNat < 50000) :
    Cert.ReferenceIdeal.Read.val_main_v132 (F := Ideal) x0 x1 x2 x3 x4 x5 x6 = K.agg (F := Ideal) (Cert.ReferenceIdeal.Read.val_main_v122 (F := Ideal) x0 x1 x2 x3 x4 x5 x6) x1 := by
  -- the kernel program's gathered rows are the plain gather's; both sides are then one scatter-add of one gather
  unfold K.agg
  rw [take_eq_gather _ _ hr]
  rfl

end Cert.Sage.B

end
-- ==== Proof.Main.lean ====
/-
  The two programs compute one function. The kernel's program is three fused layers over gathered-and-summed
  neighbour features; the reference is the same three layers written out operation by operation. Layer by layer the
  reference's last stage is the layer on whole arrays (RefLayers), its inputs are the kernel program's values
  (Bridge; for the neighbour sums this uses that every source index is in range, which the precondition says),
  and the kernel's result array is the three layers composed (KHost, over the run KRun keeps the result in); the
  reference's result buffer is its last stage (RefStages, over the run RefRun states).
-/
import proofs.«421054_j73529840107534_3_alg».proof.Defs
import proofs.«421054_j73529840107534_3_alg».proof.Proof.Gen.Kernel.Frame
import proofs.«421054_j73529840107534_3_alg».proof.Proof.Gen.KernelIdeal.Frame
import proofs.«421054_j73529840107534_3_alg».proof.Proof.RefRun
import proofs.«421054_j73529840107534_3_alg».proof.Proof.RefRead
import proofs.«421054_j73529840107534_3_alg».proof.Proof.RefStages
import proofs.«421054_j73529840107534_3_alg».proof.Proof.Gen.Pre_finite_inputs
import proofs.«421054_j73529840107534_3_alg».proof.Proof.Spec
import proofs.«421054_j73529840107534_3_alg».proof.Proof.KTerms
import proofs.«421054_j73529840107534_3_alg».proof.Proof.KRun
import proofs.«421054_j73529840107534_3_alg».proof.Proof.KHost
import proofs.«421054_j73529840107534_3_alg».proof.Proof.RefLayers
import proofs.«421054_j73529840107534_3_alg».proof.Proof.PreTake
import proofs.«421054_j73529840107534_3_alg».proof.Proof.Bridge
import proofs.«421054_j73529840107534_3_alg».proof.Proof.BridgeAgg

set_option maxRecDepth 16384

noncomputable section

namespace Cert.Sage

open Idealize.ShloMosaic Idealize.ShloMosaic.TcCoe Idealize.SL.Sem

/-- Where the precondition holds, the reference's result stage is the kernel program's value of the same arguments. -/
theorem ref_eq_kernel (x0 : FVec Ideal Cert.KernelIdeal.S50000x128 .f32) (x1 : IVec Cert.KernelIdeal.S2x800000 32)
    (x2 : FVec Ideal Cert.KernelIdeal.S3x128x128 .f32) (x3 : FVec Ideal Cert.KernelIdeal.S3x128 .f32)
    (x4 : FVec Ideal Cert.KernelIdeal.S3x128x128 .f32) (x5 x6 : FVec Ideal Cert.KernelIdeal.S3x128 .f32)
    (hpre : Cert.Pre_finite_inputs.fn (F := Ideal) x0 x1 x2 x3 x4 x5 x6 = fun _ => 1#1) :
    Cert.ReferenceIdeal.Read.val_main_v177 (F := Ideal) x0 x1 x2 x3 x4 x5 x6 = K.value x0 x1 x2 x3 x4 x5 x6 := by
  have hr : ∀ i : Cert.KernelIdeal.S800000.Idx, (K.src x1 i).toNat < 50000 :=
    fun i => src_in_range x0 x1 x2 x3 x4 x5 x6 hpre i
  unfold K.value K.layer2 K.layer1 K.layer0
  rw [R.layer2, B.agg2 x0 x1 x2 x3 x4 x5 x6 hr, R.layer1, B.agg1 x0 x1 x2 x3 x4 x5 x6 hr, R.layer0,
    B.agg0 x0 x1 x2 x3 x4 x5 x6 hr]
  simp only [B.inv_eq, B.wl0, B.bl0, B.wr0, B.g0, B.b0, B.wl1, B.bl1, B.wr1, B.g1, B.b1, B.wl2, B.bl2, B.wr2, B.g2, B.b2]

end Cert.Sage

namespace Cert.Proof.SageClaims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the three composed layers of the (agreeing) arguments in their result arrays. -/
theorem algebraic : Cert.algebraic_KernelIdeal_ReferenceIdeal := by
  intro m ρ m' ρ' hpre hagree
  refine ⟨fun c => Cert.Sage.K.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.Sage.kernel_value m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    refine (Cert.Sage.RS.after_ops (F := Ideal) (Idealize.ShloMosaic.StableHlo.launchContents m' c)).trans ?_
    show Cert.ReferenceIdeal.Read.val_main_v177 (F := Ideal)
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) = _
    rw [(hagree c).1, (hagree c).2.1, (hagree c).2.2.1, (hagree c).2.2.2.1,
      (hagree c).2.2.2.2.1, (hagree c).2.2.2.2.2.1, (hagree c).2.2.2.2.2.2]
    exact Cert.Sage.ref_eq_kernel _ _ _ _ _ _ _ (hpre c)

end Cert.Proof.SageClaims

end
-- ==== Proof.lean ====
/-
  The certificate of a three-layer GraphSAGE forward pass: a Pallas kernel fusing, per layer, the degree
  normalisation, both linear maps, the bias, LayerNorm and ReLU over row blocks, against the same network written
  with plain array operations. Over the extended reals the two are one function wherever every edge's source index
  addresses a node (the precondition's last two conjuncts): outside that range the kernel's gather fills a row
  with a not-a-number word where the reference's indexing clamps. The frames are the generated ones; the value
  claim is assembled in Proof/Main.lean.
-/
import proofs.«421054_j73529840107534_3_alg».proof.Defs
import proofs.«421054_j73529840107534_3_alg».proof.Proof.Gen.Kernel
import proofs.«421054_j73529840107534_3_alg».proof.Proof.Gen.Kernel.Skeleton
import proofs.«421054_j73529840107534_3_alg».proof.Proof.Gen.Kernel.Launch
import proofs.«421054_j73529840107534_3_alg».proof.Proof.Gen.Kernel.Points
import proofs.«421054_j73529840107534_3_alg».proof.Proof.Gen.Kernel.Frame
import proofs.«421054_j73529840107534_3_alg».proof.Proof.Gen.KernelIdeal
import proofs.«421054_j73529840107534_3_alg».proof.Proof.Gen.KernelIdeal.Skeleton
import proofs.«421054_j73529840107534_3_alg».proof.Proof.Gen.KernelIdeal.Launch
import proofs.«421054_j73529840107534_3_alg».proof.Proof.Gen.KernelIdeal.Points
import proofs.«421054_j73529840107534_3_alg».proof.Proof.Gen.KernelIdeal.Frame
import proofs.«421054_j73529840107534_3_alg».proof.Proof.Gen.ReferenceIdeal
import proofs.«421054_j73529840107534_3_alg».proof.Proof.Gen.Pre_finite_inputs
import proofs.«421054_j73529840107534_3_alg».proof.Proof.Main
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  SageClaims.frame_k, SageClaims.frame_ki, SageClaims.frame_ri, trivial, SageClaims.algebraic⟩

end Cert.Proof

end
